-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩
abbrev S64x1 : Shape := ⟨2, ![64, 1]⟩

abbrev nBuf : Space → Nat
  | .hbm => 66
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x1, .i32⟩
  | .hbm, ⟨63, _⟩ => ⟨S1x64, .f32⟩
  | .hbm, ⟨64, _⟩ => ⟨S100000x64, .f32⟩
  | .hbm, ⟨65, _⟩ => ⟨S64x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .i32⟩
  | .local _ .vmem, ⟨21, _⟩ => ⟨S10000x1, .i32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S64x64, .f32⟩
  | .local _ .vmem, ⟨28, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_22 : BitVec 32 := 0#32
  let v36 : BitVec 1 := Scalar.cmpi .ne v35 c0_i32_22
  v36

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  broadcasts_S64x1_S64x64 : S64x1.Broadcasts S64x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43_1) S64x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S64x64, .f32⟩
  | .hbm, ⟨92, _⟩ => ⟨S100000x1, .i32⟩
  | .hbm, ⟨93, _⟩ => ⟨S64x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S64, .f32⟩
  | .hbm, ⟨98, _⟩ => ⟨S100000x1, .i32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x64, .f32⟩
  | .hbm, ⟨105, _⟩ => ⟨S64x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_cst : Ref sig .tc := ⟨.hbm, 87, rfl⟩
abbrev main_call2_v0 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KCombine0.lean ====
/-
  Region 0 of the program: one SAGE combine, relu((agg · W_l + b_l) + h · W_r), over ten blocks of 10000 rows.

  At grid point t the body reads rows [10000 t, 10000 t + 10000) of the aggregated features and of the root
  features, the two 64 × 64 weight matrices and the bias row, and stores one block of the result: a function of
  those five values alone. So each input window's buffer holds its array's block at the point, the output window's
  buffer holds that function of the blocks, nothing is carried from point to point, and the region's invariant is
  the untouched rest of the core's scoped memory.
-/
import proofs.«412122_j12154757448413_2_alg».proof.Proof.Gen.Kernel.Launch
import proofs.«412122_j12154757448413_2_alg».proof.Proof.Gen.Kernel.Skeleton
import proofs.«412122_j12154757448413_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is at this parameter
variable (V : (c : Dev nD) → (b : Ref sig .tc) → Buf (Elt F) ((c : Thread nD τ).loc b))

/-! ## The windows' blocks -/

/-- Window `w`'s block of its array at grid point `t`, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched
    its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched
    its block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched
    its block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched
    its block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not fetched
    its block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 10000 × 64 block, the whole 64 × 64 matrix, the whole 1 × 64 row: the body's accesses. -/
abbrev rBlk0 : Rect S10000x64 := Rect.unit (s := S10000x64) ![0, 0] S10000x64.size inb_S10000x64_S10000x64_0_0
abbrev rMat0 : Rect S64x64 := Rect.unit (s := S64x64) ![0, 0] S64x64.size inb_S64x64_S64x64_0_0
abbrev rRow0 : Rect S1x64 := Rect.unit (s := S1x64) ![0, 0] S1x64.size inb_S1x64_S1x64_0_0

/-- The output block after the body, from the five input blocks (aggregated rows, root rows, W_l, bias row, W_r):
    its one store, of relu((agg · W_l + b) + h · W_r). -/
def out0_5 (xa : Vec F S10000x64 .f32) (xh : Vec F S10000x64 .f32) (wl : Vec F S64x64 .f32) (bl : Vec F S1x64 .f32) (wr : Vec F S64x64 .f32) :
    Vec F S10000x64 .f32 :=
  View.canon [⟨rBlk0, k0_pay1 (View.ld xa rBlk0) (View.ld wl rMat0) (View.ld bl rRow0) (View.ld xh rBlk0) (View.ld wr rMat0)⟩]

/-- The one store covers the block. -/
theorem cover0_5 (p0 : Vec F S10000x64 .f32) (y : S10000x64.Idx) :
    ∃ pc ∈ ([⟨rBlk0, p0⟩] : List (View.Piece (Elt F) S10000x64 .f32)), y ∈ pc.1.set :=
  View.cover_of_tiled [⟨rBlk0, p0⟩] S10000x64.size (by rfl) y

/-! ## The body's triple -/

set_option maxHeartbeats 1000000 in
/-- The body on whole buffers, the inputs' at read contents and the output's at anything, runs to the continuation
    with the inputs' as they were and the output's at `out0_5` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S10000x64 .f32) (harg6 : arg6.IsWhole)
    (xa : Vec F S10000x64 .f32) (xh : Vec F S10000x64 .f32) (wl : Vec F S64x64 .f32) (bl : Vec F S1x64 .f32) (wr : Vec F S64x64 .f32)
    (K : PUnit → sProp 𝕄) :
    iprop(owns (c : Thread nD τ) arg1 fullShare xa ∗ owns (c : Thread nD τ) arg2 fullShare xh ∗ owns (c : Thread nD τ) arg3 fullShare wl
        ∗ owns (c : Thread nD τ) arg4 fullShare bl ∗ owns (c : Thread nD τ) arg5 fullShare wr ∗ (∃ d, owns (c : Thread nD τ) arg6 fullShare d)
        ∗ (iprop(owns (c : Thread nD τ) arg1 fullShare xa ∗ owns (c : Thread nD τ) arg2 fullShare xh ∗ owns (c : Thread nD τ) arg3 fullShare wl
            ∗ owns (c : Thread nD τ) arg4 fullShare bl ∗ owns (c : Thread nD τ) arg5 fullShare wr
            ∗ owns (c : Thread nD τ) arg6 fullShare (out0_5 xa xh wl bl wr)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-! ## The region's proof data -/

/-- The proof data on core `c`: the arrays as the region finds them; after the body at point `t` each input's buffer
    at its block and the output's at `out0_5` of the blocks; the invariant the untouched scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KCombine1.lean ====
/-
  Region 1 of the program: one SAGE combine, relu((agg · W_l + b_l) + h · W_r), over ten blocks of 10000 rows.

  At grid point t the body reads rows [10000 t, 10000 t + 10000) of the aggregated features and of the root
  features, the two 64 × 64 weight matrices and the bias row, and stores one block of the result: a function of
  those five values alone. So each input window's buffer holds its array's block at the point, the output window's
  buffer holds that function of the blocks, nothing is carried from point to point, and the region's invariant is
  the untouched rest of the core's scoped memory.
-/
import proofs.«412122_j12154757448413_2_alg».proof.Proof.Gen.Kernel.Launch
import proofs.«412122_j12154757448413_2_alg».proof.Proof.Gen.Kernel.Skeleton
import proofs.«412122_j12154757448413_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is at this parameter
variable (V : (c : Dev nD) → (b : Ref sig .tc) → Buf (Elt F) ((c : Thread nD τ).loc b))

/-! ## The windows' blocks -/

/-- Window `w`'s block of its array at grid point `t`, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched
    its block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched
    its block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched
    its block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched
    its block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched
    its block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole 10000 × 64 block, the whole 64 × 64 matrix, the whole 1 × 64 row: the body's accesses. -/
abbrev rBlk1 : Rect S10000x64 := Rect.unit (s := S10000x64) ![0, 0] S10000x64.size inb_S10000x64_S10000x64_0_0
abbrev rMat1 : Rect S64x64 := Rect.unit (s := S64x64) ![0, 0] S64x64.size inb_S64x64_S64x64_0_0
abbrev rRow1 : Rect S1x64 := Rect.unit (s := S1x64) ![0, 0] S1x64.size inb_S1x64_S1x64_0_0

/-- The output block after the body, from the five input blocks (aggregated rows, root rows, W_l, bias row, W_r):
    its one store, of relu((agg · W_l + b) + h · W_r). -/
def out1_5 (xa : Vec F S10000x64 .f32) (xh : Vec F S10000x64 .f32) (wl : Vec F S64x64 .f32) (bl : Vec F S1x64 .f32) (wr : Vec F S64x64 .f32) :
    Vec F S10000x64 .f32 :=
  View.canon [⟨rBlk1, k1_pay1 (View.ld xa rBlk1) (View.ld wl rMat1) (View.ld bl rRow1) (View.ld xh rBlk1) (View.ld wr rMat1)⟩]

/-- The one store covers the block. -/
theorem cover1_5 (p0 : Vec F S10000x64 .f32) (y : S10000x64.Idx) :
    ∃ pc ∈ ([⟨rBlk1, p0⟩] : List (View.Piece (Elt F) S10000x64 .f32)), y ∈ pc.1.set :=
  View.cover_of_tiled [⟨rBlk1, p0⟩] S10000x64.size (by rfl) y

/-! ## The body's triple -/

set_option maxHeartbeats 1000000 in
/-- The body on whole buffers, the inputs' at read contents and the output's at anything, runs to the continuation
    with the inputs' as they were and the output's at `out1_5` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S10000x64 .f32) (harg6 : arg6.IsWhole)
    (xa : Vec F S10000x64 .f32) (xh : Vec F S10000x64 .f32) (wl : Vec F S64x64 .f32) (bl : Vec F S1x64 .f32) (wr : Vec F S64x64 .f32)
    (K : PUnit → sProp 𝕄) :
    iprop(owns (c : Thread nD τ) arg1 fullShare xa ∗ owns (c : Thread nD τ) arg2 fullShare xh ∗ owns (c : Thread nD τ) arg3 fullShare wl
        ∗ owns (c : Thread nD τ) arg4 fullShare bl ∗ owns (c : Thread nD τ) arg5 fullShare wr ∗ (∃ d, owns (c : Thread nD τ) arg6 fullShare d)
        ∗ (iprop(owns (c : Thread nD τ) arg1 fullShare xa ∗ owns (c : Thread nD τ) arg2 fullShare xh ∗ owns (c : Thread nD τ) arg3 fullShare wl
            ∗ owns (c : Thread nD τ) arg4 fullShare bl ∗ owns (c : Thread nD τ) arg5 fullShare wr
            ∗ owns (c : Thread nD τ) arg6 fullShare (out1_5 xa xh wl bl wr)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The region's proof data -/

/-- The proof data on core `c`: the arrays as the region finds them; after the body at point `t` each input's buffer
    at its block and the output's at `out1_5` of the blocks; the invariant the untouched scoped rest and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KPool2Runs.lean ====
/-
  Region 2 of the program, the dense head fused with the per-graph mean: what the three cases of its body share.

  The body runs at ten grid points. At every point it stores one block of the head's output, relu(h · W + b), and
  adds to two accumulators it keeps in scratch memory between points: a 64 × 64 array of per-graph feature sums and a
  64 × 1 column of per-graph node counts, each the product of the block's one-hot graph-membership matrix (transposed)
  with the head's block, respectively with a column of ones. Two conditions on the point select the case:
  at the first point the accumulators are zeroed before the addition (case A); at the last point the sums are divided by
  the larger of the counts and one and stored into the second output (case C); at the points between neither (case B).
  The second output's window is idle at every point but the last, which is also the only one that writes it back.
-/
import proofs.«412122_j12154757448413_2_alg».proof.Proof.Gen.Kernel.Launch
import proofs.«412122_j12154757448413_2_alg».proof.Proof.Gen.Kernel.Skeleton
import proofs.«412122_j12154757448413_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first point": the condition under which the accumulators are zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point": the condition under which the means are stored. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last point the means' window is idle and is not written back; at the last point it is live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10000x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)
/-- The two accumulators: whole scoped buffers of the kernel's own, passed beside the windows. -/
abbrev scM2_0 : Memref sig .tc .vmem S64x64 .f32 := Memref.whole cc2_scratch0
abbrev scM2_1 : Memref sig .tc .vmem S64x1 .f32 := Memref.whole cc2_scratch1
/-- Views through which the outputs' and the accumulators' contents are stated. -/
abbrev VO2_4 : View sig .tc .vmem S10000x64 .f32 := (Memref.whole cc2_stg4_0 : Memref sig .tc .vmem S10000x64 .f32).view
abbrev VO2_5 : View sig .tc .vmem S64x64 .f32 := (Memref.whole cc2_stg5_0 : Memref sig .tc .vmem S64x64 .f32).view
abbrev VS2_0 : View sig .tc .vmem S64x64 .f32 := scM2_0.view
abbrev VS2_1 : View sig .tc .vmem S64x1 .f32 := scM2_1.view

/-- The region's untouched rest with the two accumulators split out, each owned whole at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA
  rw [Pipeline.scopedRest_split_of_list spec2 c [cc2_scratch0, cc2_scratch1] (by decide) (by decide)]
  simp only [scM2_0, scM2_1, owns_whole]
  rfl

/-! ## Case A: the first point -/

set_option maxHeartbeats 4000000 in
/-- The pieces the body's stores leave in the head's output block and in the two accumulators AT THE FIRST POINT
    (the accumulators zeroed, then added to; the means' window untouched), with the proof that on whole buffers — the
    four inputs' at their contents, the means' at contents handed back untouched, the others at anything — the body
    runs to the continuation holding them so. -/
noncomputable def kernelRun2_A (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) :
    Σ' (L4 : List (View.Piece (Elt F) S10000x64 .f32)) (LS0 : List (View.Piece (Elt F) S64x64 .f32)), { LS1 : List (View.Piece (Elt F) S64x1 .f32) //
      ∀ (xi5 : Vec F S64x64 .f32) (E : Set ℕ) (K : PUnit → sProp 𝕄),
        iprop(owns (c : Thread nD τ) arg1 fullShare x0 ∗ owns (c : Thread nD τ) arg2 fullShare xb ∗ owns (c : Thread nD τ) arg3 fullShare xw ∗ owns (c : Thread nD τ) arg4 fullShare xl
            ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare xb ∗ owns (c : Thread nD τ) arg3 fullShare xw ∗ owns (c : Thread nD τ) arg4 fullShare xl
                ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__head_pool_kernel i arg1 harg1 arg2 harg2 arg3 harg3 arg4 harg4 arg5 harg5 arg6 harg6 arg7 harg7 arg8 harg8) K } := by
  refine ⟨?_, ?_, ?_, fun xi5 E K => ?run⟩
  case run =>
    simp only [cc2__head_pool_kernel_eq_skeleton]; unfold cc2__head_pool_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]; · iexists _; iexact H7
    iexists _; iexact H8

/-! ## Case B: a point between the first and the last -/

set_option maxHeartbeats 4000000 in
/-- The pieces the body's stores leave AT A MIDDLE POINT (the accumulators added to over what the point before left,
    `xs0` and `xs1`; the means' window untouched), with the proof that the body runs so. -/
noncomputable def kernelRun2_B (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32)
    (xs0 : Vec F S64x64 .f32) (xs1 : Vec F S64x1 .f32) :
    Σ' (L4 : List (View.Piece (Elt F) S10000x64 .f32)) (LS0 : List (View.Piece (Elt F) S64x64 .f32)), { LS1 : List (View.Piece (Elt F) S64x1 .f32) //
      ∀ (xi5 : Vec F S64x64 .f32) (E : Set ℕ) (K : PUnit → sProp 𝕄),
        iprop(owns (c : Thread nD τ) arg1 fullShare x0 ∗ owns (c : Thread nD τ) arg2 fullShare xb ∗ owns (c : Thread nD τ) arg3 fullShare xw ∗ owns (c : Thread nD τ) arg4 fullShare xl
            ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare xb ∗ owns (c : Thread nD τ) arg3 fullShare xw ∗ owns (c : Thread nD τ) arg4 fullShare xl
                ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__head_pool_kernel i arg1 harg1 arg2 harg2 arg3 harg3 arg4 harg4 arg5 harg5 arg6 harg6 arg7 harg7 arg8 harg8) K } := by
  refine ⟨?_, ?_, ?_, fun xi5 E K => ?run⟩
  case run =>
    simp only [cc2__head_pool_kernel_eq_skeleton]; unfold cc2__head_pool_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg4.eq_unread hf4; obtain rfl := harg6.eq_unread hf6
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]; · iexists _; iexact H7
    iexists _; iexact H8

/-! ## Case C: the last point -/

set_option maxHeartbeats 4000000 in
/-- The pieces the body's stores leave AT THE LAST POINT (the accumulators added to over what the point before left,
    then the sums divided by the larger of the counts and one and stored into the means' block), with the proof that
    the body runs so. -/
noncomputable def kernelRun2_C (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32)
    (xs0 : Vec F S64x64 .f32) (xs1 : Vec F S64x1 .f32) :
    Σ' (L4 : List (View.Piece (Elt F) S10000x64 .f32)) (L5 : List (View.Piece (Elt F) S64x64 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare xb ∗ owns (c : Thread nD τ) arg3 fullShare xw ∗ owns (c : Thread nD τ) arg4 fullShare xl
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare xb ∗ owns (c : Thread nD τ) arg3 fullShare xw ∗ owns (c : Thread nD τ) arg4 fullShare xl
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__head_pool_kernel i arg1 harg1 arg2 harg2 arg3 harg3 arg4 harg4 arg5 harg5 arg6 harg6 arg7 harg7 arg8 harg8) K } := by
  refine ⟨?_, ?_, ?_, ?_, fun E K => ?run⟩
  case run =>
    simp only [cc2__head_pool_kernel_eq_skeleton]; unfold cc2__head_pool_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg4.eq_unread hf4
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.Kernel.Hand

end
-- ==== Proof.KPool2.lean ====
/-
  Region 2 of the program: the proof data and the body obligation.

  What the body leaves is followed point by point: the head's block and the means' block in their windows, and the two
  accumulators (feature sums, node counts) that the body keeps in scratch memory from one point to the next. The
  first point starts the accumulators from zero; every later point adds to what the point before left; the last
  point also stores the means. The region's invariant before a point holds the two accumulators at what the point
  before left (at anything before the first point), beside the untouched rest of the core's scoped memory.
-/
import proofs.«412122_j12154757448413_2_alg».proof.Proof.Gen.Kernel.Launch
import proofs.«412122_j12154757448413_2_alg».proof.Proof.Gen.Kernel.Skeleton
import proofs.«412122_j12154757448413_2_alg».proof.Proof.Gen.Kernel.Points
import proofs.«412122_j12154757448413_2_alg».proof.Proof.KPool2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block of its array at grid point `t`, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A: the head's output block, as its stored pieces read back. -/
def out2_A_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) : Vec F S10000x64 .f32 :=
  VO2_4.read (Elt F) (VO2_4.writes (Elt F) VO2_4.junk (kernelRun2_A c i arg1 harg1 arg2 harg2 arg3 harg3 arg4 harg4 arg5 harg5 arg6 harg6 arg7 harg7 arg8 harg8 hc0 hc1 x0 xb xw xl).1)
/-- Those pieces cover it. -/
theorem cover2_A_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) (y : S10000x64.Idx) :
    ∃ pc ∈ (kernelRun2_A c i arg1 harg1 arg2 harg2 arg3 harg3 arg4 harg4 arg5 harg5 arg6 harg6 arg7 harg7 arg8 harg8 hc0 hc1 x0 xb xw xl).1, y ∈ pc.1.set :=
  View.cover_of_tiledL (kernelRun2_A c i arg1 harg1 arg2 harg2 arg3 harg3 arg4 harg4 arg5 harg5 arg6 harg6 arg7 harg7 arg8 harg8 hc0 hc1 x0 xb xw xl).1 S10000x64.size (by sl_kernel_rfl) y
/-- Case A: the sums' accumulator, as its stored pieces read back. -/
def sout2_A_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) : Vec F S64x64 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 xb xw xl).2.1)
/-- Those pieces cover it. -/
theorem scover2_A_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) (y : S64x64.Idx) :
    ∃ pc ∈ (kernelRun2_A c i arg1 harg1 arg2 harg2 arg3 harg3 arg4 harg4 arg5 harg5 arg6 harg6 arg7 harg7 arg8 harg8 hc0 hc1 x0 xb xw xl).2.1, y ∈ pc.1.set :=
  View.cover_of_tiledL (kernelRun2_A c i arg1 harg1 arg2 harg2 arg3 harg3 arg4 harg4 arg5 harg5 arg6 harg6 arg7 harg7 arg8 harg8 hc0 hc1 x0 xb xw xl).2.1 S64x64.size (by sl_kernel_rfl) y
/-- Case A: the counts' accumulator, as its stored pieces read back. -/
def sout2_A_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) : Vec F S64x1 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 xb xw xl).2.2.1)
/-- Those pieces cover it. -/
theorem scover2_A_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) (y : S64x1.Idx) :
    ∃ pc ∈ (kernelRun2_A c i arg1 harg1 arg2 harg2 arg3 harg3 arg4 harg4 arg5 harg5 arg6 harg6 arg7 harg7 arg8 harg8 hc0 hc1 x0 xb xw xl).2.2.1, y ∈ pc.1.set :=
  View.cover_of_tiledL (kernelRun2_A c i arg1 harg1 arg2 harg2 arg3 harg3 arg4 harg4 arg5 harg5 arg6 harg6 arg7 harg7 arg8 harg8 hc0 hc1 x0 xb xw xl).2.2.1 S64x1.size (by sl_kernel_rfl) y

/-- Case B: the head's output block, as its stored pieces read back. -/
def out2_B_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S10000x64 .f32 :=
  VO2_4.read (Elt F) (VO2_4.writes (Elt F) VO2_4.junk (kernelRun2_B c i arg1 harg1 arg2 harg2 arg3 harg3 arg4 harg4 arg5 harg5 arg6 harg6 arg7 harg7 arg8 harg8 hc0 hc1 x0 xb xw xl xs0 xs1).1)
/-- Those pieces cover it. -/
theorem cover2_B_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) (y : S10000x64.Idx) :
    ∃ pc ∈ (kernelRun2_B c i arg1 harg1 arg2 harg2 arg3 harg3 arg4 harg4 arg5 harg5 arg6 harg6 arg7 harg7 arg8 harg8 hc0 hc1 x0 xb xw xl xs0 xs1).1, y ∈ pc.1.set :=
  View.cover_of_tiledL (kernelRun2_B c i arg1 harg1 arg2 harg2 arg3 harg3 arg4 harg4 arg5 harg5 arg6 harg6 arg7 harg7 arg8 harg8 hc0 hc1 x0 xb xw xl xs0 xs1).1 S10000x64.size (by sl_kernel_rfl) y
/-- Case B: the sums' accumulator, as its stored pieces read back. -/
def sout2_B_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x64 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 xb xw xl xs0 xs1).2.1)
/-- Those pieces cover it. -/
theorem scover2_B_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x64.Idx) :
    ∃ pc ∈ (kernelRun2_B c i arg1 harg1 arg2 harg2 arg3 harg3 arg4 harg4 arg5 harg5 arg6 harg6 arg7 harg7 arg8 harg8 hc0 hc1 x0 xb xw xl xs0 xs1).2.1, y ∈ pc.1.set :=
  View.cover_of_tiledL (kernelRun2_B c i arg1 harg1 arg2 harg2 arg3 harg3 arg4 harg4 arg5 harg5 arg6 harg6 arg7 harg7 arg8 harg8 hc0 hc1 x0 xb xw xl xs0 xs1).2.1 S64x64.size (by sl_kernel_rfl) y
/-- Case B: the counts' accumulator, as its stored pieces read back. -/
def sout2_B_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x1 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 xb xw xl xs0 xs1).2.2.1)
/-- Those pieces cover it. -/
theorem scover2_B_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x1.Idx) :
    ∃ pc ∈ (kernelRun2_B c i arg1 harg1 arg2 harg2 arg3 harg3 arg4 harg4 arg5 harg5 arg6 harg6 arg7 harg7 arg8 harg8 hc0 hc1 x0 xb xw xl xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 xb xw xl xs0 xs1).2.2.1 S64x1.size (by sl_kernel_rfl) y

/-- Case C: the head's output block, as its stored pieces read back. -/
def out2_C_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S10000x64 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 xb xw xl xs0 xs1).1)
/-- Those pieces cover it. -/
theorem cover2_C_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S10000x64.Idx) :
    ∃ pc ∈ (kernelRun2_C c i arg1 harg1 arg2 harg2 arg3 harg3 arg4 harg4 arg5 harg5 arg6 harg6 arg7 harg7 arg8 harg8 hc0 hc1 x0 xb xw xl xs0 xs1).1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).1 S10000x64.size (by sl_kernel_rfl) y
/-- Case C: the means' block, as its stored pieces read back. -/
def out2_C_5 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x64 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 xb xw xl xs0 xs1).2.1)
/-- Those pieces cover it. -/
theorem cover2_C_5 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x64.Idx) :
    ∃ pc ∈ (kernelRun2_C c i arg1 harg1 arg2 harg2 arg3 harg3 arg4 harg4 arg5 harg5 arg6 harg6 arg7 harg7 arg8 harg8 hc0 hc1 x0 xb xw xl xs0 xs1).2.1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).2.1 S64x64.size (by sl_kernel_rfl) y
/-- Case C: the sums' accumulator, as its stored pieces read back. -/
def sout2_C_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x64 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 xb xw xl xs0 xs1).2.2.1)
/-- Those pieces cover it. -/
theorem scover2_C_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x64.Idx) :
    ∃ pc ∈ (kernelRun2_C c i arg1 harg1 arg2 harg2 arg3 harg3 arg4 harg4 arg5 harg5 arg6 harg6 arg7 harg7 arg8 harg8 hc0 hc1 x0 xb xw xl xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).2.2.1 S64x64.size (by sl_kernel_rfl) y
/-- Case C: the counts' accumulator, as its stored pieces read back. -/
def sout2_C_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x1 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 xb xw xl xs0 xs1).2.2.2.1)
/-- Those pieces cover it. -/
theorem scover2_C_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x1.Idx) :
    ∃ pc ∈ (kernelRun2_C c i arg1 harg1 arg2 harg2 arg3 harg3 arg4 harg4 arg5 harg5 arg6 harg6 arg7 harg7 arg8 harg8 hc0 hc1 x0 xb xw xl xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).2.2.2.1 S64x1.size (by sl_kernel_rfl) y

/-! ## What the outputs and the accumulators hold after each point -/

theorem N2_eq : cfg2.N = 10 := N_2

/-- After the body at position `n`: the head's block, the means' block (of no account off the last point, where the
    window is idle), the sums' accumulator, the counts' accumulator. The first point starts from zeroed accumulators;
    a later point adds to what position `n - 1` left. -/
def outsAt2 (c : Dev nD) : (n : ℕ) → n < cfg2.N → Vec F S10000x64 .f32 × Vec F S64x64 .f32 × Vec F S64x64 .f32 × Vec F S64x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), VO2_5.read (Elt F) VO2_5.junk, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : (n + 1) % 10 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, VO2_5.read (Elt F) VO2_5.junk, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)

/-- `outsAt2` at the first point. -/
theorem outsAt2_A (c : Dev nD) (t : Fin cfg2.N) (h0 : t.val % 10 = 0) (h1 : ¬t.val % 10 = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), VO2_5.read (Elt F) VO2_5.junk, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; have hN : n + 1 < 10 := lt_of_lt_of_eq hn N2_eq; (try dsimp only at h0); omega)

/-- `outsAt2` at a middle point: over what the point before left. -/
theorem outsAt2_B (c : Dev nD) (t : Fin cfg2.N) (h0 : ¬t.val % 10 = 0) (h1 : ¬t.val % 10 = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, VO2_5.read (Elt F) VO2_5.junk, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 10 = 0) (h1 : t.val % 10 = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- What rides beside the accumulators: every other scoped buffer of the core that is no staging buffer of this region. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The invariant before position `n`: before the first point the untouched scoped rest (the accumulators at anything);
    afterwards the accumulators at what the point before left, the rest untouched, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ restBut2 c) ∗ (∃ r, prngReg c r)) := by
  cases n with
  | zero => exact absurd rfl hz
  | succ n => rfl

/-! ## The region's proof data -/

/-- The proof data on core `c`: the arrays as the region finds them; after the body at point `t` each input's buffer at
    its block and the outputs' at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 16000000 in
/-- The body at any point. The inputs' buffers hold their blocks; the point's position says which case it is in; the
    invariant hands the body the accumulators at what the point before left (at anything at the first point) and
    takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt N2_eq
  by_cases h0 : t.val % 10 = 0
  · have h1 : ¬t.val % 10 = 9 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [outsAt2_A V c t h0 h1]
    unfold out2_A_4 sout2_A_0 sout2_A_1; (try dsimp only)
    rw [PhiS2_castSucc V c t, PhiS2_zero V c _ _ hz, PhiA2_eq]
    iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, H5, ⟨%es0, HS0⟩, ⟨%es1, HS1⟩⟩
    isplitl [HS0 HS1 Hb Hg]
    · isplitl [HS0 HS1 Hb]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _ _ _)
    iexists _; iexact H5
  · have hz : t.val ≠ 0 := by omega
    by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_4 out2_C_5 sout2_C_0 sout2_C_1; (try dsimp only)
      rw [PhiS2_castSucc V c t, PhiS2_pos V c _ _ hz]
      iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hb Hg]
      · isplitl [HS0 HS1 Hb]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold out2_B_4 sout2_B_0 sout2_B_1; (try dsimp only)
      rw [PhiS2_castSucc V c t, PhiS2_pos V c _ _ hz]
      iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, ⟨%es0, HS0⟩, ⟨%es1, HS1⟩⟩
      isplitl [HS0 HS1 Hb Hg]
      · isplitl [HS0 HS1 Hb]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_B_4 c _ _ _ _ _ _ _ _ _ _ _ _ _ _ _ _ _ _ _ _ _ _ _ _ _)
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N2_eq; omega), PhiA2_eq]
  iintro ⟨⟨⟨HS0, HS1⟩, Hb⟩, Hg⟩
  isplitl [HS0 HS1 Hb]
  · isplitl [HS0 HS1]
    · isplitl [HS0]
      · iexists _; iexact HS0
      iexists _; iexact HS1
    iexact Hb
  iexact Hg

end Cert.Kernel.Hand

end
-- ==== Proof.KRun.lean ====
/-
  The whole program run: three kernel regions among three stretches of host operations.

  The contents of the core's unscoped buffers are followed from the launch to the return: a stretch of host operations
  takes them to the operations' results; a region takes them to the same contents but for its result arrays, which hold
  what its ten write-backs leave. Each region is entered from "every unscoped buffer at the boundary's contents, the
  generator register at some state, nothing owed" and left at the same state one boundary on. The launch of the chain
  of six segments then says: every weakly fair execution terminates, and in every final state every unscoped buffer
  holds the last boundary's contents — the two results at what region 2 leaves, and each argument, which no operation
  writes and no region changes, as launched.
-/
import proofs.«412122_j12154757448413_2_alg».proof.Proof.Gen.Kernel.Launch
import proofs.«412122_j12154757448413_2_alg».proof.Proof.Gen.Kernel.Skeleton
import proofs.«412122_j12154757448413_2_alg».proof.Proof.Gen.Kernel.Points
import proofs.«412122_j12154757448413_2_alg».proof.Proof.Gen.Kernel.Regions
import proofs.«412122_j12154757448413_2_alg».proof.Proof.KCombine0
import proofs.«412122_j12154757448413_2_alg».proof.Proof.KCombine1
import proofs.«412122_j12154757448413_2_alg».proof.Proof.KPool2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the first stretch of host operations: region 0's entry. -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b
/-- What region 0's write-backs leave in its result array. -/
def o2 (c : Dev nD) : Buf (Elt F) ((c : Thread nD τ).loc main_v26) := (dat0 (R1 m) c).arrAt 5 cfg0.N
/-- At region 0's exit. -/
abbrev W2 : Dev nD → Valuation τ sig (Elt F) := fun c => Function.update (W1 m c) main_v26 (o2 m c)
/-- After the second stretch: region 1's entry. -/
abbrev W3 : Dev nD → Valuation τ sig (Elt F) := fun c => StableHlo.after hostOps1 (W2 m c)
abbrev R3 : (c : Dev nD) → (b : Ref sig .tc) → Buf (Elt F) ((c : Thread nD τ).loc b) := fun c b => W3 m c b
/-- What region 1's write-backs leave in its result array. -/
def o4 (c : Dev nD) : Buf (Elt F) ((c : Thread nD τ).loc main_v40) := (dat1 (R3 m) c).arrAt 5 cfg1.N
/-- At region 1's exit. -/
abbrev W4 : Dev nD → Valuation τ sig (Elt F) := fun c => Function.update (W3 m c) main_v40 (o4 m c)
/-- After the third stretch: region 2's entry. -/
abbrev W5 : Dev nD → Valuation τ sig (Elt F) := fun c => StableHlo.after hostOps2 (W4 m c)
abbrev R5 : (c : Dev nD) → (b : Ref sig .tc) → Buf (Elt F) ((c : Thread nD τ).loc b) := fun c b => W5 m c b
/-- What region 2's write-backs leave in its two result arrays. -/
def o6a (c : Dev nD) : Buf (Elt F) ((c : Thread nD τ).loc main_v43_0) := (dat2 (R5 m) c).arrAt 4 cfg2.N
def o6b (c : Dev nD) : Buf (Elt F) ((c : Thread nD τ).loc main_v43_1) := (dat2 (R5 m) c).arrAt 5 cfg2.N
/-- At region 2's exit: the return. -/
abbrev W6 : Dev nD → Valuation τ sig (Elt F) := fun c =>
  Function.update (Function.update (W5 m c) main_v43_0 (o6a m c)) main_v43_1 (o6b m c)

abbrev R2 : (c : Dev nD) → (b : Ref sig .tc) → Buf (Elt F) ((c : Thread nD τ).loc b) := fun c b => W2 m c b
abbrev R4 : (c : Dev nD) → (b : Ref sig .tc) → Buf (Elt F) ((c : Thread nD τ).loc b) := fun c b => W4 m c b
abbrev R6 : (c : Dev nD) → (b : Ref sig .tc) → Buf (Elt F) ((c : Thread nD τ).loc b) := fun c b => W6 m c b

/-- A region's exit contents at its result array, and away from it. -/
theorem W2_self (c : Dev nD) : W2 m c main_v26 = o2 m c := Function.update_self _ _ _
theorem W2_ne (c : Dev nD) (r : Ref sig .tc) (h : r ≠ main_v26) : W2 m c r = W1 m c r :=
  Function.update_of_ne (StableHlo.devRef_ne_of_ne h : (Proc.devRef .tc r : DevRef τ sig) ≠ Proc.devRef .tc main_v26) _ _
theorem W4_self (c : Dev nD) : W4 m c main_v40 = o4 m c := Function.update_self _ _ _
theorem W4_ne (c : Dev nD) (r : Ref sig .tc) (h : r ≠ main_v40) : W4 m c r = W3 m c r :=
  Function.update_of_ne (StableHlo.devRef_ne_of_ne h : (Proc.devRef .tc r : DevRef τ sig) ≠ Proc.devRef .tc main_v40) _ _
theorem W6_self1 (c : Dev nD) : W6 m c main_v43_1 = o6b m c := Function.update_self _ _ _
theorem W6_self0 (c : Dev nD) : W6 m c main_v43_0 = o6a m c :=
  (Function.update_of_ne (StableHlo.devRef_ne_of_ne (by decide : (main_v43_0 : Ref sig .tc) ≠ main_v43_1) : (Proc.devRef .tc main_v43_0 : DevRef τ sig) ≠ Proc.devRef .tc main_v43_1) _ _).trans
    (Function.update_self _ _ _)
theorem W6_ne (c : Dev nD) (r : Ref sig .tc) (h0 : r ≠ main_v43_0) (h1 : r ≠ main_v43_1) : W6 m c r = W5 m c r :=
  (Function.update_of_ne (StableHlo.devRef_ne_of_ne h1 : (Proc.devRef .tc r : DevRef τ sig) ≠ Proc.devRef .tc main_v43_1) _ _).trans
    (Function.update_of_ne (StableHlo.devRef_ne_of_ne h0 : (Proc.devRef .tc r : DevRef τ sig) ≠ Proc.devRef .tc main_v43_0) _ _)

/-! ## A buffer nothing writes ends as launched -/

/-- A buffer that no host operation writes and that is no region's result array holds its launch contents at the
    return. -/
theorem W6_of (c : Dev nD) (r : Ref sig .tc) (h0 : r ∉ hostOps0_W) (h1 : r ∉ ([main_v26] : List (Ref sig .tc)))
    (h2 : r ∉ hostOps1_W) (h3 : r ∉ ([main_v40] : List (Ref sig .tc))) (h4 : r ∉ hostOps2_W)
    (h5 : r ∉ ([main_v43_0, main_v43_1] : List (Ref sig .tc))) : W6 m c r = m ((c : Thread nD τ).loc r) := by
  have e6 : W6 m c r = W5 m c r := by
    simp only [W6, Function.update_of_ne (StableHlo.devRef_ne_of_ne (List.ne_of_not_mem_cons h5) : (Proc.devRef .tc r : DevRef τ sig) ≠ Proc.devRef .tc main_v43_0), Function.update_of_ne (StableHlo.devRef_ne_of_ne (List.ne_of_not_mem_cons (List.not_mem_of_not_mem_cons h5)) : (Proc.devRef .tc r : DevRef τ sig) ≠ Proc.devRef .tc main_v43_1)]
  have e5 : W5 m c r = W4 m c r := StableHlo.after_of_writes_sub hostOps2 _ hostOps2_writes h4
  have e4 : W4 m c r = W3 m c r := by
    simp only [W4, Function.update_of_ne (StableHlo.devRef_ne_of_ne (List.ne_of_not_mem_cons h3) : (Proc.devRef .tc r : DevRef τ sig) ≠ Proc.devRef .tc main_v40)]
  have e3 : W3 m c r = W2 m c r := StableHlo.after_of_writes_sub hostOps1 _ hostOps1_writes h2
  have e2 : W2 m c r = W1 m c r := by
    simp only [W2, Function.update_of_ne (StableHlo.devRef_ne_of_ne (List.ne_of_not_mem_cons h1) : (Proc.devRef .tc r : DevRef τ sig) ≠ Proc.devRef .tc main_v26)]
  have e1 : W1 m c r = W0 m c r := StableHlo.after_of_writes_sub hostOps0 _ hostOps0_writes h0
  exact e6.trans (e5.trans (e4.trans (e3.trans (e2.trans (e1.trans rfl)))))

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each region's arrays at its exit -/

/-- At region 0's exit each of its arrays holds what the write-backs leave (an input, its entry contents), -/
theorem hF0 (c : Dev nD) (w : Fin cfg0.W) : (pdats m 0 c).arrAt w cfg0.N = R2 m c (Pipeline.arrRef spec0 w) := by
  show (dat0 (R1 m) c).arrAt w cfg0.N = _
  match w with
  | ⟨0, _⟩ => exact ((dat0 (R1 m) c).arrAt_in 0 rfl _).trans ((A_eq0 (R1 m) c 0).trans (W2_ne m c main_v24 (by decide)).symm)
  | ⟨1, _⟩ => exact ((dat0 (R1 m) c).arrAt_in 1 rfl _).trans ((A_eq0 (R1 m) c 1).trans (W2_ne m c main_arg0 (by decide)).symm)
  | ⟨2, _⟩ => exact ((dat0 (R1 m) c).arrAt_in 2 rfl _).trans ((A_eq0 (R1 m) c 2).trans (W2_ne m c main_arg3 (by decide)).symm)
  | ⟨3, _⟩ => exact ((dat0 (R1 m) c).arrAt_in 3 rfl _).trans ((A_eq0 (R1 m) c 3).trans (W2_ne m c main_v25 (by decide)).symm)
  | ⟨4, _⟩ => exact ((dat0 (R1 m) c).arrAt_in 4 rfl _).trans ((A_eq0 (R1 m) c 4).trans (W2_ne m c main_arg5 (by decide)).symm)
  | ⟨5, _⟩ => exact (show o2 m c = R2 m c main_v26 from (W2_self m c).symm)
/-- and every other buffer what it held at entry. -/
theorem hrest0 (c : Dev nD) : ∀ b, b ∉ Finset.univ.image (Pipeline.arrRef spec0) → R2 m c b = R1 m c b := fun b hb =>
  W2_ne m c b fun e => hb (Finset.mem_image.mpr ⟨5, Finset.mem_univ _, (show Pipeline.arrRef spec0 5 = b from e.symm)⟩)

theorem hF1 (c : Dev nD) (w : Fin cfg1.W) : (pdats m 1 c).arrAt w cfg1.N = R4 m c (Pipeline.arrRef spec1 w) := by
  show (dat1 (R3 m) c).arrAt w cfg1.N = _
  match w with
  | ⟨0, _⟩ => exact ((dat1 (R3 m) c).arrAt_in 0 rfl _).trans ((A_eq1 (R3 m) c 0).trans (W4_ne m c main_v38 (by decide)).symm)
  | ⟨1, _⟩ => exact ((dat1 (R3 m) c).arrAt_in 1 rfl _).trans ((A_eq1 (R3 m) c 1).trans (W4_ne m c main_v26 (by decide)).symm)
  | ⟨2, _⟩ => exact ((dat1 (R3 m) c).arrAt_in 2 rfl _).trans ((A_eq1 (R3 m) c 2).trans (W4_ne m c main_arg6 (by decide)).symm)
  | ⟨3, _⟩ => exact ((dat1 (R3 m) c).arrAt_in 3 rfl _).trans ((A_eq1 (R3 m) c 3).trans (W4_ne m c main_v39 (by decide)).symm)
  | ⟨4, _⟩ => exact ((dat1 (R3 m) c).arrAt_in 4 rfl _).trans ((A_eq1 (R3 m) c 4).trans (W4_ne m c main_arg8 (by decide)).symm)
  | ⟨5, _⟩ => exact (show o4 m c = R4 m c main_v40 from (W4_self m c).symm)
theorem hrest1 (c : Dev nD) : ∀ b, b ∉ Finset.univ.image (Pipeline.arrRef spec1) → R4 m c b = R3 m c b := fun b hb =>
  W4_ne m c b fun e => hb (Finset.mem_image.mpr ⟨5, Finset.mem_univ _, (show Pipeline.arrRef spec1 5 = b from e.symm)⟩)

theorem hF2 (c : Dev nD) (w : Fin cfg2.W) : (pdats m 2 c).arrAt w cfg2.N = R6 m c (Pipeline.arrRef spec2 w) := by
  show (dat2 (R5 m) c).arrAt w cfg2.N = _
  match w with
  | ⟨0, _⟩ => exact ((dat2 (R5 m) c).arrAt_in 0 rfl _).trans ((A_eq2 (R5 m) c 0).trans (W6_ne m c main_v40 (by decide) (by decide)).symm)
  | ⟨1, _⟩ => exact ((dat2 (R5 m) c).arrAt_in 1 rfl _).trans ((A_eq2 (R5 m) c 1).trans (W6_ne m c main_v41 (by decide) (by decide)).symm)
  | ⟨2, _⟩ => exact ((dat2 (R5 m) c).arrAt_in 2 rfl _).trans ((A_eq2 (R5 m) c 2).trans (W6_ne m c main_arg9 (by decide) (by decide)).symm)
  | ⟨3, _⟩ => exact ((dat2 (R5 m) c).arrAt_in 3 rfl _).trans ((A_eq2 (R5 m) c 3).trans (W6_ne m c main_v42 (by decide) (by decide)).symm)
  | ⟨4, _⟩ => exact (show o6a m c = R6 m c main_v43_0 from (W6_self0 m c).symm)
  | ⟨5, _⟩ => exact (show o6b m c = R6 m c main_v43_1 from (W6_self1 m c).symm)
theorem hrest2 (c : Dev nD) : ∀ b, b ∉ Finset.univ.image (Pipeline.arrRef spec2) → R6 m c b = R5 m c b := fun b hb =>
  W6_ne m c b (fun e => hb (Finset.mem_image.mpr ⟨4, Finset.mem_univ _, (show Pipeline.arrRef spec2 4 = b from e.symm)⟩))
    (fun e => hb (Finset.mem_image.mpr ⟨5, Finset.mem_univ _, (show Pipeline.arrRef spec2 5 = b from e.symm)⟩))

/-- The last thread state without what is owed: every unscoped buffer at the return's contents, the generator register
    at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state "every unscoped buffer at the boundary's contents, the generator register at some
    state, nothing owed": entered at `W1`, left at `W2`. Its arrays are split out of the unscoped buffers at
    entry and put back at their exit contents; the register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": entered at `W3`, left at `W4`. Its arrays are split out of the unscoped buffers at
    entry and put back at their exit contents; the register goes into the region's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state "every unscoped buffer at the boundary's contents, the generator register at some
    state, nothing owed": entered at `W5`, left at `W6`. Its arrays are split out of the unscoped buffers at
    entry and put back at their exit contents; the register goes into the region's invariant and comes back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m 2 c).Φ 0 from hin2 (R5 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (R5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of @main terminates, nothing faulting, and
    in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the run says of the arguments and the results -/

theorem W6_main_arg0 (c : Dev nD) : W6 m c main_arg0 = m ((c : Thread nD τ).loc main_arg0) :=
  W6_of m c main_arg0 (by decide) (by decide) (by decide) (by decide) (by decide) (by decide)
theorem W6_main_arg1 (c : Dev nD) : W6 m c main_arg1 = m ((c : Thread nD τ).loc main_arg1) :=
  W6_of m c main_arg1 (by decide) (by decide) (by decide) (by decide) (by decide) (by decide)
theorem W6_main_arg2 (c : Dev nD) : W6 m c main_arg2 = m ((c : Thread nD τ).loc main_arg2) :=
  W6_of m c main_arg2 (by decide) (by decide) (by decide) (by decide) (by decide) (by decide)
theorem W6_main_arg3 (c : Dev nD) : W6 m c main_arg3 = m ((c : Thread nD τ).loc main_arg3) :=
  W6_of m c main_arg3 (by decide) (by decide) (by decide) (by decide) (by decide) (by decide)
theorem W6_main_arg4 (c : Dev nD) : W6 m c main_arg4 = m ((c : Thread nD τ).loc main_arg4) :=
  W6_of m c main_arg4 (by decide) (by decide) (by decide) (by decide) (by decide) (by decide)
theorem W6_main_arg5 (c : Dev nD) : W6 m c main_arg5 = m ((c : Thread nD τ).loc main_arg5) :=
  W6_of m c main_arg5 (by decide) (by decide) (by decide) (by decide) (by decide) (by decide)
theorem W6_main_arg6 (c : Dev nD) : W6 m c main_arg6 = m ((c : Thread nD τ).loc main_arg6) :=
  W6_of m c main_arg6 (by decide) (by decide) (by decide) (by decide) (by decide) (by decide)
theorem W6_main_arg7 (c : Dev nD) : W6 m c main_arg7 = m ((c : Thread nD τ).loc main_arg7) :=
  W6_of m c main_arg7 (by decide) (by decide) (by decide) (by decide) (by decide) (by decide)
theorem W6_main_arg8 (c : Dev nD) : W6 m c main_arg8 = m ((c : Thread nD τ).loc main_arg8) :=
  W6_of m c main_arg8 (by decide) (by decide) (by decide) (by decide) (by decide) (by decide)
theorem W6_main_arg9 (c : Dev nD) : W6 m c main_arg9 = m ((c : Thread nD τ).loc main_arg9) :=
  W6_of m c main_arg9 (by decide) (by decide) (by decide) (by decide) (by decide) (by decide)
theorem W6_main_arg10 (c : Dev nD) : W6 m c main_arg10 = m ((c : Thread nD τ).loc main_arg10) :=
  W6_of m c main_arg10 (by decide) (by decide) (by decide) (by decide) (by decide) (by decide)

/-- The first result at the return: what region 2's write-backs leave in the head's array. -/
theorem W6_out0 (c : Dev nD) : W6 m c main_v43_0 = o6a m c := W6_self0 m c
/-- The second result at the return: what region 2's write-backs leave in the means' array. -/
theorem W6_out1 (c : Dev nD) : W6 m c main_v43_1 = o6b m c := W6_self1 m c

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

/-- THE RUN WITH ITS RESULTS: the two results at what region 2 leaves, every argument as launched. -/
theorem run_results : θ_run defs (onTc (τ := τ) (main (F := F))) ⟨m, fun _ => 0, ρ⟩ (fun r => ∀ c : Dev nD,
      r.2.mem ((c.tc : Thread nD τ).loc main_v43_0) = o6a m c
      ∧ r.2.mem ((c.tc : Thread nD τ).loc main_v43_1) = o6b m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v43_0 (by decide))).trans (W6_out0 m c),
    (h c _ (mem_uc main_v43_1 (by decide))).trans (W6_out1 m c),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

end Cert.Kernel.Hand

end
-- ==== Proof.KICombine0.lean ====
/-
  Region 0 of the program: one SAGE combine, relu((agg · W_l + b_l) + h · W_r), over ten blocks of 10000 rows.

  At grid point t the body reads rows [10000 t, 10000 t + 10000) of the aggregated features and of the root
  features, the two 64 × 64 weight matrices and the bias row, and stores one block of the result: a function of
  those five values alone. So each input window's buffer holds its array's block at the point, the output window's
  buffer holds that function of the blocks, nothing is carried from point to point, and the region's invariant is
  the untouched rest of the core's scoped memory.
-/
import proofs.«412122_j12154757448413_2_alg».proof.Proof.Gen.KernelIdeal.Launch
import proofs.«412122_j12154757448413_2_alg».proof.Proof.Gen.KernelIdeal.Skeleton
import proofs.«412122_j12154757448413_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is at this parameter
variable (V : (c : Dev nD) → (b : Ref sig .tc) → Buf (Elt F) ((c : Thread nD τ).loc b))

/-! ## The windows' blocks -/

/-- Window `w`'s block of its array at grid point `t`, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched
    its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched
    its block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched
    its block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched
    its block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not fetched
    its block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 10000 × 64 block, the whole 64 × 64 matrix, the whole 1 × 64 row: the body's accesses. -/
abbrev rBlk0 : Rect S10000x64 := Rect.unit (s := S10000x64) ![0, 0] S10000x64.size inb_S10000x64_S10000x64_0_0
abbrev rMat0 : Rect S64x64 := Rect.unit (s := S64x64) ![0, 0] S64x64.size inb_S64x64_S64x64_0_0
abbrev rRow0 : Rect S1x64 := Rect.unit (s := S1x64) ![0, 0] S1x64.size inb_S1x64_S1x64_0_0

/-- The output block after the body, from the five input blocks (aggregated rows, root rows, W_l, bias row, W_r):
    its one store, of relu((agg · W_l + b) + h · W_r). -/
def out0_5 (xa : Vec F S10000x64 .f32) (xh : Vec F S10000x64 .f32) (wl : Vec F S64x64 .f32) (bl : Vec F S1x64 .f32) (wr : Vec F S64x64 .f32) :
    Vec F S10000x64 .f32 :=
  View.canon [⟨rBlk0, k0_pay1 (View.ld xa rBlk0) (View.ld wl rMat0) (View.ld bl rRow0) (View.ld xh rBlk0) (View.ld wr rMat0)⟩]

/-- The one store covers the block. -/
theorem cover0_5 (p0 : Vec F S10000x64 .f32) (y : S10000x64.Idx) :
    ∃ pc ∈ ([⟨rBlk0, p0⟩] : List (View.Piece (Elt F) S10000x64 .f32)), y ∈ pc.1.set :=
  View.cover_of_tiled [⟨rBlk0, p0⟩] S10000x64.size (by rfl) y

/-! ## The body's triple -/

set_option maxHeartbeats 1000000 in
/-- The body on whole buffers, the inputs' at read contents and the output's at anything, runs to the continuation
    with the inputs' as they were and the output's at `out0_5` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S10000x64 .f32) (harg6 : arg6.IsWhole)
    (xa : Vec F S10000x64 .f32) (xh : Vec F S10000x64 .f32) (wl : Vec F S64x64 .f32) (bl : Vec F S1x64 .f32) (wr : Vec F S64x64 .f32)
    (K : PUnit → sProp 𝕄) :
    iprop(owns (c : Thread nD τ) arg1 fullShare xa ∗ owns (c : Thread nD τ) arg2 fullShare xh ∗ owns (c : Thread nD τ) arg3 fullShare wl
        ∗ owns (c : Thread nD τ) arg4 fullShare bl ∗ owns (c : Thread nD τ) arg5 fullShare wr ∗ (∃ d, owns (c : Thread nD τ) arg6 fullShare d)
        ∗ (iprop(owns (c : Thread nD τ) arg1 fullShare xa ∗ owns (c : Thread nD τ) arg2 fullShare xh ∗ owns (c : Thread nD τ) arg3 fullShare wl
            ∗ owns (c : Thread nD τ) arg4 fullShare bl ∗ owns (c : Thread nD τ) arg5 fullShare wr
            ∗ owns (c : Thread nD τ) arg6 fullShare (out0_5 xa xh wl bl wr)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-! ## The region's proof data -/

/-- The proof data on core `c`: the arrays as the region finds them; after the body at point `t` each input's buffer
    at its block and the output's at `out0_5` of the blocks; the invariant the untouched scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KICombine1.lean ====
/-
  Region 1 of the program: one SAGE combine, relu((agg · W_l + b_l) + h · W_r), over ten blocks of 10000 rows.

  At grid point t the body reads rows [10000 t, 10000 t + 10000) of the aggregated features and of the root
  features, the two 64 × 64 weight matrices and the bias row, and stores one block of the result: a function of
  those five values alone. So each input window's buffer holds its array's block at the point, the output window's
  buffer holds that function of the blocks, nothing is carried from point to point, and the region's invariant is
  the untouched rest of the core's scoped memory.
-/
import proofs.«412122_j12154757448413_2_alg».proof.Proof.Gen.KernelIdeal.Launch
import proofs.«412122_j12154757448413_2_alg».proof.Proof.Gen.KernelIdeal.Skeleton
import proofs.«412122_j12154757448413_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is at this parameter
variable (V : (c : Dev nD) → (b : Ref sig .tc) → Buf (Elt F) ((c : Thread nD τ).loc b))

/-! ## The windows' blocks -/

/-- Window `w`'s block of its array at grid point `t`, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched
    its block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched
    its block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched
    its block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched
    its block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched
    its block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole 10000 × 64 block, the whole 64 × 64 matrix, the whole 1 × 64 row: the body's accesses. -/
abbrev rBlk1 : Rect S10000x64 := Rect.unit (s := S10000x64) ![0, 0] S10000x64.size inb_S10000x64_S10000x64_0_0
abbrev rMat1 : Rect S64x64 := Rect.unit (s := S64x64) ![0, 0] S64x64.size inb_S64x64_S64x64_0_0
abbrev rRow1 : Rect S1x64 := Rect.unit (s := S1x64) ![0, 0] S1x64.size inb_S1x64_S1x64_0_0

/-- The output block after the body, from the five input blocks (aggregated rows, root rows, W_l, bias row, W_r):
    its one store, of relu((agg · W_l + b) + h · W_r). -/
def out1_5 (xa : Vec F S10000x64 .f32) (xh : Vec F S10000x64 .f32) (wl : Vec F S64x64 .f32) (bl : Vec F S1x64 .f32) (wr : Vec F S64x64 .f32) :
    Vec F S10000x64 .f32 :=
  View.canon [⟨rBlk1, k1_pay1 (View.ld xa rBlk1) (View.ld wl rMat1) (View.ld bl rRow1) (View.ld xh rBlk1) (View.ld wr rMat1)⟩]

/-- The one store covers the block. -/
theorem cover1_5 (p0 : Vec F S10000x64 .f32) (y : S10000x64.Idx) :
    ∃ pc ∈ ([⟨rBlk1, p0⟩] : List (View.Piece (Elt F) S10000x64 .f32)), y ∈ pc.1.set :=
  View.cover_of_tiled [⟨rBlk1, p0⟩] S10000x64.size (by rfl) y

/-! ## The body's triple -/

set_option maxHeartbeats 1000000 in
/-- The body on whole buffers, the inputs' at read contents and the output's at anything, runs to the continuation
    with the inputs' as they were and the output's at `out1_5` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S10000x64 .f32) (harg6 : arg6.IsWhole)
    (xa : Vec F S10000x64 .f32) (xh : Vec F S10000x64 .f32) (wl : Vec F S64x64 .f32) (bl : Vec F S1x64 .f32) (wr : Vec F S64x64 .f32)
    (K : PUnit → sProp 𝕄) :
    iprop(owns (c : Thread nD τ) arg1 fullShare xa ∗ owns (c : Thread nD τ) arg2 fullShare xh ∗ owns (c : Thread nD τ) arg3 fullShare wl
        ∗ owns (c : Thread nD τ) arg4 fullShare bl ∗ owns (c : Thread nD τ) arg5 fullShare wr ∗ (∃ d, owns (c : Thread nD τ) arg6 fullShare d)
        ∗ (iprop(owns (c : Thread nD τ) arg1 fullShare xa ∗ owns (c : Thread nD τ) arg2 fullShare xh ∗ owns (c : Thread nD τ) arg3 fullShare wl
            ∗ owns (c : Thread nD τ) arg4 fullShare bl ∗ owns (c : Thread nD τ) arg5 fullShare wr
            ∗ owns (c : Thread nD τ) arg6 fullShare (out1_5 xa xh wl bl wr)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The region's proof data -/

/-- The proof data on core `c`: the arrays as the region finds them; after the body at point `t` each input's buffer
    at its block and the output's at `out1_5` of the blocks; the invariant the untouched scoped rest and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIPool2Runs.lean ====
/-
  Region 2 of the program, the dense head fused with the per-graph mean: what the three cases of its body share.

  The body runs at ten grid points. At every point it stores one block of the head's output, relu(h · W + b), and
  adds to two accumulators it keeps in scratch memory between points: a 64 × 64 array of per-graph feature sums and a
  64 × 1 column of per-graph node counts, each the product of the block's one-hot graph-membership matrix (transposed)
  with the head's block, respectively with a column of ones. Two conditions on the point select the case:
  at the first point the accumulators are zeroed before the addition (case A); at the last point the sums are divided by
  the larger of the counts and one and stored into the second output (case C); at the points between neither (case B).
  The second output's window is idle at every point but the last, which is also the only one that writes it back.
-/
import proofs.«412122_j12154757448413_2_alg».proof.Proof.Gen.KernelIdeal.Launch
import proofs.«412122_j12154757448413_2_alg».proof.Proof.Gen.KernelIdeal.Skeleton
import proofs.«412122_j12154757448413_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first point": the condition under which the accumulators are zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point": the condition under which the means are stored. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last point the means' window is idle and is not written back; at the last point it is live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10000x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)
/-- The two accumulators: whole scoped buffers of the kernel's own, passed beside the windows. -/
abbrev scM2_0 : Memref sig .tc .vmem S64x64 .f32 := Memref.whole cc2_scratch0
abbrev scM2_1 : Memref sig .tc .vmem S64x1 .f32 := Memref.whole cc2_scratch1
/-- Views through which the outputs' and the accumulators' contents are stated. -/
abbrev VO2_4 : View sig .tc .vmem S10000x64 .f32 := (Memref.whole cc2_stg4_0 : Memref sig .tc .vmem S10000x64 .f32).view
abbrev VO2_5 : View sig .tc .vmem S64x64 .f32 := (Memref.whole cc2_stg5_0 : Memref sig .tc .vmem S64x64 .f32).view
abbrev VS2_0 : View sig .tc .vmem S64x64 .f32 := scM2_0.view
abbrev VS2_1 : View sig .tc .vmem S64x1 .f32 := scM2_1.view

/-- The region's untouched rest with the two accumulators split out, each owned whole at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA
  rw [Pipeline.scopedRest_split_of_list spec2 c [cc2_scratch0, cc2_scratch1] (by decide) (by decide)]
  simp only [scM2_0, scM2_1, owns_whole]
  rfl

/-! ## Case A: the first point -/

set_option maxHeartbeats 4000000 in
/-- The pieces the body's stores leave in the head's output block and in the two accumulators AT THE FIRST POINT
    (the accumulators zeroed, then added to; the means' window untouched), with the proof that on whole buffers — the
    four inputs' at their contents, the means' at contents handed back untouched, the others at anything — the body
    runs to the continuation holding them so. -/
noncomputable def kernelRun2_A (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) :
    Σ' (L4 : List (View.Piece (Elt F) S10000x64 .f32)) (LS0 : List (View.Piece (Elt F) S64x64 .f32)), { LS1 : List (View.Piece (Elt F) S64x1 .f32) //
      ∀ (xi5 : Vec F S64x64 .f32) (E : Set ℕ) (K : PUnit → sProp 𝕄),
        iprop(owns (c : Thread nD τ) arg1 fullShare x0 ∗ owns (c : Thread nD τ) arg2 fullShare xb ∗ owns (c : Thread nD τ) arg3 fullShare xw ∗ owns (c : Thread nD τ) arg4 fullShare xl
            ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare xb ∗ owns (c : Thread nD τ) arg3 fullShare xw ∗ owns (c : Thread nD τ) arg4 fullShare xl
                ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__head_pool_kernel i arg1 harg1 arg2 harg2 arg3 harg3 arg4 harg4 arg5 harg5 arg6 harg6 arg7 harg7 arg8 harg8) K } := by
  refine ⟨?_, ?_, ?_, fun xi5 E K => ?run⟩
  case run =>
    simp only [cc2__head_pool_kernel_eq_skeleton]; unfold cc2__head_pool_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]; · iexists _; iexact H7
    iexists _; iexact H8

/-! ## Case B: a point between the first and the last -/

set_option maxHeartbeats 4000000 in
/-- The pieces the body's stores leave AT A MIDDLE POINT (the accumulators added to over what the point before left,
    `xs0` and `xs1`; the means' window untouched), with the proof that the body runs so. -/
noncomputable def kernelRun2_B (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32)
    (xs0 : Vec F S64x64 .f32) (xs1 : Vec F S64x1 .f32) :
    Σ' (L4 : List (View.Piece (Elt F) S10000x64 .f32)) (LS0 : List (View.Piece (Elt F) S64x64 .f32)), { LS1 : List (View.Piece (Elt F) S64x1 .f32) //
      ∀ (xi5 : Vec F S64x64 .f32) (E : Set ℕ) (K : PUnit → sProp 𝕄),
        iprop(owns (c : Thread nD τ) arg1 fullShare x0 ∗ owns (c : Thread nD τ) arg2 fullShare xb ∗ owns (c : Thread nD τ) arg3 fullShare xw ∗ owns (c : Thread nD τ) arg4 fullShare xl
            ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare xb ∗ owns (c : Thread nD τ) arg3 fullShare xw ∗ owns (c : Thread nD τ) arg4 fullShare xl
                ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__head_pool_kernel i arg1 harg1 arg2 harg2 arg3 harg3 arg4 harg4 arg5 harg5 arg6 harg6 arg7 harg7 arg8 harg8) K } := by
  refine ⟨?_, ?_, ?_, fun xi5 E K => ?run⟩
  case run =>
    simp only [cc2__head_pool_kernel_eq_skeleton]; unfold cc2__head_pool_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg4.eq_unread hf4; obtain rfl := harg6.eq_unread hf6
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]; · iexists _; iexact H7
    iexists _; iexact H8

/-! ## Case C: the last point -/

set_option maxHeartbeats 4000000 in
/-- The pieces the body's stores leave AT THE LAST POINT (the accumulators added to over what the point before left,
    then the sums divided by the larger of the counts and one and stored into the means' block), with the proof that
    the body runs so. -/
noncomputable def kernelRun2_C (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32)
    (xs0 : Vec F S64x64 .f32) (xs1 : Vec F S64x1 .f32) :
    Σ' (L4 : List (View.Piece (Elt F) S10000x64 .f32)) (L5 : List (View.Piece (Elt F) S64x64 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare xb ∗ owns (c : Thread nD τ) arg3 fullShare xw ∗ owns (c : Thread nD τ) arg4 fullShare xl
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare xb ∗ owns (c : Thread nD τ) arg3 fullShare xw ∗ owns (c : Thread nD τ) arg4 fullShare xl
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__head_pool_kernel i arg1 harg1 arg2 harg2 arg3 harg3 arg4 harg4 arg5 harg5 arg6 harg6 arg7 harg7 arg8 harg8) K } := by
  refine ⟨?_, ?_, ?_, ?_, fun E K => ?run⟩
  case run =>
    simp only [cc2__head_pool_kernel_eq_skeleton]; unfold cc2__head_pool_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg4.eq_unread hf4
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.KernelIdeal.Hand

end
-- ==== Proof.KIPool2.lean ====
/-
  Region 2 of the program: the proof data and the body obligation.

  What the body leaves is followed point by point: the head's block and the means' block in their windows, and the two
  accumulators (feature sums, node counts) that the body keeps in scratch memory from one point to the next. The
  first point starts the accumulators from zero; every later point adds to what the point before left; the last
  point also stores the means. The region's invariant before a point holds the two accumulators at what the point
  before left (at anything before the first point), beside the untouched rest of the core's scoped memory.
-/
import proofs.«412122_j12154757448413_2_alg».proof.Proof.Gen.KernelIdeal.Launch
import proofs.«412122_j12154757448413_2_alg».proof.Proof.Gen.KernelIdeal.Skeleton
import proofs.«412122_j12154757448413_2_alg».proof.Proof.Gen.KernelIdeal.Points
import proofs.«412122_j12154757448413_2_alg».proof.Proof.KIPool2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block of its array at grid point `t`, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A: the head's output block, as its stored pieces read back. -/
def out2_A_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) : Vec F S10000x64 .f32 :=
  VO2_4.read (Elt F) (VO2_4.writes (Elt F) VO2_4.junk (kernelRun2_A c i arg1 harg1 arg2 harg2 arg3 harg3 arg4 harg4 arg5 harg5 arg6 harg6 arg7 harg7 arg8 harg8 hc0 hc1 x0 xb xw xl).1)
/-- Those pieces cover it. -/
theorem cover2_A_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) (y : S10000x64.Idx) :
    ∃ pc ∈ (kernelRun2_A c i arg1 harg1 arg2 harg2 arg3 harg3 arg4 harg4 arg5 harg5 arg6 harg6 arg7 harg7 arg8 harg8 hc0 hc1 x0 xb xw xl).1, y ∈ pc.1.set :=
  View.cover_of_tiledL (kernelRun2_A c i arg1 harg1 arg2 harg2 arg3 harg3 arg4 harg4 arg5 harg5 arg6 harg6 arg7 harg7 arg8 harg8 hc0 hc1 x0 xb xw xl).1 S10000x64.size (by sl_kernel_rfl) y
/-- Case A: the sums' accumulator, as its stored pieces read back. -/
def sout2_A_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) : Vec F S64x64 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 xb xw xl).2.1)
/-- Those pieces cover it. -/
theorem scover2_A_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) (y : S64x64.Idx) :
    ∃ pc ∈ (kernelRun2_A c i arg1 harg1 arg2 harg2 arg3 harg3 arg4 harg4 arg5 harg5 arg6 harg6 arg7 harg7 arg8 harg8 hc0 hc1 x0 xb xw xl).2.1, y ∈ pc.1.set :=
  View.cover_of_tiledL (kernelRun2_A c i arg1 harg1 arg2 harg2 arg3 harg3 arg4 harg4 arg5 harg5 arg6 harg6 arg7 harg7 arg8 harg8 hc0 hc1 x0 xb xw xl).2.1 S64x64.size (by sl_kernel_rfl) y
/-- Case A: the counts' accumulator, as its stored pieces read back. -/
def sout2_A_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) : Vec F S64x1 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 xb xw xl).2.2.1)
/-- Those pieces cover it. -/
theorem scover2_A_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i)
    (x0 : Vec F S10000x64 .f32) (xb : Vec F S10000x1 .i32) (xw : Vec F S64x64 .f32) (xl : Vec F S1x64 .f32) (y : S64x1.Idx) :
    ∃ pc ∈ (kernelRun2_A c i arg1 harg1 arg2 harg2 arg3 harg3 arg4 harg4 arg5 harg5 arg6 harg6 arg7 harg7 arg8 harg8 hc0 hc1 x0 xb xw xl).2.2.1, y ∈ pc.1.set :=
  View.cover_of_tiledL (kernelRun2_A c i arg1 harg1 arg2 harg2 arg3 harg3 arg4 harg4 arg5 harg5 arg6 harg6 arg7 harg7 arg8 harg8 hc0 hc1 x0 xb xw xl).2.2.1 S64x1.size (by sl_kernel_rfl) y

/-- Case B: the head's output block, as its stored pieces read back. -/
def out2_B_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S10000x64 .f32 :=
  VO2_4.read (Elt F) (VO2_4.writes (Elt F) VO2_4.junk (kernelRun2_B c i arg1 harg1 arg2 harg2 arg3 harg3 arg4 harg4 arg5 harg5 arg6 harg6 arg7 harg7 arg8 harg8 hc0 hc1 x0 xb xw xl xs0 xs1).1)
/-- Those pieces cover it. -/
theorem cover2_B_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) (y : S10000x64.Idx) :
    ∃ pc ∈ (kernelRun2_B c i arg1 harg1 arg2 harg2 arg3 harg3 arg4 harg4 arg5 harg5 arg6 harg6 arg7 harg7 arg8 harg8 hc0 hc1 x0 xb xw xl xs0 xs1).1, y ∈ pc.1.set :=
  View.cover_of_tiledL (kernelRun2_B c i arg1 harg1 arg2 harg2 arg3 harg3 arg4 harg4 arg5 harg5 arg6 harg6 arg7 harg7 arg8 harg8 hc0 hc1 x0 xb xw xl xs0 xs1).1 S10000x64.size (by sl_kernel_rfl) y
/-- Case B: the sums' accumulator, as its stored pieces read back. -/
def sout2_B_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x64 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 xb xw xl xs0 xs1).2.1)
/-- Those pieces cover it. -/
theorem scover2_B_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x64.Idx) :
    ∃ pc ∈ (kernelRun2_B c i arg1 harg1 arg2 harg2 arg3 harg3 arg4 harg4 arg5 harg5 arg6 harg6 arg7 harg7 arg8 harg8 hc0 hc1 x0 xb xw xl xs0 xs1).2.1, y ∈ pc.1.set :=
  View.cover_of_tiledL (kernelRun2_B c i arg1 harg1 arg2 harg2 arg3 harg3 arg4 harg4 arg5 harg5 arg6 harg6 arg7 harg7 arg8 harg8 hc0 hc1 x0 xb xw xl xs0 xs1).2.1 S64x64.size (by sl_kernel_rfl) y
/-- Case B: the counts' accumulator, as its stored pieces read back. -/
def sout2_B_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x1 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 xb xw xl xs0 xs1).2.2.1)
/-- Those pieces cover it. -/
theorem scover2_B_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x1.Idx) :
    ∃ pc ∈ (kernelRun2_B c i arg1 harg1 arg2 harg2 arg3 harg3 arg4 harg4 arg5 harg5 arg6 harg6 arg7 harg7 arg8 harg8 hc0 hc1 x0 xb xw xl xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 xb xw xl xs0 xs1).2.2.1 S64x1.size (by sl_kernel_rfl) y

/-- Case C: the head's output block, as its stored pieces read back. -/
def out2_C_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S10000x64 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 xb xw xl xs0 xs1).1)
/-- Those pieces cover it. -/
theorem cover2_C_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S10000x64.Idx) :
    ∃ pc ∈ (kernelRun2_C c i arg1 harg1 arg2 harg2 arg3 harg3 arg4 harg4 arg5 harg5 arg6 harg6 arg7 harg7 arg8 harg8 hc0 hc1 x0 xb xw xl xs0 xs1).1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).1 S10000x64.size (by sl_kernel_rfl) y
/-- Case C: the means' block, as its stored pieces read back. -/
def out2_C_5 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x64 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 xb xw xl xs0 xs1).2.1)
/-- Those pieces cover it. -/
theorem cover2_C_5 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x64.Idx) :
    ∃ pc ∈ (kernelRun2_C c i arg1 harg1 arg2 harg2 arg3 harg3 arg4 harg4 arg5 harg5 arg6 harg6 arg7 harg7 arg8 harg8 hc0 hc1 x0 xb xw xl xs0 xs1).2.1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).2.1 S64x64.size (by sl_kernel_rfl) y
/-- Case C: the sums' accumulator, as its stored pieces read back. -/
def sout2_C_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x64 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 xb xw xl xs0 xs1).2.2.1)
/-- Those pieces cover it. -/
theorem scover2_C_0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x64.Idx) :
    ∃ pc ∈ (kernelRun2_C c i arg1 harg1 arg2 harg2 arg3 harg3 arg4 harg4 arg5 harg5 arg6 harg6 arg7 harg7 arg8 harg8 hc0 hc1 x0 xb xw xl xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).2.2.1 S64x64.size (by sl_kernel_rfl) y
/-- Case C: the counts' accumulator, as its stored pieces read back. -/
def sout2_C_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) : Vec F S64x1 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 xb xw xl xs0 xs1).2.2.2.1)
/-- Those pieces cover it. -/
theorem scover2_C_1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i)
    (x0 : Vec F S10000x64 .f32) (xb : Vec F S10000x1 .i32) (xw : Vec F S64x64 .f32) (xl : Vec F S1x64 .f32) (xs0 : Vec F S64x64 .f32) (xs1 : Vec F S64x1 .f32) (y : S64x1.Idx) :
    ∃ pc ∈ (kernelRun2_C c i arg1 harg1 arg2 harg2 arg3 harg3 arg4 harg4 arg5 harg5 arg6 harg6 arg7 harg7 arg8 harg8 hc0 hc1 x0 xb xw xl xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 xb xw xl xs0 xs1).2.2.2.1 S64x1.size (by sl_kernel_rfl) y

/-! ## What the outputs and the accumulators hold after each point -/

theorem N2_eq : cfg2.N = 10 := N_2

/-- After the body at position `n`: the head's block, the means' block (of no account off the last point, where the
    window is idle), the sums' accumulator, the counts' accumulator. The first point starts from zeroed accumulators;
    a later point adds to what position `n - 1` left. -/
def outsAt2 (c : Dev nD) : (n : ℕ) → n < cfg2.N → Vec F S10000x64 .f32 × Vec F S64x64 .f32 × Vec F S64x64 .f32 × Vec F S64x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), VO2_5.read (Elt F) VO2_5.junk, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : (n + 1) % 10 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, VO2_5.read (Elt F) VO2_5.junk, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by have hN : n + 1 < 10 := lt_of_lt_of_eq hn N2_eq; (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)

/-- `outsAt2` at the first point. -/
theorem outsAt2_A (c : Dev nD) (t : Fin cfg2.N) (h0 : t.val % 10 = 0) (h1 : ¬t.val % 10 = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), VO2_5.read (Elt F) VO2_5.junk, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; have hN : n + 1 < 10 := lt_of_lt_of_eq hn N2_eq; (try dsimp only at h0); omega)

/-- `outsAt2` at a middle point: over what the point before left. -/
theorem outsAt2_B (c : Dev nD) (t : Fin cfg2.N) (h0 : ¬t.val % 10 = 0) (h1 : ¬t.val % 10 = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, VO2_5.read (Elt F) VO2_5.junk, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 10 = 0) (h1 : t.val % 10 = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- What rides beside the accumulators: every other scoped buffer of the core that is no staging buffer of this region. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The invariant before position `n`: before the first point the untouched scoped rest (the accumulators at anything);
    afterwards the accumulators at what the point before left, the rest untouched, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ restBut2 c) ∗ (∃ r, prngReg c r)) := by
  cases n with
  | zero => exact absurd rfl hz
  | succ n => rfl

/-! ## The region's proof data -/

/-- The proof data on core `c`: the arrays as the region finds them; after the body at point `t` each input's buffer at
    its block and the outputs' at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 16000000 in
/-- The body at any point. The inputs' buffers hold their blocks; the point's position says which case it is in; the
    invariant hands the body the accumulators at what the point before left (at anything at the first point) and
    takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt N2_eq
  by_cases h0 : t.val % 10 = 0
  · have h1 : ¬t.val % 10 = 9 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [outsAt2_A V c t h0 h1]
    unfold out2_A_4 sout2_A_0 sout2_A_1; (try dsimp only)
    rw [PhiS2_castSucc V c t, PhiS2_zero V c _ _ hz, PhiA2_eq]
    iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, H5, ⟨%es0, HS0⟩, ⟨%es1, HS1⟩⟩
    isplitl [HS0 HS1 Hb Hg]
    · isplitl [HS0 HS1 Hb]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _ _ _)
    iexists _; iexact H5
  · have hz : t.val ≠ 0 := by omega
    by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_4 out2_C_5 sout2_C_0 sout2_C_1; (try dsimp only)
      rw [PhiS2_castSucc V c t, PhiS2_pos V c _ _ hz]
      iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hb Hg]
      · isplitl [HS0 HS1 Hb]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold out2_B_4 sout2_B_0 sout2_B_1; (try dsimp only)
      rw [PhiS2_castSucc V c t, PhiS2_pos V c _ _ hz]
      iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, ⟨%es0, HS0⟩, ⟨%es1, HS1⟩⟩
      isplitl [HS0 HS1 Hb Hg]
      · isplitl [HS0 HS1 Hb]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_B_4 c _ _ _ _ _ _ _ _ _ _ _ _ _ _ _ _ _ _ _ _ _ _ _ _ _)
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N2_eq; omega), PhiA2_eq]
  iintro ⟨⟨⟨HS0, HS1⟩, Hb⟩, Hg⟩
  isplitl [HS0 HS1 Hb]
  · isplitl [HS0 HS1]
    · isplitl [HS0]
      · iexists _; iexact HS0
      iexists _; iexact HS1
    iexact Hb
  iexact Hg

end Cert.KernelIdeal.Hand

end
-- ==== Proof.KIRun.lean ====
/-
  The whole program run: three kernel regions among three stretches of host operations.

  The contents of the core's unscoped buffers are followed from the launch to the return: a stretch of host operations
  takes them to the operations' results; a region takes them to the same contents but for its result arrays, which hold
  what its ten write-backs leave. Each region is entered from "every unscoped buffer at the boundary's contents, the
  generator register at some state, nothing owed" and left at the same state one boundary on. The launch of the chain
  of six segments then says: every weakly fair execution terminates, and in every final state every unscoped buffer
  holds the last boundary's contents — the two results at what region 2 leaves, and each argument, which no operation
  writes and no region changes, as launched.
-/
import proofs.«412122_j12154757448413_2_alg».proof.Proof.Gen.KernelIdeal.Launch
import proofs.«412122_j12154757448413_2_alg».proof.Proof.Gen.KernelIdeal.Skeleton
import proofs.«412122_j12154757448413_2_alg».proof.Proof.Gen.KernelIdeal.Points
import proofs.«412122_j12154757448413_2_alg».proof.Proof.Gen.KernelIdeal.Regions
import proofs.«412122_j12154757448413_2_alg».proof.Proof.KICombine0
import proofs.«412122_j12154757448413_2_alg».proof.Proof.KICombine1
import proofs.«412122_j12154757448413_2_alg».proof.Proof.KIPool2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the first stretch of host operations: region 0's entry. -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b
/-- What region 0's write-backs leave in its result array. -/
def o2 (c : Dev nD) : Buf (Elt F) ((c : Thread nD τ).loc main_v26) := (dat0 (R1 m) c).arrAt 5 cfg0.N
/-- At region 0's exit. -/
abbrev W2 : Dev nD → Valuation τ sig (Elt F) := fun c => Function.update (W1 m c) main_v26 (o2 m c)
/-- After the second stretch: region 1's entry. -/
abbrev W3 : Dev nD → Valuation τ sig (Elt F) := fun c => StableHlo.after hostOps1 (W2 m c)
abbrev R3 : (c : Dev nD) → (b : Ref sig .tc) → Buf (Elt F) ((c : Thread nD τ).loc b) := fun c b => W3 m c b
/-- What region 1's write-backs leave in its result array. -/
def o4 (c : Dev nD) : Buf (Elt F) ((c : Thread nD τ).loc main_v40) := (dat1 (R3 m) c).arrAt 5 cfg1.N
/-- At region 1's exit. -/
abbrev W4 : Dev nD → Valuation τ sig (Elt F) := fun c => Function.update (W3 m c) main_v40 (o4 m c)
/-- After the third stretch: region 2's entry. -/
abbrev W5 : Dev nD → Valuation τ sig (Elt F) := fun c => StableHlo.after hostOps2 (W4 m c)
abbrev R5 : (c : Dev nD) → (b : Ref sig .tc) → Buf (Elt F) ((c : Thread nD τ).loc b) := fun c b => W5 m c b
/-- What region 2's write-backs leave in its two result arrays. -/
def o6a (c : Dev nD) : Buf (Elt F) ((c : Thread nD τ).loc main_v43_0) := (dat2 (R5 m) c).arrAt 4 cfg2.N
def o6b (c : Dev nD) : Buf (Elt F) ((c : Thread nD τ).loc main_v43_1) := (dat2 (R5 m) c).arrAt 5 cfg2.N
/-- At region 2's exit: the return. -/
abbrev W6 : Dev nD → Valuation τ sig (Elt F) := fun c =>
  Function.update (Function.update (W5 m c) main_v43_0 (o6a m c)) main_v43_1 (o6b m c)

abbrev R2 : (c : Dev nD) → (b : Ref sig .tc) → Buf (Elt F) ((c : Thread nD τ).loc b) := fun c b => W2 m c b
abbrev R4 : (c : Dev nD) → (b : Ref sig .tc) → Buf (Elt F) ((c : Thread nD τ).loc b) := fun c b => W4 m c b
abbrev R6 : (c : Dev nD) → (b : Ref sig .tc) → Buf (Elt F) ((c : Thread nD τ).loc b) := fun c b => W6 m c b

/-- A region's exit contents at its result array, and away from it. -/
theorem W2_self (c : Dev nD) : W2 m c main_v26 = o2 m c := Function.update_self _ _ _
theorem W2_ne (c : Dev nD) (r : Ref sig .tc) (h : r ≠ main_v26) : W2 m c r = W1 m c r :=
  Function.update_of_ne (StableHlo.devRef_ne_of_ne h : (Proc.devRef .tc r : DevRef τ sig) ≠ Proc.devRef .tc main_v26) _ _
theorem W4_self (c : Dev nD) : W4 m c main_v40 = o4 m c := Function.update_self _ _ _
theorem W4_ne (c : Dev nD) (r : Ref sig .tc) (h : r ≠ main_v40) : W4 m c r = W3 m c r :=
  Function.update_of_ne (StableHlo.devRef_ne_of_ne h : (Proc.devRef .tc r : DevRef τ sig) ≠ Proc.devRef .tc main_v40) _ _
theorem W6_self1 (c : Dev nD) : W6 m c main_v43_1 = o6b m c := Function.update_self _ _ _
theorem W6_self0 (c : Dev nD) : W6 m c main_v43_0 = o6a m c :=
  (Function.update_of_ne (StableHlo.devRef_ne_of_ne (by decide : (main_v43_0 : Ref sig .tc) ≠ main_v43_1) : (Proc.devRef .tc main_v43_0 : DevRef τ sig) ≠ Proc.devRef .tc main_v43_1) _ _).trans
    (Function.update_self _ _ _)
theorem W6_ne (c : Dev nD) (r : Ref sig .tc) (h0 : r ≠ main_v43_0) (h1 : r ≠ main_v43_1) : W6 m c r = W5 m c r :=
  (Function.update_of_ne (StableHlo.devRef_ne_of_ne h1 : (Proc.devRef .tc r : DevRef τ sig) ≠ Proc.devRef .tc main_v43_1) _ _).trans
    (Function.update_of_ne (StableHlo.devRef_ne_of_ne h0 : (Proc.devRef .tc r : DevRef τ sig) ≠ Proc.devRef .tc main_v43_0) _ _)

/-! ## A buffer nothing writes ends as launched -/

/-- A buffer that no host operation writes and that is no region's result array holds its launch contents at the
    return. -/
theorem W6_of (c : Dev nD) (r : Ref sig .tc) (h0 : r ∉ hostOps0_W) (h1 : r ∉ ([main_v26] : List (Ref sig .tc)))
    (h2 : r ∉ hostOps1_W) (h3 : r ∉ ([main_v40] : List (Ref sig .tc))) (h4 : r ∉ hostOps2_W)
    (h5 : r ∉ ([main_v43_0, main_v43_1] : List (Ref sig .tc))) : W6 m c r = m ((c : Thread nD τ).loc r) := by
  have e6 : W6 m c r = W5 m c r := by
    simp only [W6, Function.update_of_ne (StableHlo.devRef_ne_of_ne (List.ne_of_not_mem_cons h5) : (Proc.devRef .tc r : DevRef τ sig) ≠ Proc.devRef .tc main_v43_0), Function.update_of_ne (StableHlo.devRef_ne_of_ne (List.ne_of_not_mem_cons (List.not_mem_of_not_mem_cons h5)) : (Proc.devRef .tc r : DevRef τ sig) ≠ Proc.devRef .tc main_v43_1)]
  have e5 : W5 m c r = W4 m c r := StableHlo.after_of_writes_sub hostOps2 _ hostOps2_writes h4
  have e4 : W4 m c r = W3 m c r := by
    simp only [W4, Function.update_of_ne (StableHlo.devRef_ne_of_ne (List.ne_of_not_mem_cons h3) : (Proc.devRef .tc r : DevRef τ sig) ≠ Proc.devRef .tc main_v40)]
  have e3 : W3 m c r = W2 m c r := StableHlo.after_of_writes_sub hostOps1 _ hostOps1_writes h2
  have e2 : W2 m c r = W1 m c r := by
    simp only [W2, Function.update_of_ne (StableHlo.devRef_ne_of_ne (List.ne_of_not_mem_cons h1) : (Proc.devRef .tc r : DevRef τ sig) ≠ Proc.devRef .tc main_v26)]
  have e1 : W1 m c r = W0 m c r := StableHlo.after_of_writes_sub hostOps0 _ hostOps0_writes h0
  exact e6.trans (e5.trans (e4.trans (e3.trans (e2.trans (e1.trans rfl)))))

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each region's arrays at its exit -/

/-- At region 0's exit each of its arrays holds what the write-backs leave (an input, its entry contents), -/
theorem hF0 (c : Dev nD) (w : Fin cfg0.W) : (pdats m 0 c).arrAt w cfg0.N = R2 m c (Pipeline.arrRef spec0 w) := by
  show (dat0 (R1 m) c).arrAt w cfg0.N = _
  match w with
  | ⟨0, _⟩ => exact ((dat0 (R1 m) c).arrAt_in 0 rfl _).trans ((A_eq0 (R1 m) c 0).trans (W2_ne m c main_v24 (by decide)).symm)
  | ⟨1, _⟩ => exact ((dat0 (R1 m) c).arrAt_in 1 rfl _).trans ((A_eq0 (R1 m) c 1).trans (W2_ne m c main_arg0 (by decide)).symm)
  | ⟨2, _⟩ => exact ((dat0 (R1 m) c).arrAt_in 2 rfl _).trans ((A_eq0 (R1 m) c 2).trans (W2_ne m c main_arg3 (by decide)).symm)
  | ⟨3, _⟩ => exact ((dat0 (R1 m) c).arrAt_in 3 rfl _).trans ((A_eq0 (R1 m) c 3).trans (W2_ne m c main_v25 (by decide)).symm)
  | ⟨4, _⟩ => exact ((dat0 (R1 m) c).arrAt_in 4 rfl _).trans ((A_eq0 (R1 m) c 4).trans (W2_ne m c main_arg5 (by decide)).symm)
  | ⟨5, _⟩ => exact (show o2 m c = R2 m c main_v26 from (W2_self m c).symm)
/-- and every other buffer what it held at entry. -/
theorem hrest0 (c : Dev nD) : ∀ b, b ∉ Finset.univ.image (Pipeline.arrRef spec0) → R2 m c b = R1 m c b := fun b hb =>
  W2_ne m c b fun e => hb (Finset.mem_image.mpr ⟨5, Finset.mem_univ _, (show Pipeline.arrRef spec0 5 = b from e.symm)⟩)

theorem hF1 (c : Dev nD) (w : Fin cfg1.W) : (pdats m 1 c).arrAt w cfg1.N = R4 m c (Pipeline.arrRef spec1 w) := by
  show (dat1 (R3 m) c).arrAt w cfg1.N = _
  match w with
  | ⟨0, _⟩ => exact ((dat1 (R3 m) c).arrAt_in 0 rfl _).trans ((A_eq1 (R3 m) c 0).trans (W4_ne m c main_v38 (by decide)).symm)
  | ⟨1, _⟩ => exact ((dat1 (R3 m) c).arrAt_in 1 rfl _).trans ((A_eq1 (R3 m) c 1).trans (W4_ne m c main_v26 (by decide)).symm)
  | ⟨2, _⟩ => exact ((dat1 (R3 m) c).arrAt_in 2 rfl _).trans ((A_eq1 (R3 m) c 2).trans (W4_ne m c main_arg6 (by decide)).symm)
  | ⟨3, _⟩ => exact ((dat1 (R3 m) c).arrAt_in 3 rfl _).trans ((A_eq1 (R3 m) c 3).trans (W4_ne m c main_v39 (by decide)).symm)
  | ⟨4, _⟩ => exact ((dat1 (R3 m) c).arrAt_in 4 rfl _).trans ((A_eq1 (R3 m) c 4).trans (W4_ne m c main_arg8 (by decide)).symm)
  | ⟨5, _⟩ => exact (show o4 m c = R4 m c main_v40 from (W4_self m c).symm)
theorem hrest1 (c : Dev nD) : ∀ b, b ∉ Finset.univ.image (Pipeline.arrRef spec1) → R4 m c b = R3 m c b := fun b hb =>
  W4_ne m c b fun e => hb (Finset.mem_image.mpr ⟨5, Finset.mem_univ _, (show Pipeline.arrRef spec1 5 = b from e.symm)⟩)

theorem hF2 (c : Dev nD) (w : Fin cfg2.W) : (pdats m 2 c).arrAt w cfg2.N = R6 m c (Pipeline.arrRef spec2 w) := by
  show (dat2 (R5 m) c).arrAt w cfg2.N = _
  match w with
  | ⟨0, _⟩ => exact ((dat2 (R5 m) c).arrAt_in 0 rfl _).trans ((A_eq2 (R5 m) c 0).trans (W6_ne m c main_v40 (by decide) (by decide)).symm)
  | ⟨1, _⟩ => exact ((dat2 (R5 m) c).arrAt_in 1 rfl _).trans ((A_eq2 (R5 m) c 1).trans (W6_ne m c main_v41 (by decide) (by decide)).symm)
  | ⟨2, _⟩ => exact ((dat2 (R5 m) c).arrAt_in 2 rfl _).trans ((A_eq2 (R5 m) c 2).trans (W6_ne m c main_arg9 (by decide) (by decide)).symm)
  | ⟨3, _⟩ => exact ((dat2 (R5 m) c).arrAt_in 3 rfl _).trans ((A_eq2 (R5 m) c 3).trans (W6_ne m c main_v42 (by decide) (by decide)).symm)
  | ⟨4, _⟩ => exact (show o6a m c = R6 m c main_v43_0 from (W6_self0 m c).symm)
  | ⟨5, _⟩ => exact (show o6b m c = R6 m c main_v43_1 from (W6_self1 m c).symm)
theorem hrest2 (c : Dev nD) : ∀ b, b ∉ Finset.univ.image (Pipeline.arrRef spec2) → R6 m c b = R5 m c b := fun b hb =>
  W6_ne m c b (fun e => hb (Finset.mem_image.mpr ⟨4, Finset.mem_univ _, (show Pipeline.arrRef spec2 4 = b from e.symm)⟩))
    (fun e => hb (Finset.mem_image.mpr ⟨5, Finset.mem_univ _, (show Pipeline.arrRef spec2 5 = b from e.symm)⟩))

/-- The last thread state without what is owed: every unscoped buffer at the return's contents, the generator register
    at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state "every unscoped buffer at the boundary's contents, the generator register at some
    state, nothing owed": entered at `W1`, left at `W2`. Its arrays are split out of the unscoped buffers at
    entry and put back at their exit contents; the register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": entered at `W3`, left at `W4`. Its arrays are split out of the unscoped buffers at
    entry and put back at their exit contents; the register goes into the region's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state "every unscoped buffer at the boundary's contents, the generator register at some
    state, nothing owed": entered at `W5`, left at `W6`. Its arrays are split out of the unscoped buffers at
    entry and put back at their exit contents; the register goes into the region's invariant and comes back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m 2 c).Φ 0 from hin2 (R5 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (R5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of @main terminates, nothing faulting, and
    in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the run says of the arguments and the results -/

theorem W6_main_arg0 (c : Dev nD) : W6 m c main_arg0 = m ((c : Thread nD τ).loc main_arg0) :=
  W6_of m c main_arg0 (by decide) (by decide) (by decide) (by decide) (by decide) (by decide)
theorem W6_main_arg1 (c : Dev nD) : W6 m c main_arg1 = m ((c : Thread nD τ).loc main_arg1) :=
  W6_of m c main_arg1 (by decide) (by decide) (by decide) (by decide) (by decide) (by decide)
theorem W6_main_arg2 (c : Dev nD) : W6 m c main_arg2 = m ((c : Thread nD τ).loc main_arg2) :=
  W6_of m c main_arg2 (by decide) (by decide) (by decide) (by decide) (by decide) (by decide)
theorem W6_main_arg3 (c : Dev nD) : W6 m c main_arg3 = m ((c : Thread nD τ).loc main_arg3) :=
  W6_of m c main_arg3 (by decide) (by decide) (by decide) (by decide) (by decide) (by decide)
theorem W6_main_arg4 (c : Dev nD) : W6 m c main_arg4 = m ((c : Thread nD τ).loc main_arg4) :=
  W6_of m c main_arg4 (by decide) (by decide) (by decide) (by decide) (by decide) (by decide)
theorem W6_main_arg5 (c : Dev nD) : W6 m c main_arg5 = m ((c : Thread nD τ).loc main_arg5) :=
  W6_of m c main_arg5 (by decide) (by decide) (by decide) (by decide) (by decide) (by decide)
theorem W6_main_arg6 (c : Dev nD) : W6 m c main_arg6 = m ((c : Thread nD τ).loc main_arg6) :=
  W6_of m c main_arg6 (by decide) (by decide) (by decide) (by decide) (by decide) (by decide)
theorem W6_main_arg7 (c : Dev nD) : W6 m c main_arg7 = m ((c : Thread nD τ).loc main_arg7) :=
  W6_of m c main_arg7 (by decide) (by decide) (by decide) (by decide) (by decide) (by decide)
theorem W6_main_arg8 (c : Dev nD) : W6 m c main_arg8 = m ((c : Thread nD τ).loc main_arg8) :=
  W6_of m c main_arg8 (by decide) (by decide) (by decide) (by decide) (by decide) (by decide)
theorem W6_main_arg9 (c : Dev nD) : W6 m c main_arg9 = m ((c : Thread nD τ).loc main_arg9) :=
  W6_of m c main_arg9 (by decide) (by decide) (by decide) (by decide) (by decide) (by decide)
theorem W6_main_arg10 (c : Dev nD) : W6 m c main_arg10 = m ((c : Thread nD τ).loc main_arg10) :=
  W6_of m c main_arg10 (by decide) (by decide) (by decide) (by decide) (by decide) (by decide)

/-- The first result at the return: what region 2's write-backs leave in the head's array. -/
theorem W6_out0 (c : Dev nD) : W6 m c main_v43_0 = o6a m c := W6_self0 m c
/-- The second result at the return: what region 2's write-backs leave in the means' array. -/
theorem W6_out1 (c : Dev nD) : W6 m c main_v43_1 = o6b m c := W6_self1 m c

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

/-- THE RUN WITH ITS RESULTS: the two results at what region 2 leaves, every argument as launched. -/
theorem run_results : θ_run defs (onTc (τ := τ) (main (F := F))) ⟨m, fun _ => 0, ρ⟩ (fun r => ∀ c : Dev nD,
      r.2.mem ((c.tc : Thread nD τ).loc main_v43_0) = o6a m c
      ∧ r.2.mem ((c.tc : Thread nD τ).loc main_v43_1) = o6b m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v43_0 (by decide))).trans (W6_out0 m c),
    (h c _ (mem_uc main_v43_1 (by decide))).trans (W6_out1 m c),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

end Cert.KernelIdeal.Hand

end
-- ==== Proof.RefRead.lean ====
/-
  The reference program's run and its stages read at an index: the generated run of the reference's @main and the
  generated one-operation-at-a-time lemmas over it, gathered here for the modules that compare the reference with
  the kernel's program.
-/
import proofs.«412122_j12154757448413_2_alg».proof.Proof.Gen.ReferenceIdeal.Run
import proofs.«412122_j12154757448413_2_alg».proof.Proof.Gen.ReferenceIdeal.Read
-- ==== Proof.KIHostDefs.lean ====
/-
  The kernel program's host operations around its regions, named.

  From the edge list (a 2 × 1600000 array of node ids) the program takes the source row and the destination row; turns
  a negative source id into id + 100000; gathers the source rows of a feature array, scatter-adds them onto the
  destination rows, and multiplies row by row by the reciprocal of the larger of the destination's in-degree and one,
  the in-degree being ones scatter-added onto the destination ids. The reciprocal column is computed once and used by
  both layers.
-/
import proofs.«412122_j12154757448413_2_alg».proof.Proof.Gen.KernelIdeal

noncomputable section

namespace Cert.KernelIdeal.Hand

open Cert.KernelIdeal Cert.KernelIdeal.Facts₀ Cert.KernelIdeal.Facts
open Idealize.ShloMosaic

variable {F : FTy → Type} [FloatOps F]

/-- The edges' source ids. -/
def edgeSrc (e : IVec S2x1600000 32) : IVec S1600000 32 :=
  shapeCast _ (extractStridedSlice S1x1600000 ![0, 0] e slices_S2x1600000_S1x1600000_0_0) shapeCasts_S1x1600000_S1600000

/-- The edges' destination ids. -/
def edgeDst (e : IVec S2x1600000 32) : IVec S1600000 32 :=
  shapeCast _ (extractStridedSlice S1x1600000 ![1, 0] e slices_S2x1600000_S1x1600000_1_0) shapeCasts_S1x1600000_S1600000

/-- The column of reciprocals 1 / max(in-degree, 1), the in-degree counted by scatter-adding ones onto the destinations. -/
def degInvK (d : IVec S1600000 32) : FVec F S100000x1 .f32 :=
  shapeCast _
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 d)
          (broadcastInDim S1600000 ![] bcast_S_S1600000 (constant S_ .f32 0x3F800000#32)))
        (broadcastInDim S100000 ![] bcast_S_S100000 (constant S_ .f32 0x3F800000#32))))
    shapeCasts_S100000_S100000x1

/-- The mean aggregation as the kernel program computes it: features `h`, source ids `s`, destination ids `d`, and the
    reciprocal column `dinv`. -/
def aggOfK (h : FVec F S100000x64 .f32) (s d : IVec S1600000 32) (dinv : FVec F S100000x1 .f32) : FVec F S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x64 ![0, 1] bcast_S100000x1_S100000x64_0_1 dinv)

/-- A bias vector as a 1 × 64 row, and the graph ids as a column. -/
def biasRow (b : FVec F S64 .f32) : FVec F S1x64 .f32 := shapeCast _ b shapeCasts_S64_S1x64
def idsCol (b : IVec S100000 32) : IVec S100000x1 32 := shapeCast _ b shapeCasts_S100000_S100000x1

end Cert.KernelIdeal.Hand

end
-- ==== Proof.KIHost.lean ====
/-
  What the host operations leave at the buffers the regions read.

  Each stretch of host operations is a straight line of array operations, so what a buffer holds after the stretch is
  the composition of the operations that lead to it, applied to what the buffers held before. Read that way: region 0
  is entered with the mean aggregation of the input features, the input features, two weight matrices and a bias row;
  region 1 with the mean aggregation of region 0's result (over the same edges and the same reciprocal column, computed
  once), that result, and its own weights and bias row; region 2 with region 1's result, the graph ids as a column, and
  the head's weights and bias row. No host operation writes an argument or a region's result.
-/
import proofs.«412122_j12154757448413_2_alg».proof.Proof.KIRun
import proofs.«412122_j12154757448413_2_alg».proof.Proof.KIHostDefs
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## The stretches read at a buffer, from any contents before them -/

set_option maxHeartbeats 16000000 in
theorem after0_v1 (V : Valuation τ sig (Elt F)) :
    (StableHlo.after hostOps0 V (Proc.devRef .tc main_v1) : IVec S1600000 32) = edgeSrc (V (Proc.devRef .tc main_arg1)) := by
  unfold hostOps0; after_results_simp <;> rfl

set_option maxHeartbeats 16000000 in
theorem after0_v3 (V : Valuation τ sig (Elt F)) :
    (StableHlo.after hostOps0 V (Proc.devRef .tc main_v3) : IVec S1600000 32) = edgeDst (V (Proc.devRef .tc main_arg1)) := by
  unfold hostOps0; after_results_simp <;> rfl

set_option maxHeartbeats 16000000 in
theorem after0_v12 (V : Valuation τ sig (Elt F)) :
    (StableHlo.after hostOps0 V (Proc.devRef .tc main_v12) : FVec F S100000x1 .f32) = degInvK (edgeDst (V (Proc.devRef .tc main_arg1))) := by
  unfold hostOps0; after_results_simp <;> rfl

set_option maxHeartbeats 16000000 in
theorem after0_v24 (V : Valuation τ sig (Elt F)) :
    (StableHlo.after hostOps0 V (Proc.devRef .tc main_v24) : FVec F S100000x64 .f32) = aggOfK (V (Proc.devRef .tc main_arg0)) (edgeSrc (V (Proc.devRef .tc main_arg1))) (edgeDst (V (Proc.devRef .tc main_arg1))) (degInvK (edgeDst (V (Proc.devRef .tc main_arg1)))) := by
  unfold hostOps0; after_results_simp <;> rfl

set_option maxHeartbeats 16000000 in
theorem after0_v25 (V : Valuation τ sig (Elt F)) :
    (StableHlo.after hostOps0 V (Proc.devRef .tc main_v25) : FVec F S1x64 .f32) = biasRow (V (Proc.devRef .tc main_arg4)) := by
  unfold hostOps0; after_results_simp <;> rfl

set_option maxHeartbeats 16000000 in
theorem after1_v38 (V : Valuation τ sig (Elt F)) :
    (StableHlo.after hostOps1 V (Proc.devRef .tc main_v38) : FVec F S100000x64 .f32) = aggOfK (V (Proc.devRef .tc main_v26)) (V (Proc.devRef .tc main_v1)) (V (Proc.devRef .tc main_v3)) (V (Proc.devRef .tc main_v12)) := by
  unfold hostOps1; after_results_simp <;> rfl

set_option maxHeartbeats 16000000 in
theorem after1_v39 (V : Valuation τ sig (Elt F)) :
    (StableHlo.after hostOps1 V (Proc.devRef .tc main_v39) : FVec F S1x64 .f32) = biasRow (V (Proc.devRef .tc main_arg7)) := by
  unfold hostOps1; after_results_simp <;> rfl

set_option maxHeartbeats 16000000 in
theorem after2_v41 (V : Valuation τ sig (Elt F)) :
    (StableHlo.after hostOps2 V (Proc.devRef .tc main_v41) : IVec S100000x1 32) = idsCol (V (Proc.devRef .tc main_arg2)) := by
  unfold hostOps2; after_results_simp <;> rfl

set_option maxHeartbeats 16000000 in
theorem after2_v42 (V : Valuation τ sig (Elt F)) :
    (StableHlo.after hostOps2 V (Proc.devRef .tc main_v42) : FVec F S1x64 .f32) = biasRow (V (Proc.devRef .tc main_arg10)) := by
  unfold hostOps2; after_results_simp <;> rfl

/-! ## Along the run's boundaries -/

variable (m : (ℓ : Loc nD τ sig) → Buf (Elt F) ℓ)

/-- A buffer the first stretch does not write holds its launch contents at region 0's entry; one that neither it nor
    the second stretch writes and that is not region 0's result, at region 1's entry; and so on to region 2's entry. -/
theorem W1_of (c : Dev nD) (r : Ref sig .tc) (h0 : r ∉ hostOps0_W) : W1 m c r = m ((c : Thread nD τ).loc r) :=
  StableHlo.after_of_writes_sub hostOps0 _ hostOps0_writes h0
theorem W3_of (c : Dev nD) (r : Ref sig .tc) (h0 : r ∉ hostOps0_W) (h1 : r ≠ main_v26) (h2 : r ∉ hostOps1_W) :
    W3 m c r = m ((c : Thread nD τ).loc r) :=
  (StableHlo.after_of_writes_sub hostOps1 _ hostOps1_writes h2).trans ((W2_ne m c r h1).trans (W1_of m c r h0))
theorem W5_of (c : Dev nD) (r : Ref sig .tc) (h0 : r ∉ hostOps0_W) (h1 : r ≠ main_v26) (h2 : r ∉ hostOps1_W)
    (h3 : r ≠ main_v40) (h4 : r ∉ hostOps2_W) : W5 m c r = m ((c : Thread nD τ).loc r) :=
  (StableHlo.after_of_writes_sub hostOps2 _ hostOps2_writes h4).trans ((W4_ne m c r h3).trans (W3_of m c r h0 h1 h2))

/-- Region 0 is entered with the aggregation of the input features along the edges, -/
theorem W1_v24 (c : Dev nD) :
    (W1 m c (Proc.devRef .tc main_v24) : FVec F S100000x64 .f32)
      = aggOfK (m ((c : Thread nD τ).loc main_arg0)) (edgeSrc (m ((c : Thread nD τ).loc main_arg1))) (edgeDst (m ((c : Thread nD τ).loc main_arg1)))
          (degInvK (edgeDst (m ((c : Thread nD τ).loc main_arg1)))) :=
  after0_v24 (W0 m c)
/-- and the first layer's bias as a row. -/
theorem W1_v25 (c : Dev nD) : (W1 m c (Proc.devRef .tc main_v25) : FVec F S1x64 .f32) = biasRow (m ((c : Thread nD τ).loc main_arg4)) :=
  after0_v25 (W0 m c)

/-- Region 1 reads region 0's result where region 0 left it, -/
theorem W3_v26 (c : Dev nD) : W3 m c main_v26 = o2 m c :=
  (StableHlo.after_of_writes_sub hostOps1 _ hostOps1_writes (by decide : (main_v26 : Ref sig .tc) ∉ hostOps1_W)).trans (W2_self m c)
/-- its aggregation along the same edges with the same reciprocal column, -/
theorem W3_v38 (c : Dev nD) :
    (W3 m c (Proc.devRef .tc main_v38) : FVec F S100000x64 .f32)
      = aggOfK (o2 m c) (edgeSrc (m ((c : Thread nD τ).loc main_arg1))) (edgeDst (m ((c : Thread nD τ).loc main_arg1)))
          (degInvK (edgeDst (m ((c : Thread nD τ).loc main_arg1)))) := by
  refine (after1_v38 (W2 m c)).trans ?_
  rw [show W2 m c (Proc.devRef .tc main_v26) = o2 m c from W2_self m c,
    show (W2 m c (Proc.devRef .tc main_v1) : IVec S1600000 32) = edgeSrc (m ((c : Thread nD τ).loc main_arg1)) from
      (W2_ne m c main_v1 (by decide)).trans (after0_v1 (W0 m c)),
    show (W2 m c (Proc.devRef .tc main_v3) : IVec S1600000 32) = edgeDst (m ((c : Thread nD τ).loc main_arg1)) from
      (W2_ne m c main_v3 (by decide)).trans (after0_v3 (W0 m c)),
    show (W2 m c (Proc.devRef .tc main_v12) : FVec F S100000x1 .f32) = degInvK (edgeDst (m ((c : Thread nD τ).loc main_arg1))) from
      (W2_ne m c main_v12 (by decide)).trans (after0_v12 (W0 m c))]
/-- and the second layer's bias as a row. -/
theorem W3_v39 (c : Dev nD) : (W3 m c (Proc.devRef .tc main_v39) : FVec F S1x64 .f32) = biasRow (m ((c : Thread nD τ).loc main_arg7)) := by
  refine (after1_v39 (W2 m c)).trans ?_
  rw [show W2 m c (Proc.devRef .tc main_arg7) = m ((c : Thread nD τ).loc main_arg7) from
    (W2_ne m c main_arg7 (by decide)).trans (W1_of m c main_arg7 (by decide))]

/-- Region 2 reads region 1's result where region 1 left it, -/
theorem W5_v40 (c : Dev nD) : W5 m c main_v40 = o4 m c :=
  (StableHlo.after_of_writes_sub hostOps2 _ hostOps2_writes (by decide : (main_v40 : Ref sig .tc) ∉ hostOps2_W)).trans (W4_self m c)
/-- the graph ids as a column, -/
theorem W5_v41 (c : Dev nD) : (W5 m c (Proc.devRef .tc main_v41) : IVec S100000x1 32) = idsCol (m ((c : Thread nD τ).loc main_arg2)) := by
  refine (after2_v41 (W4 m c)).trans ?_
  rw [show W4 m c (Proc.devRef .tc main_arg2) = m ((c : Thread nD τ).loc main_arg2) from
    (W4_ne m c main_arg2 (by decide)).trans (W3_of m c main_arg2 (by decide) (by decide) (by decide))]
/-- and the head's bias as a row. -/
theorem W5_v42 (c : Dev nD) : (W5 m c (Proc.devRef .tc main_v42) : FVec F S1x64 .f32) = biasRow (m ((c : Thread nD τ).loc main_arg10)) := by
  refine (after2_v42 (W4 m c)).trans ?_
  rw [show W4 m c (Proc.devRef .tc main_arg10) = m ((c : Thread nD τ).loc main_arg10) from
    (W4_ne m c main_arg10 (by decide)).trans (W3_of m c main_arg10 (by decide) (by decide) (by decide))]

end Cert.KernelIdeal.Hand

end
-- ==== Proof.Spec.lean ====
/-
  What the network computes, index by index, over the extended reals.

  Two layers of the same shape: at node r and output feature q,
      relu( ( Σ_k a(r,k) · W_l(k,q) + b(q) ) + Σ_k h(r,k) · W_r(k,q) ),
  where `a` is the mean of the neighbours' features and `h` the node's own; then a dense head
      relu( Σ_k h(r,k) · W(k,q) + b(q) );
  then, per graph g, the mean of the head's rows over the nodes whose graph id is g: the sum of those rows over the
  larger of their number and one. A node whose id names no graph (an id outside [0, 64)) is in no mean.
-/
import Idealize.ShloMosaic.PureOps.Ideal
import Idealize.ShloMosaic.Lib.ValueIdx

noncomputable section

namespace Cert.Spec

open Idealize.ShloMosaic Idealize.ShloMosaic.ValueIdx
open scoped BigOperators

/-- Nodes × features, features × features, one row of features, features, nodes, nodes as a column, graphs as a column. -/
abbrev SNF : Shape := ⟨2, ![100000, 64]⟩
abbrev SFF : Shape := ⟨2, ![64, 64]⟩
abbrev S1F : Shape := ⟨2, ![1, 64]⟩
abbrev SF : Shape := ⟨1, ![64]⟩
abbrev SN : Shape := ⟨1, ![100000]⟩
abbrev SN1 : Shape := ⟨2, ![100000, 1]⟩
abbrev SF1 : Shape := ⟨2, ![64, 1]⟩

/-- One combine at node `r`, feature `q`. -/
def combineAt (a h : SNF.Idx → EReal) (wl wr : SFF.Idx → EReal) (b : Fin 64 → EReal) (r : Fin 100000) (q : Fin 64) : EReal :=
  max (((∑ k : Fin 64, a (ix2 r k) * wl (ix2 k q)) + b q) + ∑ k : Fin 64, h (ix2 r k) * wr (ix2 k q)) 0

/-- One combine, as an array. -/
def combine (a h : SNF.Idx → EReal) (wl wr : SFF.Idx → EReal) (b : Fin 64 → EReal) : SNF.Idx → EReal :=
  fun i => combineAt a h wl wr b (i 0) (i 1)

/-- The dense head at node `r`, feature `q`. -/
def headAt (h : SNF.Idx → EReal) (w : SFF.Idx → EReal) (b : Fin 64 → EReal) (r : Fin 100000) (q : Fin 64) : EReal :=
  max ((∑ k : Fin 64, h (ix2 r k) * w (ix2 k q)) + b q) 0

/-- The dense head, as an array. -/
def head (h : SNF.Idx → EReal) (w : SFF.Idx → EReal) (b : Fin 64 → EReal) : SNF.Idx → EReal :=
  fun i => headAt h w b (i 0) (i 1)

/-- The weight of a node with graph id `bt` in graph `g`'s mean: one if the id is `g`, else zero. -/
def hot (bt : BitVec 32) (g : Fin 64) : EReal := if bt = BitVec.ofNat 32 g.val then 1 else 0

/-- The sum of feature `q` over graph `g`'s nodes. -/
def poolSum (bat : Fin 100000 → BitVec 32) (nh : SNF.Idx → EReal) (g q : Fin 64) : EReal :=
  ∑ n : Fin 100000, hot (bat n) g * nh (ix2 n q)

/-- The number of graph `g`'s nodes. -/
def poolCnt (bat : Fin 100000 → BitVec 32) (g : Fin 64) : EReal :=
  ∑ n : Fin 100000, hot (bat n) g

/-- Graph `g`'s mean of feature `q`. -/
def poolAt (bat : Fin 100000 → BitVec 32) (nh : SNF.Idx → EReal) (g q : Fin 64) : EReal :=
  Ideal.div (poolSum bat nh g q) (max (poolCnt bat g) 1)

/-- The pooled means, as an array. -/
def pool (bat : Fin 100000 → BitVec 32) (nh : SNF.Idx → EReal) : SFF.Idx → EReal :=
  fun i => poolAt bat nh (i 0) (i 1)

end Cert.Spec

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KIValue01.lean ====
/-
  What the two combine regions leave in their result arrays, at the ideal values.

  Each of the ten grid points of a combine region writes back one block of 10000 rows, and the blocks tile the
  array; the block at point t is relu((a_t · W_l + b) + h_t · W_r) of the point's input blocks, which are rows
  [10000 t, 10000 t + 10000) of the region's input arrays. A matrix product into a zero accumulator is, entry by entry,
  the sum over the contracted coordinate. So the whole result array is Spec.lean's `combine` of the region's input arrays.
-/
import proofs.«412122_j12154757448413_2_alg».proof.Proof.KICombine0
import proofs.«412122_j12154757448413_2_alg».proof.Proof.KICombine1
import proofs.«412122_j12154757448413_2_alg».proof.Proof.Spec
import proofs.«412122_j12154757448413_2_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The matrix product's operand entries -/

/-- Off the contracted axis the left operand's index reads the result's row. -/
theorem mmL_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- On it, the contracted coordinate. -/
theorem mmL_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the contracted coordinate, -/
theorem mmR_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- and its column the result's column. -/
theorem mmR_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block times a 64 × 64 matrix, into a zero accumulator, at row p and column q: the sum over the 64 shared
    coordinates of the products of the block's row-p entries with the matrix's column-q entries. -/
theorem matmul_entry (x : FVec Ideal S10000x64 .f32) (w : FVec Ideal S64x64 .f32) (p : Fin 10000) (q : Fin 64) :
    matmul dot_S10000x64_S64x64_S10000x64_1_0_0_1_n_n none x w (constant S10000x64 .f32 0x00000000#32) (ix2 p q)
      = ∑ k : Fin 64, x (ix2 p k) * w (ix2 k q) := by
  refine Cert.Dots.matmul_zero_apply_of dot_S10000x64_S64x64_S10000x64_1_0_0_1_n_n 64 rfl rfl none x w (ix2 p q)
    (fun k => ix2 p k) (fun k => ix2 k q) (fun k => ?_) (fun k => ?_)
  · have hk := contrEquiv1_symm_val dot_S10000x64_S64x64_S10000x64_1_0_0_1_n_n 64 rfl rfl k
    exact funext fun a => Fin.ext (by
      match a with
      | ⟨0, _⟩ => exact mmL_row _ _
      | ⟨1, _⟩ => exact (mmL_col _ _).trans hk)
  · have hk := contrEquiv1_symm_val dot_S10000x64_S64x64_S10000x64_1_0_0_1_n_n 64 rfl rfl k
    exact funext fun a => Fin.ext (by
      match a with
      | ⟨0, _⟩ => exact (mmR_row _ _).trans hk
      | ⟨1, _⟩ => exact mmR_col _ _)

/-- The bias row broadcast down the block's rows reads, at (p, q), the row's entry q. -/
theorem bias_entry (b : FVec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- Every offset of an access to a whole buffer is zero. -/
theorem zeros2 : (![0, 0] : Fin 2 → Nat) = fun _ => 0 := funext fun a => by
  match a with
  | ⟨0, _⟩ => rfl
  | ⟨1, _⟩ => rfl

/-! ## Region 0: the stored block at an index -/

/-- Region 0's stored block at (p, q): relu of the aggregated row times W_l plus the bias plus the root row times W_r. -/
theorem pay0_entry (xa xh : Vec Ideal S10000x64 .f32) (wl wr : Vec Ideal S64x64 .f32) (bl : Vec Ideal S1x64 .f32)
    (p : Fin 10000) (q : Fin 64) :
    k0_pay1 xa wl bl xh wr (ix2 p q)
      = max (((∑ k : Fin 64, xa (ix2 p k) * wl (ix2 k q)) + bl (ix2 0 q)) + ∑ k : Fin 64, xh (ix2 p k) * wr (ix2 k q)) 0 := by
  unfold k0_pay1
  rw [maximumf_apply, addf_apply, addf_apply, broadcast_apply, shapeCast_self, shapeCast_self, matmul_entry, matmul_entry,
    bias_entry]
  show max _ (FloatOps.ofBits (F := Ideal) .f32 0x00000000#32) = _
  rw [Ideal.ofBits_def, Ideal.ofBits_zero_f32]

/-! ## Region 0: the blocks as rows of the arrays -/

/-- Where region 0's blocks sit: at point t the aggregated rows, the root rows and the result rows are block (t, 0) of
    their arrays, and the two matrices and the bias row are block (0, 0), the whole array. Decided over the ten points. -/
theorem blockAt0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated block at point t, entry (p, k): the aggregated features' row 10000 t + p. -/
theorem agg0_entry (c : Dev nD) (t : Fin cfg0.N) (p : Fin 10000) (k : Fin 64) (r : Fin 100000) (hr : r.val = 10000 * t.val + p.val) :
    iblk0 V c 0 t (ix2 p k) = V c main_v24 (ix2 r k) := by
  show V c main_v24 (((cfg0.win 0).blk t).view.emb (ix2 p k)) = V c main_v24 (ix2 r k)
  refine congrArg (V c main_v24) (funext fun a => Fin.ext ?_)
  obtain ⟨e0, e1, -⟩ := blockAt0 t
  match a with
  | ⟨0, _⟩ => show win0_0.index t (0 : Fin 2) * 10000 + 1 * p.val = r.val; omega
  | ⟨1, _⟩ => show win0_0.index t (1 : Fin 2) * 64 + 1 * k.val = k.val; omega

/-- The root block at point t, entry (p, k): the root features' row 10000 t + p. -/
theorem root0_entry (c : Dev nD) (t : Fin cfg0.N) (p : Fin 10000) (k : Fin 64) (r : Fin 100000) (hr : r.val = 10000 * t.val + p.val) :
    iblk0 V c 1 t (ix2 p k) = V c main_arg0 (ix2 r k) := by
  show V c main_arg0 (((cfg0.win 1).blk t).view.emb (ix2 p k)) = V c main_arg0 (ix2 r k)
  refine congrArg (V c main_arg0) (funext fun a => Fin.ext ?_)
  obtain ⟨-, -, e0, e1, -⟩ := blockAt0 t
  match a with
  | ⟨0, _⟩ => show win0_1.index t (0 : Fin 2) * 10000 + 1 * p.val = r.val; omega
  | ⟨1, _⟩ => show win0_1.index t (1 : Fin 2) * 64 + 1 * k.val = k.val; omega

/-- W_l's block at every point is W_l. -/
theorem wl0_entry (c : Dev nD) (t : Fin cfg0.N) (k q : Fin 64) : iblk0 V c 2 t (ix2 k q) = V c main_arg3 (ix2 k q) := by
  show V c main_arg3 (((cfg0.win 2).blk t).view.emb (ix2 k q)) = V c main_arg3 (ix2 k q)
  refine congrArg (V c main_arg3) (funext fun a => Fin.ext ?_)
  obtain ⟨-, -, -, -, e0, e1, -⟩ := blockAt0 t
  match a with
  | ⟨0, _⟩ => show win0_2.index t (0 : Fin 2) * 64 + 1 * k.val = k.val; omega
  | ⟨1, _⟩ => show win0_2.index t (1 : Fin 2) * 64 + 1 * q.val = q.val; omega

/-- The bias row's block at every point is the bias row. -/
theorem bias0_entry (c : Dev nD) (t : Fin cfg0.N) (q : Fin 64) : iblk0 V c 3 t (ix2 0 q) = V c main_v25 (ix2 0 q) := by
  show V c main_v25 (((cfg0.win 3).blk t).view.emb (ix2 0 q)) = V c main_v25 (ix2 0 q)
  refine congrArg (V c main_v25) (funext fun a => Fin.ext ?_)
  obtain ⟨-, -, -, -, -, -, e0, e1, -⟩ := blockAt0 t
  match a with
  | ⟨0, _⟩ => show win0_3.index t (0 : Fin 2) * 1 + 1 * 0 = 0; omega
  | ⟨1, _⟩ => show win0_3.index t (1 : Fin 2) * 64 + 1 * q.val = q.val; omega

/-- W_r's block at every point is W_r. -/
theorem wr0_entry (c : Dev nD) (t : Fin cfg0.N) (k q : Fin 64) : iblk0 V c 4 t (ix2 k q) = V c main_arg5 (ix2 k q) := by
  show V c main_arg5 (((cfg0.win 4).blk t).view.emb (ix2 k q)) = V c main_arg5 (ix2 k q)
  refine congrArg (V c main_arg5) (funext fun a => Fin.ext ?_)
  obtain ⟨-, -, -, -, -, -, -, -, e0, e1, -⟩ := blockAt0 t
  match a with
  | ⟨0, _⟩ => show win0_4.index t (0 : Fin 2) * 64 + 1 * k.val = k.val; omega
  | ⟨1, _⟩ => show win0_4.index t (1 : Fin 2) * 64 + 1 * q.val = q.val; omega

/-- The result block's entry (p, q) at point t sits at row 10000 t + p, column q of the result array. -/
theorem out0_at (t : Fin cfg0.N) (p : Fin 10000) (q : Fin 64) (r : Fin 100000) (hr : r.val = 10000 * t.val + p.val) :
    ((cfg0.win 5).blk t).view.emb (ix2 p q) = ix2 r q := by
  refine funext fun a => Fin.ext ?_
  obtain ⟨-, -, -, -, -, -, -, -, -, -, e0, e1⟩ := blockAt0 t
  match a with
  | ⟨0, _⟩ => show win0_5.index t (0 : Fin 2) * 10000 + 1 * p.val = r.val; omega
  | ⟨1, _⟩ => show win0_5.index t (1 : Fin 2) * 64 + 1 * q.val = q.val; omega

/-! ## Region 0: what a point writes back, and the array after the ten points -/

/-- What point t writes back is block t of the combine of the arrays the region was entered with. -/
theorem flushed0_eq (c : Dev nD) (t : Fin cfg0.N) :
    (dat0 (F := Ideal) V c).flushed 5 t
      = ((cfg0.win 5).blk t).view.read (Elt Ideal)
          (Spec.combine (V c main_v24) (V c main_arg0) (V c main_arg3) (V c main_arg5) (fun q => V c main_v25 (ix2 0 q))) := by
  show (cfg0.win 5).cut (grid0.coords t) ((dat0 V c).after 5 t) = _
  rw [after0_5]
  unfold out0_5
  rw [View.canon_unit_zero zeros2]
  simp only [View.ld_unit_zero (S := S10000x64) zeros2, View.ld_unit_zero (S := S64x64) zeros2, View.ld_unit_zero (S := S1x64) zeros2]
  funext y
  obtain ⟨p, q, rfl⟩ : ∃ (p : Fin 10000) (q : Fin 64), y = ix2 p q := ⟨y 0, y 1, eq_ix2 y⟩
  have ht : t.val < 10 := t.isLt
  have hr : ((⟨10000 * t.val + p.val, by omega⟩ : Fin 100000) : Nat) = 10000 * t.val + p.val := rfl
  show k0_pay1 (iblk0 V c 0 t) (iblk0 V c 2 t) (iblk0 V c 3 t) (iblk0 V c 1 t) (iblk0 V c 4 t) (ix2 p q)
    = Spec.combine (V c main_v24) (V c main_arg0) (V c main_arg3) (V c main_arg5) (fun q => V c main_v25 (ix2 0 q))
        (((cfg0.win 5).blk t).view.emb (ix2 p q))
  rw [out0_at t p q _ hr]
  refine (pay0_entry (iblk0 V c 0 t) (iblk0 V c 1 t) (iblk0 V c 2 t) (iblk0 V c 4 t) (iblk0 V c 3 t) p q).trans ?_
  show _ = Spec.combineAt (V c main_v24) (V c main_arg0) (V c main_arg3) (V c main_arg5) (fun q => V c main_v25 (ix2 0 q))
    (⟨10000 * t.val + p.val, by omega⟩ : Fin 100000) q
  unfold Spec.combineAt
  simp only [agg0_entry V c t p _ _ hr, root0_entry V c t p _ _ hr, wl0_entry V c t, bias0_entry V c t, wr0_entry V c t]

/-- An index of the result array is in point t's block iff, axis by axis, it lies in the block's range. -/
theorem mem_blk0 (t : Fin cfg0.N) (i : S100000x64.Idx) :
    i ∈ ((cfg0.win 5).blk t).view.set
      ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- The ten blocks of 10000 rows tile the 100000 rows: row r is in the block of point r / 10000, and every point
    writes its block back. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 10000 < cfg0.N := by show (i 0).val / 10000 < 10; omega
  refine ⟨⟨(i 0).val / 10000, hN⟩, flush0_5 _, ?_⟩
  rw [mem_blk0]
  obtain ⟨-, -, -, -, -, -, -, -, -, -, e0, e1⟩ := blockAt0 ⟨(i 0).val / 10000, hN⟩
  intro a
  match a with
  | ⟨0, _⟩ =>
    show win0_5.index ⟨(i 0).val / 10000, hN⟩ (0 : Fin 2) * 10000 ≤ (i 0).val
      ∧ (i 0).val < win0_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, hN⟩ (1 : Fin 2) * 64 ≤ (i 1).val
      ∧ (i 1).val < win0_5.index ⟨(i 0).val / 10000, hN⟩ (1 : Fin 2) * 64 + 64
    rw [e1]; omega

/-- Region 0's result array after its ten write-backs: the combine of the arrays the region was entered with
    (aggregated features, root features, W_l, W_r, and the bias as a 1 × 64 row). -/
theorem final0 (c : Dev nD) :
    (dat0 (F := Ideal) V c).arrAt 5 cfg0.N
      = Spec.combine (V c main_v24) (V c main_arg0) (V c main_arg3) (V c main_arg5) (fun q => V c main_v25 (ix2 0 q)) :=
  (dat0 (F := Ideal) V c).arrAt_eq_of_cover 5
    (Spec.combine (V c main_v24) (V c main_arg0) (V c main_arg3) (V c main_arg5) (fun q => V c main_v25 (ix2 0 q)))
    (fun t _ => flushed0_eq V c t) cover0

/-! ## Region 1: the stored block at an index -/

/-- Region 1's stored block at (p, q): relu of the aggregated row times W_l plus the bias plus the root row times W_r. -/
theorem pay1_entry (xa xh : Vec Ideal S10000x64 .f32) (wl wr : Vec Ideal S64x64 .f32) (bl : Vec Ideal S1x64 .f32)
    (p : Fin 10000) (q : Fin 64) :
    k1_pay1 xa wl bl xh wr (ix2 p q)
      = max (((∑ k : Fin 64, xa (ix2 p k) * wl (ix2 k q)) + bl (ix2 0 q)) + ∑ k : Fin 64, xh (ix2 p k) * wr (ix2 k q)) 0 := by
  unfold k1_pay1
  rw [maximumf_apply, addf_apply, addf_apply, broadcast_apply, shapeCast_self, shapeCast_self, shapeCast_self, matmul_entry, matmul_entry,
    bias_entry]
  show max _ (FloatOps.ofBits (F := Ideal) .f32 0x00000000#32) = _
  rw [Ideal.ofBits_def, Ideal.ofBits_zero_f32]

/-! ## Region 1: the blocks as rows of the arrays -/

/-- Where region 1's blocks sit: at point t the aggregated rows, the root rows and the result rows are block (t, 0) of
    their arrays, and the two matrices and the bias row are block (0, 0), the whole array. Decided over the ten points. -/
theorem blockAt1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated block at point t, entry (p, k): the aggregated features' row 10000 t + p. -/
theorem agg1_entry (c : Dev nD) (t : Fin cfg1.N) (p : Fin 10000) (k : Fin 64) (r : Fin 100000) (hr : r.val = 10000 * t.val + p.val) :
    iblk1 V c 0 t (ix2 p k) = V c main_v38 (ix2 r k) := by
  show V c main_v38 (((cfg1.win 0).blk t).view.emb (ix2 p k)) = V c main_v38 (ix2 r k)
  refine congrArg (V c main_v38) (funext fun a => Fin.ext ?_)
  obtain ⟨e0, e1, -⟩ := blockAt1 t
  match a with
  | ⟨0, _⟩ => show win1_0.index t (0 : Fin 2) * 10000 + 1 * p.val = r.val; omega
  | ⟨1, _⟩ => show win1_0.index t (1 : Fin 2) * 64 + 1 * k.val = k.val; omega

/-- The root block at point t, entry (p, k): the root features' row 10000 t + p. -/
theorem root1_entry (c : Dev nD) (t : Fin cfg1.N) (p : Fin 10000) (k : Fin 64) (r : Fin 100000) (hr : r.val = 10000 * t.val + p.val) :
    iblk1 V c 1 t (ix2 p k) = V c main_v26 (ix2 r k) := by
  show V c main_v26 (((cfg1.win 1).blk t).view.emb (ix2 p k)) = V c main_v26 (ix2 r k)
  refine congrArg (V c main_v26) (funext fun a => Fin.ext ?_)
  obtain ⟨-, -, e0, e1, -⟩ := blockAt1 t
  match a with
  | ⟨0, _⟩ => show win1_1.index t (0 : Fin 2) * 10000 + 1 * p.val = r.val; omega
  | ⟨1, _⟩ => show win1_1.index t (1 : Fin 2) * 64 + 1 * k.val = k.val; omega

/-- W_l's block at every point is W_l. -/
theorem wl1_entry (c : Dev nD) (t : Fin cfg1.N) (k q : Fin 64) : iblk1 V c 2 t (ix2 k q) = V c main_arg6 (ix2 k q) := by
  show V c main_arg6 (((cfg1.win 2).blk t).view.emb (ix2 k q)) = V c main_arg6 (ix2 k q)
  refine congrArg (V c main_arg6) (funext fun a => Fin.ext ?_)
  obtain ⟨-, -, -, -, e0, e1, -⟩ := blockAt1 t
  match a with
  | ⟨0, _⟩ => show win1_2.index t (0 : Fin 2) * 64 + 1 * k.val = k.val; omega
  | ⟨1, _⟩ => show win1_2.index t (1 : Fin 2) * 64 + 1 * q.val = q.val; omega

/-- The bias row's block at every point is the bias row. -/
theorem bias1_entry (c : Dev nD) (t : Fin cfg1.N) (q : Fin 64) : iblk1 V c 3 t (ix2 0 q) = V c main_v39 (ix2 0 q) := by
  show V c main_v39 (((cfg1.win 3).blk t).view.emb (ix2 0 q)) = V c main_v39 (ix2 0 q)
  refine congrArg (V c main_v39) (funext fun a => Fin.ext ?_)
  obtain ⟨-, -, -, -, -, -, e0, e1, -⟩ := blockAt1 t
  match a with
  | ⟨0, _⟩ => show win1_3.index t (0 : Fin 2) * 1 + 1 * 0 = 0; omega
  | ⟨1, _⟩ => show win1_3.index t (1 : Fin 2) * 64 + 1 * q.val = q.val; omega

/-- W_r's block at every point is W_r. -/
theorem wr1_entry (c : Dev nD) (t : Fin cfg1.N) (k q : Fin 64) : iblk1 V c 4 t (ix2 k q) = V c main_arg8 (ix2 k q) := by
  show V c main_arg8 (((cfg1.win 4).blk t).view.emb (ix2 k q)) = V c main_arg8 (ix2 k q)
  refine congrArg (V c main_arg8) (funext fun a => Fin.ext ?_)
  obtain ⟨-, -, -, -, -, -, -, -, e0, e1, -⟩ := blockAt1 t
  match a with
  | ⟨0, _⟩ => show win1_4.index t (0 : Fin 2) * 64 + 1 * k.val = k.val; omega
  | ⟨1, _⟩ => show win1_4.index t (1 : Fin 2) * 64 + 1 * q.val = q.val; omega

/-- The result block's entry (p, q) at point t sits at row 10000 t + p, column q of the result array. -/
theorem out1_at (t : Fin cfg1.N) (p : Fin 10000) (q : Fin 64) (r : Fin 100000) (hr : r.val = 10000 * t.val + p.val) :
    ((cfg1.win 5).blk t).view.emb (ix2 p q) = ix2 r q := by
  refine funext fun a => Fin.ext ?_
  obtain ⟨-, -, -, -, -, -, -, -, -, -, e0, e1⟩ := blockAt1 t
  match a with
  | ⟨0, _⟩ => show win1_5.index t (0 : Fin 2) * 10000 + 1 * p.val = r.val; omega
  | ⟨1, _⟩ => show win1_5.index t (1 : Fin 2) * 64 + 1 * q.val = q.val; omega

/-! ## Region 1: what a point writes back, and the array after the ten points -/

/-- What point t writes back is block t of the combine of the arrays the region was entered with. -/
theorem flushed1_eq (c : Dev nD) (t : Fin cfg1.N) :
    (dat1 (F := Ideal) V c).flushed 5 t
      = ((cfg1.win 5).blk t).view.read (Elt Ideal)
          (Spec.combine (V c main_v38) (V c main_v26) (V c main_arg6) (V c main_arg8) (fun q => V c main_v39 (ix2 0 q))) := by
  show (cfg1.win 5).cut (grid1.coords t) ((dat1 V c).after 5 t) = _
  rw [after1_5]
  unfold out1_5
  rw [View.canon_unit_zero zeros2]
  simp only [View.ld_unit_zero (S := S10000x64) zeros2, View.ld_unit_zero (S := S64x64) zeros2, View.ld_unit_zero (S := S1x64) zeros2]
  funext y
  obtain ⟨p, q, rfl⟩ : ∃ (p : Fin 10000) (q : Fin 64), y = ix2 p q := ⟨y 0, y 1, eq_ix2 y⟩
  have ht : t.val < 10 := t.isLt
  have hr : ((⟨10000 * t.val + p.val, by omega⟩ : Fin 100000) : Nat) = 10000 * t.val + p.val := rfl
  show k1_pay1 (iblk1 V c 0 t) (iblk1 V c 2 t) (iblk1 V c 3 t) (iblk1 V c 1 t) (iblk1 V c 4 t) (ix2 p q)
    = Spec.combine (V c main_v38) (V c main_v26) (V c main_arg6) (V c main_arg8) (fun q => V c main_v39 (ix2 0 q))
        (((cfg1.win 5).blk t).view.emb (ix2 p q))
  rw [out1_at t p q _ hr]
  refine (pay1_entry (iblk1 V c 0 t) (iblk1 V c 1 t) (iblk1 V c 2 t) (iblk1 V c 4 t) (iblk1 V c 3 t) p q).trans ?_
  show _ = Spec.combineAt (V c main_v38) (V c main_v26) (V c main_arg6) (V c main_arg8) (fun q => V c main_v39 (ix2 0 q))
    (⟨10000 * t.val + p.val, by omega⟩ : Fin 100000) q
  unfold Spec.combineAt
  simp only [agg1_entry V c t p _ _ hr, root1_entry V c t p _ _ hr, wl1_entry V c t, bias1_entry V c t, wr1_entry V c t]

/-- An index of the result array is in point t's block iff, axis by axis, it lies in the block's range. -/
theorem mem_blk1 (t : Fin cfg1.N) (i : S100000x64.Idx) :
    i ∈ ((cfg1.win 5).blk t).view.set
      ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- The ten blocks of 10000 rows tile the 100000 rows: row r is in the block of point r / 10000, and every point
    writes its block back. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := by show (i 0).val / 10000 < 10; omega
  refine ⟨⟨(i 0).val / 10000, hN⟩, flush1_5 _, ?_⟩
  rw [mem_blk1]
  obtain ⟨-, -, -, -, -, -, -, -, -, -, e0, e1⟩ := blockAt1 ⟨(i 0).val / 10000, hN⟩
  intro a
  match a with
  | ⟨0, _⟩ =>
    show win1_5.index ⟨(i 0).val / 10000, hN⟩ (0 : Fin 2) * 10000 ≤ (i 0).val
      ∧ (i 0).val < win1_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hN⟩ (1 : Fin 2) * 64 ≤ (i 1).val
      ∧ (i 1).val < win1_5.index ⟨(i 0).val / 10000, hN⟩ (1 : Fin 2) * 64 + 64
    rw [e1]; omega

/-- Region 1's result array after its ten write-backs. -/
theorem final1 (c : Dev nD) :
    (dat1 (F := Ideal) V c).arrAt 5 cfg1.N
      = Spec.combine (V c main_v38) (V c main_v26) (V c main_arg6) (V c main_arg8) (fun q => V c main_v39 (ix2 0 q)) :=
  (dat1 (F := Ideal) V c).arrAt_eq_of_cover 5
    (Spec.combine (V c main_v38) (V c main_v26) (V c main_arg6) (V c main_arg8) (fun q => V c main_v39 (ix2 0 q)))
    (fun t _ => flushed1_eq V c t) cover1

end Cert.KernelIdeal.Hand

end
-- ==== Proof.KIValue2Pieces.lean ====
/-
  What region 2's body leaves at each point, as the body's arithmetic of the point's input blocks.

  The head's block at point t is relu(h_t · W + b) of the point's blocks. The sums' accumulator after the first point is
  the first block's contribution added to zero, and after a later point that point's contribution added to what the
  point before left; likewise the counts' accumulator. At the last point the means' block is the sums divided by the
  larger of the counts and one. Each is read off the stores the body's run found, every store covering its whole buffer.
-/
import proofs.«412122_j12154757448413_2_alg».proof.Proof.Gen.KernelIdeal.Launch
import proofs.«412122_j12154757448413_2_alg».proof.Proof.Gen.KernelIdeal.Skeleton
import proofs.«412122_j12154757448413_2_alg».proof.Proof.Gen.KernelIdeal.Points
import proofs.«412122_j12154757448413_2_alg».proof.Proof.KIPool2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by
  match a with
  | ⟨0, _⟩ => rfl
  | ⟨1, _⟩ => rfl

/-! ## What each case's stores leave, as the body's arithmetic of what it loaded

Every store of the body covers its whole buffer, so what a buffer holds after the body is the payload of the last store
into it, and every load reads a whole buffer: an input's block, or what the last store before it left. -/

/-- First point: the head's block is relu(h · W + b). -/
theorem piece2_A_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i) (x0 : Vec F S10000x64 .f32) (xb : Vec F S10000x1 .i32) (xw : Vec F S64x64 .f32) (xl : Vec F S1x64 .f32) :
    out2_A_4 c i arg1 harg1 arg2 harg2 arg3 harg3 arg4 harg4 arg5 harg5 arg6 harg6 arg7 harg7 arg8 harg8 hc0 hc1 x0 xb xw xl = k2_pay5 x0 xw xl := by
  unfold out2_A_4
  rw [View.read_writes_eq_canon _ _ _ (cover2_A_4 c i arg1 harg1 arg2 harg2 arg3 harg3 arg4 harg4 arg5 harg5 arg6 harg6 arg7 harg7 arg8 harg8 hc0 hc1 x0 xb xw xl)]
  unfold kernelRun2_A
  dsimp only
  sl_unfold_words
  rw [View.canon_unit_zero (S := S10000x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz]

/-- First point: the sums are the block's contribution added to the zero array just stored. -/
theorem piece2_A_s0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i) (x0 : Vec F S10000x64 .f32) (xb : Vec F S10000x1 .i32) (xw : Vec F S64x64 .f32) (xl : Vec F S1x64 .f32) :
    sout2_A_0 c i arg1 harg1 arg2 harg2 arg3 harg3 arg4 harg4 arg5 harg5 arg6 harg6 arg7 harg7 arg8 harg8 hc0 hc1 x0 xb xw xl = k2_pay7 x0 xw xl xb (k2_pay3 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 xb xw xl)]
  unfold kernelRun2_A
  dsimp only
  sl_unfold_words
  rw [View.canon_cons_unit_zero (S := S64x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, View.readCov_unit_zero (S := S64x64) _ hz, View.readCov_unit_zero (S := S64x1) _ hz]

/-- First point: the counts are the block's membership counts added to the zero column just stored. -/
theorem piece2_A_s1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : cond2_0 i) (hc1 : ¬cond2_1 i) (x0 : Vec F S10000x64 .f32) (xb : Vec F S10000x1 .i32) (xw : Vec F S64x64 .f32) (xl : Vec F S1x64 .f32) :
    sout2_A_1 c i arg1 harg1 arg2 harg2 arg3 harg3 arg4 harg4 arg5 harg5 arg6 harg6 arg7 harg7 arg8 harg8 hc0 hc1 x0 xb xw xl = k2_pay1 (k2_pay8 xb (k2_pay4 (F := F))) := by
  unfold sout2_A_1
  rw [View.read_writes_eq_canon _ _ _ (scover2_A_1 c i arg1 harg1 arg2 harg2 arg3 harg3 arg4 harg4 arg5 harg5 arg6 harg6 arg7 harg7 arg8 harg8 hc0 hc1 x0 xb xw xl)]
  unfold kernelRun2_A
  dsimp only
  sl_unfold_words
  rw [View.canon_cons_unit_zero (S := S64x1) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, View.readCov_unit_zero (S := S64x64) _ hz, View.readCov_unit_zero (S := S64x1) _ hz]

/-- A middle point: the head's block is relu(h · W + b). -/
theorem piece2_B_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i) (x0 : Vec F S10000x64 .f32) (xb : Vec F S10000x1 .i32) (xw : Vec F S64x64 .f32) (xl : Vec F S1x64 .f32) (xs0 : Vec F S64x64 .f32) (xs1 : Vec F S64x1 .f32) :
    out2_B_4 c i arg1 harg1 arg2 harg2 arg3 harg3 arg4 harg4 arg5 harg5 arg6 harg6 arg7 harg7 arg8 harg8 hc0 hc1 x0 xb xw xl xs0 xs1 = k2_pay5 x0 xw xl := by
  unfold out2_B_4
  rw [View.read_writes_eq_canon _ _ _ (cover2_B_4 c i arg1 harg1 arg2 harg2 arg3 harg3 arg4 harg4 arg5 harg5 arg6 harg6 arg7 harg7 arg8 harg8 hc0 hc1 x0 xb xw xl xs0 xs1)]
  unfold kernelRun2_B
  dsimp only
  sl_unfold_words
  rw [View.canon_unit_zero (S := S10000x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz]

/-- A middle point: the sums are the block's contribution added to the sums it found. -/
theorem piece2_B_s0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i) (x0 : Vec F S10000x64 .f32) (xb : Vec F S10000x1 .i32) (xw : Vec F S64x64 .f32) (xl : Vec F S1x64 .f32) (xs0 : Vec F S64x64 .f32) (xs1 : Vec F S64x1 .f32) :
    sout2_B_0 c i arg1 harg1 arg2 harg2 arg3 harg3 arg4 harg4 arg5 harg5 arg6 harg6 arg7 harg7 arg8 harg8 hc0 hc1 x0 xb xw xl xs0 xs1 = k2_pay7 x0 xw xl xb xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 xb xw xl xs0 xs1)]
  unfold kernelRun2_B
  dsimp only
  sl_unfold_words
  rw [View.canon_unit_zero (S := S64x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz]

/-- A middle point: the counts are the block's membership counts added to the counts it found. -/
theorem piece2_B_s1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : ¬cond2_1 i) (x0 : Vec F S10000x64 .f32) (xb : Vec F S10000x1 .i32) (xw : Vec F S64x64 .f32) (xl : Vec F S1x64 .f32) (xs0 : Vec F S64x64 .f32) (xs1 : Vec F S64x1 .f32) :
    sout2_B_1 c i arg1 harg1 arg2 harg2 arg3 harg3 arg4 harg4 arg5 harg5 arg6 harg6 arg7 harg7 arg8 harg8 hc0 hc1 x0 xb xw xl xs0 xs1 = k2_pay1 (k2_pay8 xb xs1) := by
  unfold sout2_B_1
  rw [View.read_writes_eq_canon _ _ _ (scover2_B_1 c i arg1 harg1 arg2 harg2 arg3 harg3 arg4 harg4 arg5 harg5 arg6 harg6 arg7 harg7 arg8 harg8 hc0 hc1 x0 xb xw xl xs0 xs1)]
  unfold kernelRun2_B
  dsimp only
  sl_unfold_words
  rw [View.canon_unit_zero (S := S64x1) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz]

/-- The last point: the head's block is relu(h · W + b). -/
theorem piece2_C_4 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i) (x0 : Vec F S10000x64 .f32) (xb : Vec F S10000x1 .i32) (xw : Vec F S64x64 .f32) (xl : Vec F S1x64 .f32) (xs0 : Vec F S64x64 .f32) (xs1 : Vec F S64x1 .f32) :
    out2_C_4 c i arg1 harg1 arg2 harg2 arg3 harg3 arg4 harg4 arg5 harg5 arg6 harg6 arg7 harg7 arg8 harg8 hc0 hc1 x0 xb xw xl xs0 xs1 = k2_pay5 x0 xw xl := by
  unfold out2_C_4
  rw [View.read_writes_eq_canon _ _ _ (cover2_C_4 c i arg1 harg1 arg2 harg2 arg3 harg3 arg4 harg4 arg5 harg5 arg6 harg6 arg7 harg7 arg8 harg8 hc0 hc1 x0 xb xw xl xs0 xs1)]
  unfold kernelRun2_C
  dsimp only
  sl_unfold_words
  rw [View.canon_unit_zero (S := S10000x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz]

/-- The last point: the sums are the block's contribution added to the sums it found. -/
theorem piece2_C_s0 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i) (x0 : Vec F S10000x64 .f32) (xb : Vec F S10000x1 .i32) (xw : Vec F S64x64 .f32) (xl : Vec F S1x64 .f32) (xs0 : Vec F S64x64 .f32) (xs1 : Vec F S64x1 .f32) :
    sout2_C_0 c i arg1 harg1 arg2 harg2 arg3 harg3 arg4 harg4 arg5 harg5 arg6 harg6 arg7 harg7 arg8 harg8 hc0 hc1 x0 xb xw xl xs0 xs1 = k2_pay7 x0 xw xl xb xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 xb xw xl xs0 xs1)]
  unfold kernelRun2_C
  dsimp only
  sl_unfold_words
  rw [View.canon_unit_zero (S := S64x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz]

/-- The last point: the counts are the block's membership counts added to the counts it found. -/
theorem piece2_C_s1 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i) (x0 : Vec F S10000x64 .f32) (xb : Vec F S10000x1 .i32) (xw : Vec F S64x64 .f32) (xl : Vec F S1x64 .f32) (xs0 : Vec F S64x64 .f32) (xs1 : Vec F S64x1 .f32) :
    sout2_C_1 c i arg1 harg1 arg2 harg2 arg3 harg3 arg4 harg4 arg5 harg5 arg6 harg6 arg7 harg7 arg8 harg8 hc0 hc1 x0 xb xw xl xs0 xs1 = k2_pay1 (k2_pay8 xb xs1) := by
  unfold sout2_C_1
  rw [View.read_writes_eq_canon _ _ _ (scover2_C_1 c i arg1 harg1 arg2 harg2 arg3 harg3 arg4 harg4 arg5 harg5 arg6 harg6 arg7 harg7 arg8 harg8 hc0 hc1 x0 xb xw xl xs0 xs1)]
  unfold kernelRun2_C
  dsimp only
  sl_unfold_words
  rw [View.canon_unit_zero (S := S64x1) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz]

/-- The last point: the means' block is this point's sums over the larger of this point's counts and one: the division
    loads both accumulators after this point's stores into them. -/
theorem piece2_C_5 (c : Dev nD) (i : grid2.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole) (hc0 : ¬cond2_0 i) (hc1 : cond2_1 i) (x0 : Vec F S10000x64 .f32) (xb : Vec F S10000x1 .i32) (xw : Vec F S64x64 .f32) (xl : Vec F S1x64 .f32) (xs0 : Vec F S64x64 .f32) (xs1 : Vec F S64x1 .f32) :
    out2_C_5 c i arg1 harg1 arg2 harg2 arg3 harg3 arg4 harg4 arg5 harg5 arg6 harg6 arg7 harg7 arg8 harg8 hc0 hc1 x0 xb xw xl xs0 xs1 = k2_pay2 (k2_pay7 x0 xw xl xb xs0) (k2_pay1 (k2_pay8 xb xs1)) := by
  unfold out2_C_5
  rw [View.read_writes_eq_canon _ _ _ (cover2_C_5 c i arg1 harg1 arg2 harg2 arg3 harg3 arg4 harg4 arg5 harg5 arg6 harg6 arg7 harg7 arg8 harg8 hc0 hc1 x0 xb xw xl xs0 xs1)]
  unfold kernelRun2_C
  dsimp only
  sl_unfold_words
  rw [View.canon_unit_zero (S := S64x64) hz]
  simp only [View.readAt_eq_ld, harg1.read_unread, harg2.read_unread, harg3.read_unread, harg4.read_unread, View.ld_unit_zero (S := S10000x64) hz, View.ld_unit_zero (S := S10000x1) hz, View.ld_unit_zero (S := S64x64) hz, View.ld_unit_zero (S := S1x64) hz, harg7.read_unread, harg8.read_unread, View.ld_unit_zero (S := S64x1) hz, View.readCov_unit_zero (S := S64x64) _ hz, View.readCov_unit_zero (S := S64x1) _ hz]

/-! ## The points of the region -/

variable (V : (c : Dev nD) → (b : Ref sig .tc) → Buf (Elt F) ((c : Thread nD τ).loc b))

/-- The head's block after the body at any point: relu(h_t · W + b) of the point's blocks. -/
theorem after2_4_eq (c : Dev nD) (t : Fin cfg2.N) :
    (dat2 V c).after 4 t = k2_pay5 (iblk2 V c 0 t) (iblk2 V c 2 t) (iblk2 V c 3 t) := by
  rw [after2_4]
  have hN : t.val < 10 := lt_of_lt_of_eq t.isLt N2_eq
  by_cases h0 : t.val % 10 = 0
  · have h1 : ¬t.val % 10 = 9 := by omega
    rw [outsAt2_A V c t h0 h1]
    dsimp only
    exact piece2_A_4 (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun hh => h1 ((hcond2_1 t).mp hh)) (iblk2 V c 0 t) (iblk2 V c 1 t) (iblk2 V c 2 t) (iblk2 V c 3 t)
  · by_cases h1 : t.val % 10 = 9
    · rw [outsAt2_C V c t h0 h1]
      dsimp only
      exact piece2_C_4 (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) ((outsAt2 V c (t.val - 1) (Nat.lt_of_le_of_lt (Nat.sub_le _ _) t.isLt)).2.2.1) ((outsAt2 V c (t.val - 1) (Nat.lt_of_le_of_lt (Nat.sub_le _ _) t.isLt)).2.2.2)
    · rw [outsAt2_B V c t h0 h1]
      dsimp only
      exact piece2_B_4 (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hh => h0 ((hcond2_0 t).mp hh)) (fun hh => h1 ((hcond2_1 t).mp hh)) (iblk2 V c 0 t) (iblk2 V c 1 t) (iblk2 V c 2 t) (iblk2 V c 3 t) ((outsAt2 V c (t.val - 1) (Nat.lt_of_le_of_lt (Nat.sub_le _ _) t.isLt)).2.2.1) ((outsAt2 V c (t.val - 1) (Nat.lt_of_le_of_lt (Nat.sub_le _ _) t.isLt)).2.2.2)

/-- The sums' accumulator after the first point: the first block's contribution added to zero. -/
theorem sums2_zero (c : Dev nD) (h : 0 < cfg2.N) :
    (outsAt2 V c 0 h).2.2.1 = k2_pay7 (iblk2 V c 0 ⟨0, h⟩) (iblk2 V c 2 ⟨0, h⟩) (iblk2 V c 3 ⟨0, h⟩) (iblk2 V c 1 ⟨0, h⟩) (k2_pay3 (F := F)) := by
  have h0 : (⟨0, h⟩ : Fin cfg2.N).val % 10 = 0 := Nat.zero_mod _
  have h1 : ¬(⟨0, h⟩ : Fin cfg2.N).val % 10 = 9 := by (try dsimp only); omega
  have e : outsAt2 V c 0 h = _ := outsAt2_A V c (⟨0, h⟩ : Fin cfg2.N) h0 h1
  rw [e]
  dsimp only
  exact piece2_A_s0 (F := F) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) scM2_0 (Memref.isWhole_whole _) scM2_1 (Memref.isWhole_whole _) ((hcond2_0 (⟨0, h⟩ : Fin cfg2.N)).mpr h0) (fun hh => h1 ((hcond2_1 (⟨0, h⟩ : Fin cfg2.N)).mp hh)) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N))

/-- The sums' accumulator after a later point: that point's contribution added to what the point before left. -/
theorem sums2_succ (c : Dev nD) (n : ℕ) (h : n + 1 < cfg2.N) :
    (outsAt2 V c (n + 1) h).2.2.1 = k2_pay7 (iblk2 V c 0 ⟨n + 1, h⟩) (iblk2 V c 2 ⟨n + 1, h⟩) (iblk2 V c 3 ⟨n + 1, h⟩) (iblk2 V c 1 ⟨n + 1, h⟩)
      ((outsAt2 V c n (Nat.lt_of_succ_lt h)).2.2.1) := by
  have hN : n + 1 < 10 := lt_of_lt_of_eq h N2_eq
  have h0 : ¬(⟨n + 1, h⟩ : Fin cfg2.N).val % 10 = 0 := by (try dsimp only); omega
  by_cases h1 : (⟨n + 1, h⟩ : Fin cfg2.N).val % 10 = 9
  · have e : outsAt2 V c (n + 1) h = _ := outsAt2_C V c (⟨n + 1, h⟩ : Fin cfg2.N) h0 h1
    rw [e]
    dsimp only
    simp only [Nat.add_sub_cancel]
    exact piece2_C_s0 (F := F) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) scM2_0 (Memref.isWhole_whole _) scM2_1 (Memref.isWhole_whole _) (fun hh => h0 ((hcond2_0 (⟨n + 1, h⟩ : Fin cfg2.N)).mp hh)) ((hcond2_1 (⟨n + 1, h⟩ : Fin cfg2.N)).mpr h1) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) ((outsAt2 V c n (Nat.lt_of_succ_lt h)).2.2.1) ((outsAt2 V c n (Nat.lt_of_succ_lt h)).2.2.2)
  · have e : outsAt2 V c (n + 1) h = _ := outsAt2_B V c (⟨n + 1, h⟩ : Fin cfg2.N) h0 h1
    rw [e]
    dsimp only
    simp only [Nat.add_sub_cancel]
    exact piece2_B_s0 (F := F) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) scM2_0 (Memref.isWhole_whole _) scM2_1 (Memref.isWhole_whole _) (fun hh => h0 ((hcond2_0 (⟨n + 1, h⟩ : Fin cfg2.N)).mp hh)) (fun hh => h1 ((hcond2_1 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) ((outsAt2 V c n (Nat.lt_of_succ_lt h)).2.2.1) ((outsAt2 V c n (Nat.lt_of_succ_lt h)).2.2.2)

/-- The counts' accumulator after the first point. -/
theorem cnts2_zero (c : Dev nD) (h : 0 < cfg2.N) :
    (outsAt2 V c 0 h).2.2.2 = k2_pay1 (k2_pay8 (iblk2 V c 1 ⟨0, h⟩) (k2_pay4 (F := F))) := by
  have h0 : (⟨0, h⟩ : Fin cfg2.N).val % 10 = 0 := Nat.zero_mod _
  have h1 : ¬(⟨0, h⟩ : Fin cfg2.N).val % 10 = 9 := by (try dsimp only); omega
  have e : outsAt2 V c 0 h = _ := outsAt2_A V c (⟨0, h⟩ : Fin cfg2.N) h0 h1
  rw [e]
  dsimp only
  exact piece2_A_s1 (F := F) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) scM2_0 (Memref.isWhole_whole _) scM2_1 (Memref.isWhole_whole _) ((hcond2_0 (⟨0, h⟩ : Fin cfg2.N)).mpr h0) (fun hh => h1 ((hcond2_1 (⟨0, h⟩ : Fin cfg2.N)).mp hh)) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N))

/-- The counts' accumulator after a later point. -/
theorem cnts2_succ (c : Dev nD) (n : ℕ) (h : n + 1 < cfg2.N) :
    (outsAt2 V c (n + 1) h).2.2.2 = k2_pay1 (k2_pay8 (iblk2 V c 1 ⟨n + 1, h⟩) ((outsAt2 V c n (Nat.lt_of_succ_lt h)).2.2.2)) := by
  have hN : n + 1 < 10 := lt_of_lt_of_eq h N2_eq
  have h0 : ¬(⟨n + 1, h⟩ : Fin cfg2.N).val % 10 = 0 := by (try dsimp only); omega
  by_cases h1 : (⟨n + 1, h⟩ : Fin cfg2.N).val % 10 = 9
  · have e : outsAt2 V c (n + 1) h = _ := outsAt2_C V c (⟨n + 1, h⟩ : Fin cfg2.N) h0 h1
    rw [e]
    dsimp only
    simp only [Nat.add_sub_cancel]
    exact piece2_C_s1 (F := F) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) scM2_0 (Memref.isWhole_whole _) scM2_1 (Memref.isWhole_whole _) (fun hh => h0 ((hcond2_0 (⟨n + 1, h⟩ : Fin cfg2.N)).mp hh)) ((hcond2_1 (⟨n + 1, h⟩ : Fin cfg2.N)).mpr h1) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) ((outsAt2 V c n (Nat.lt_of_succ_lt h)).2.2.1) ((outsAt2 V c n (Nat.lt_of_succ_lt h)).2.2.2)
  · have e : outsAt2 V c (n + 1) h = _ := outsAt2_B V c (⟨n + 1, h⟩ : Fin cfg2.N) h0 h1
    rw [e]
    dsimp only
    simp only [Nat.add_sub_cancel]
    exact piece2_B_s1 (F := F) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) scM2_0 (Memref.isWhole_whole _) scM2_1 (Memref.isWhole_whole _) (fun hh => h0 ((hcond2_0 (⟨n + 1, h⟩ : Fin cfg2.N)).mp hh)) (fun hh => h1 ((hcond2_1 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) ((outsAt2 V c n (Nat.lt_of_succ_lt h)).2.2.1) ((outsAt2 V c n (Nat.lt_of_succ_lt h)).2.2.2)

/-- The means' block after the body at the last point: the sums over the larger of the counts and one. -/
theorem after2_5_last (c : Dev nD) (t : Fin cfg2.N) (h9 : t.val = 9) :
    (dat2 V c).after 5 t = k2_pay2 ((outsAt2 V c t.val t.isLt).2.2.1) ((outsAt2 V c t.val t.isLt).2.2.2) := by
  rw [after2_5]
  have h0 : ¬t.val % 10 = 0 := by omega
  have h1 : t.val % 10 = 9 := by omega
  rw [outsAt2_C V c t h0 h1]
  dsimp only
  rw [piece2_C_5 (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) ((outsAt2 V c (t.val - 1) (Nat.lt_of_le_of_lt (Nat.sub_le _ _) t.isLt)).2.2.1) ((outsAt2 V c (t.val - 1) (Nat.lt_of_le_of_lt (Nat.sub_le _ _) t.isLt)).2.2.2),
    piece2_C_s0 (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) ((outsAt2 V c (t.val - 1) (Nat.lt_of_le_of_lt (Nat.sub_le _ _) t.isLt)).2.2.1) ((outsAt2 V c (t.val - 1) (Nat.lt_of_le_of_lt (Nat.sub_le _ _) t.isLt)).2.2.2),
    piece2_C_s1 (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) ((outsAt2 V c (t.val - 1) (Nat.lt_of_le_of_lt (Nat.sub_le _ _) t.isLt)).2.2.1) ((outsAt2 V c (t.val - 1) (Nat.lt_of_le_of_lt (Nat.sub_le _ _) t.isLt)).2.2.2)]

end Cert.KernelIdeal.Hand

end
-- ==== Proof.SpecLaws.lean ====
/-
  Three facts about sums over the extended reals that join the kernel's arrangement of the per-graph means with the
  reference's.

  * A product with a reciprocal is the quotient, whenever the divisor is at least one (so not zero): x · (1 / d) = x / d.
  * A scatter-add of the rows of an array into the rows their graph ids name, started from zero, holds at (g, q) the
    sum of feature q over the nodes whose id is g; an id outside [0, 64) lands nowhere. Likewise a scatter-add of ones
    counts those nodes.
  * A sum over the 100000 nodes is the sum, over the ten blocks of 10000 consecutive nodes, of the sums over each block.
-/
import proofs.«412122_j12154757448413_2_alg».proof.Proof.Spec
import proofs.«412122_j12154757448413_2_alg».proof.Proof.Gen.ReferenceIdeal
import Idealize.ShloMosaic.PureOps.Ideal.Laws
import Idealize.ShloMosaic.Lib.ValueIdxRank1
import Mathlib.Logic.Equiv.Fin.Basic
import Mathlib.Algebra.BigOperators.Group.Finset.Basic

noncomputable section

namespace Cert.Spec

open Idealize.ShloMosaic Idealize.ShloMosaic.ValueIdx
open scoped BigOperators

/-- x · (1 / d) = x / d for a divisor at least one. -/
theorem mul_one_div (x d : EReal) (hd : 1 ≤ d) : x * Ideal.div 1 d = Ideal.div x d := by
  -- 0 < 1 ≤ d, so d is not zero and both quotients are products with d⁻¹; 1 · d⁻¹ = d⁻¹.
  have h0 : d ≠ 0 := ne_of_gt (lt_of_lt_of_le zero_lt_one hd)
  unfold Ideal.div
  rw [if_neg h0, if_neg h0, one_mul]

/-! ## Where an update lands

  On each axis of the operand an update's landing coordinate is a start (read signed off the ids, or zero) plus a window
  coordinate (one of the update's own coordinates, or zero); the update lands when that sum is inside the operand on every
  axis, and then at the index with those coordinates. -/

/-- An update lands at operand index i exactly when, on every axis, start plus window coordinate is i's coordinate: the
    sum is then in range because i's coordinate is. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro he a
      have hv := congrArg Fin.val (congrFun he a)
      simp only at hv
      have := h a
      omega
    · intro he
      funext a
      apply Fin.ext
      simp only
      have := he a
      omega
  · rename_i h
    constructor
    · intro he; cases he
    · intro he
      exfalso; apply h
      intro a
      have := he a
      have := (i a).isLt
      omega

/-- A 32-bit word read signed is the number g < 64 exactly when it is the word of g: a signed value in [0, 2³¹) is the
    unsigned value, and g is below 2³². -/
private theorem toInt_eq_iff (x : BitVec 32) (g : Fin 64) : x.toInt = (g.val : Int) ↔ x = BitVec.ofNat 32 g.val := by
  have hg := g.isLt
  constructor
  · intro h
    apply BitVec.eq_of_toNat_eq
    rw [BitVec.toNat_ofNat]
    have := x.isLt
    rw [BitVec.toInt_eq_toNat_cond] at h
    split at h <;> omega
  · rintro rfl
    rw [BitVec.toInt_eq_toNat_cond, BitVec.toNat_ofNat]
    split <;> omega

/-! ## The scatter of the rows: operand 64 × 64, ids 100000 × 1, updates 100000 × 64

  The update at (n, q') starts on the row axis at the id of node n and on the feature axis at zero; its window coordinate
  is zero on the row axis and q' on the feature axis. So it lands at (id n, q'). -/

private abbrev dR := Cert.ReferenceIdeal.scatter_S64x64_S100000x1_S100000x64_1_0_0_1

/-- The row start of update j is the id of j's node, read signed. -/
private theorem rows_start0 (idx : IVec SN1 32) (j : SNF.Idx) :
    dR.start j idx 0 = (idx (ix2 (j 0) 0)).toInt := by
  unfold ScatterDims.start
  rw [dif_pos (show (0 : Fin 2) ∈ dR.scatterDimsToOperandDims from List.mem_singleton.mpr rfl)]
  have hsi : dR.siIdx j ⟨List.idxOf (0 : Fin 2) dR.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The feature start is zero: the ids name rows only. -/
private theorem rows_start1 (idx : IVec SN1 32) (j : SNF.Idx) :
    dR.start j idx 1 = 0 := by
  unfold ScatterDims.start
  rw [dif_neg (show (1 : Fin 2) ∉ dR.scatterDimsToOperandDims by decide)]

/-- The row axis is an inserted axis: its window coordinate is zero. -/
private theorem rows_window0 (j : SNF.Idx) : dR.window j 0 = 0 := by
  unfold ScatterDims.window
  rw [dif_neg (show (0 : Fin 2) ∉ dR.sKept by decide)]

/-- The feature axis carries the update's feature coordinate. -/
private theorem rows_window1 (j : SNF.Idx) : dR.window j 1 = (j 1).val := by
  unfold ScatterDims.window
  rw [dif_pos (show (1 : Fin 2) ∈ dR.sKept by decide)]
  rfl

/-- The update at (n, q') lands at (g, q) exactly when q' = q and node n's id is g. -/
private theorem rows_lands (idx : IVec SN1 32) (n : Fin 100000) (q' g q : Fin 64) :
    dR.resultIdx? (ix2 n q') idx = some (ix2 g q) ↔ (q' = q ∧ idx (ix2 n 0) = BitVec.ofNat 32 g.val) := by
  rw [resultIdx?_eq_some_iff, Fin.forall_fin_two, rows_start0, rows_start1, rows_window0, rows_window1, ← toInt_eq_iff]
  show ((idx (ix2 n 0)).toInt + ((0 : Nat) : Int) = (g.val : Int) ∧ (0 : Int) + (q'.val : Int) = (q.val : Int)) ↔ _
  constructor
  · rintro ⟨h0, h1⟩
    exact ⟨Fin.ext (by omega), by omega⟩
  · rintro ⟨rfl, h⟩
    exact ⟨by omega, by omega⟩

/-- The rows of `upd` scatter-added from zero by the graph ids in the column `idx`: at (g, q), the sum of feature q
    over the nodes whose id is g. -/
theorem scatterRows_apply (idx : IVec SN1 32) (upd : SNF.Idx → EReal) (g q : Fin 64) :
    Ideal.hostScatterAdd Cert.ReferenceIdeal.scatter_S64x64_S100000x1_S100000x64_1_0_0_1 (fun _ => (0 : EReal)) idx upd (ix2 g q)
      = poolSum (fun n => idx (ix2 n 0)) upd g q := by
  -- 0 + Σ over the updates landing at (g, q); as a sum over all (n, q') of "upd (n, q') if it lands, else 0"; for each n
  -- the inner sum over q' keeps q' = q alone, and that term is upd (n, q) if n's id is g and 0 otherwise, which is the
  -- product with the weight one or zero.
  unfold Ideal.hostScatterAdd poolSum
  rw [zero_add, Finset.sum_filter, sum_idx2]
  apply Finset.sum_congr rfl
  intro n _
  simp only [rows_lands]
  unfold hot
  by_cases hg : idx (ix2 n 0) = BitVec.ofNat 32 g.val
  · simp [hg]
  · simp [hg]

/-! ## The scatter of the ones: operand 64, ids 100000 × 1, updates 100000

  The update at n starts at the id of node n and has no window axis. So it lands at (id n). -/

private abbrev dC := Cert.ReferenceIdeal.scatter_S64_S100000x1_S100000_n_0_0_1

/-- The start of update j is the id of node j, read signed. -/
private theorem cnt_start0 (idx : IVec SN1 32) (j : SN.Idx) :
    dC.start j idx 0 = (idx (ix2 (j 0) 0)).toInt := by
  unfold ScatterDims.start
  rw [dif_pos (show (0 : Fin 1) ∈ dC.scatterDimsToOperandDims from List.mem_singleton.mpr rfl)]
  have hsi : dC.siIdx j ⟨List.idxOf (0 : Fin 1) dC.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The one operand axis is an inserted axis: its window coordinate is zero. -/
private theorem cnt_window0 (j : SN.Idx) : dC.window j 0 = 0 := by
  unfold ScatterDims.window
  rw [dif_neg (show (0 : Fin 1) ∉ dC.sKept by decide)]

/-- The update at n lands at g exactly when node n's id is g. -/
private theorem cnt_lands (idx : IVec SN1 32) (n : Fin 100000) (g : Fin 64) :
    dC.resultIdx? (ix1 n) idx = some (ix1 g) ↔ idx (ix2 n 0) = BitVec.ofNat 32 g.val := by
  rw [resultIdx?_eq_some_iff, ← toInt_eq_iff]
  constructor
  · intro h
    have h0 := h 0
    rw [cnt_start0, cnt_window0] at h0
    have h0' : (idx (ix2 n 0)).toInt + ((0 : Nat) : Int) = (g.val : Int) := h0
    omega
  · intro h a
    obtain rfl : a = 0 := Subsingleton.elim _ _
    rw [cnt_start0, cnt_window0]
    show (idx (ix2 n 0)).toInt + ((0 : Nat) : Int) = (g.val : Int)
    omega

/-- Ones scatter-added from zero by the graph ids: at g, the number of nodes whose id is g. -/
theorem scatterCount_apply (idx : IVec SN1 32) (g : Fin 64) :
    Ideal.hostScatterAdd Cert.ReferenceIdeal.scatter_S64_S100000x1_S100000_n_0_0_1 (fun _ => (0 : EReal)) idx (fun _ => (1 : EReal)) (ix1 g)
      = poolCnt (fun n => idx (ix2 n 0)) g := by
  -- 0 + Σ over the updates landing at g of 1; as a sum over all n of "1 if n lands at g, else 0", the weight of n.
  unfold Ideal.hostScatterAdd poolCnt
  rw [zero_add, Finset.sum_filter, ← Equiv.sum_comp (idxEquiv1 (n := 100000)).symm]
  apply Finset.sum_congr rfl
  intro n _
  show (if dC.resultIdx? (ix1 n) idx = some (ix1 g) then (1 : EReal) else 0) = hot (idx (ix2 n 0)) g
  unfold hot
  simp only [cnt_lands]

/-- A sum over the nodes, block by block. -/
theorem sum_blocks {M : Type} [AddCommMonoid M] (f : Fin 100000 → M) :
    ∑ n : Fin 100000, f n = ∑ t : Fin 10, ∑ r : Fin 10000, f ⟨10000 * t.val + r.val, by omega⟩ := by
  -- (t, r) ↦ r + 10000 · t is a bijection from [0, 10) × [0, 10000) onto [0, 100000); re-index the sum through it and
  -- split the sum over the pairs into the double sum.
  have h := (Equiv.sum_comp (finProdFinEquiv (m := 10) (n := 10000)) (f : Fin (10 * 10000) → M)).symm
  rw [Fintype.sum_prod_type] at h
  refine h.trans ?_
  apply Finset.sum_congr rfl
  intro t _
  apply Finset.sum_congr rfl
  intro r _
  refine congrArg f (Fin.ext ?_)
  rw [finProdFinEquiv_apply_val]
  exact Nat.add_comm r.val (10000 * t.val)

end Cert.Spec

end
-- ==== Proof.KIValue2Head.lean ====
/-
  What region 2 leaves in the head's result array, at the ideal values.

  Each of the ten grid points writes back one block of 10000 rows of relu(h_t · W + b), the blocks tile the array, and a
  matrix product into a zero accumulator is, entry by entry, the sum over the contracted coordinate: the whole array is
  Spec.lean's `head` of the region's input arrays.
-/
import proofs.«412122_j12154757448413_2_alg».proof.Proof.KIValue2Pieces
import proofs.«412122_j12154757448413_2_alg».proof.Proof.KIValue01
import proofs.«412122_j12154757448413_2_alg».proof.Proof.Spec
import proofs.«412122_j12154757448413_2_alg».proof.Proof.SpecLaws
import proofs.«412122_j12154757448413_2_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The stored block at an index -/

/-- The head's stored block at (p, q): relu of the feature row p times W's column q plus the bias's entry q. The
    product is into a zero accumulator, so its entry is the plain sum over the 64 shared coordinates; the bias row is
    broadcast down the rows; the relu is the larger of that and zero. -/
theorem pay5_entry (xh : Vec Ideal S10000x64 .f32) (w : Vec Ideal S64x64 .f32) (bl : Vec Ideal S1x64 .f32)
    (p : Fin 10000) (q : Fin 64) :
    k2_pay5 xh w bl (ix2 p q) = max ((∑ k : Fin 64, xh (ix2 p k) * w (ix2 k q)) + bl (ix2 0 q)) 0 := by
  unfold k2_pay5
  rw [maximumf_apply, addf_apply, broadcast_apply, shapeCast_self, shapeCast_self, matmul_entry, bias_entry]
  show max _ (FloatOps.ofBits (F := Ideal) .f32 0x00000000#32) = _
  rw [Ideal.ofBits_def, Ideal.ofBits_zero_f32]

/-! ## The blocks as rows of the arrays -/

/-- Where region 2's blocks sit: at point t the feature rows and the result rows are block (t, 0) of their arrays, and
    the matrix and the bias row are block (0, 0), the whole array. Decided over the ten points. -/
theorem blockAt2 : ∀ t : Fin cfg2.N,
    win2_0.index t (0 : Fin 2) = t.val ∧ win2_0.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The feature block at point t, entry (p, k): the features' row 10000 t + p. -/
theorem feat2_entry (c : Dev nD) (t : Fin cfg2.N) (p : Fin 10000) (k : Fin 64) (r : Fin 100000) (hr : r.val = 10000 * t.val + p.val) :
    iblk2 V c 0 t (ix2 p k) = V c main_v40 (ix2 r k) := by
  show V c main_v40 (((cfg2.win 0).blk t).view.emb (ix2 p k)) = V c main_v40 (ix2 r k)
  refine congrArg (V c main_v40) (funext fun a => Fin.ext ?_)
  obtain ⟨e0, e1, -⟩ := blockAt2 t
  match a with
  | ⟨0, _⟩ => show win2_0.index t (0 : Fin 2) * 10000 + 1 * p.val = r.val; omega
  | ⟨1, _⟩ => show win2_0.index t (1 : Fin 2) * 64 + 1 * k.val = k.val; omega

/-- W's block at every point is W. -/
theorem w2_entry (c : Dev nD) (t : Fin cfg2.N) (k q : Fin 64) : iblk2 V c 2 t (ix2 k q) = V c main_arg9 (ix2 k q) := by
  show V c main_arg9 (((cfg2.win 2).blk t).view.emb (ix2 k q)) = V c main_arg9 (ix2 k q)
  refine congrArg (V c main_arg9) (funext fun a => Fin.ext ?_)
  obtain ⟨-, -, e0, e1, -⟩ := blockAt2 t
  match a with
  | ⟨0, _⟩ => show win2_2.index t (0 : Fin 2) * 64 + 1 * k.val = k.val; omega
  | ⟨1, _⟩ => show win2_2.index t (1 : Fin 2) * 64 + 1 * q.val = q.val; omega

/-- The bias row's block at every point is the bias row. -/
theorem bias2_entry (c : Dev nD) (t : Fin cfg2.N) (q : Fin 64) : iblk2 V c 3 t (ix2 0 q) = V c main_v42 (ix2 0 q) := by
  show V c main_v42 (((cfg2.win 3).blk t).view.emb (ix2 0 q)) = V c main_v42 (ix2 0 q)
  refine congrArg (V c main_v42) (funext fun a => Fin.ext ?_)
  obtain ⟨-, -, -, -, e0, e1, -⟩ := blockAt2 t
  match a with
  | ⟨0, _⟩ => show win2_3.index t (0 : Fin 2) * 1 + 1 * 0 = 0; omega
  | ⟨1, _⟩ => show win2_3.index t (1 : Fin 2) * 64 + 1 * q.val = q.val; omega

/-- The result block's entry (p, q) at point t sits at row 10000 t + p, column q of the result array. -/
theorem out2_at (t : Fin cfg2.N) (p : Fin 10000) (q : Fin 64) (r : Fin 100000) (hr : r.val = 10000 * t.val + p.val) :
    ((cfg2.win 4).blk t).view.emb (ix2 p q) = ix2 r q := by
  refine funext fun a => Fin.ext ?_
  obtain ⟨-, -, -, -, -, -, e0, e1⟩ := blockAt2 t
  match a with
  | ⟨0, _⟩ => show win2_4.index t (0 : Fin 2) * 10000 + 1 * p.val = r.val; omega
  | ⟨1, _⟩ => show win2_4.index t (1 : Fin 2) * 64 + 1 * q.val = q.val; omega

/-! ## What a point writes back, and the array after the ten points -/

/-- The head's block of point t at (r, q) is the dense head of the region's input arrays at row 10000 t + r, column q:
    the block's feature rows are rows [10000 t, 10000 t + 10000) of the features, and W and the bias are whole. -/
theorem head_block_entry (c : Dev nD) (t : Fin cfg2.N) (r : Fin 10000) (q : Fin 64) :
    (k2_pay5 (iblk2 V c 0 t) (iblk2 V c 2 t) (iblk2 V c 3 t) : Vec Ideal S10000x64 .f32) (ix2 r q)
      = Spec.head (V c main_v40) (V c main_arg9) (fun q => V c main_v42 (ix2 0 q))
          (ix2 ⟨10000 * t.val + r.val, by have := t.isLt; have : cfg2.N = 10 := N2_eq; omega⟩ q) := by
  have ht : t.val < 10 := lt_of_lt_of_eq t.isLt N2_eq
  have hr : ((⟨10000 * t.val + r.val, by omega⟩ : Fin 100000) : Nat) = 10000 * t.val + r.val := rfl
  refine (pay5_entry (iblk2 V c 0 t) (iblk2 V c 2 t) (iblk2 V c 3 t) r q).trans ?_
  show _ = Spec.headAt (V c main_v40) (V c main_arg9) (fun q => V c main_v42 (ix2 0 q))
    (⟨10000 * t.val + r.val, by omega⟩ : Fin 100000) q
  unfold Spec.headAt
  simp only [feat2_entry V c t r _ _ hr, w2_entry V c t, bias2_entry V c t]

/-- What point t writes back is block t of the dense head of the arrays the region was entered with. -/
theorem flushed2_eq (c : Dev nD) (t : Fin cfg2.N) :
    (dat2 (F := Ideal) V c).flushed 4 t
      = ((cfg2.win 4).blk t).view.read (Elt Ideal)
          (Spec.head (V c main_v40) (V c main_arg9) (fun q => V c main_v42 (ix2 0 q))) := by
  show (cfg2.win 4).cut (grid2.coords t) ((dat2 V c).after 4 t) = _
  rw [after2_4_eq]
  funext y
  obtain ⟨p, q, rfl⟩ : ∃ (p : Fin 10000) (q : Fin 64), y = ix2 p q := ⟨y 0, y 1, eq_ix2 y⟩
  have ht : t.val < 10 := lt_of_lt_of_eq t.isLt N2_eq
  have hr : ((⟨10000 * t.val + p.val, by omega⟩ : Fin 100000) : Nat) = 10000 * t.val + p.val := rfl
  show k2_pay5 (iblk2 V c 0 t) (iblk2 V c 2 t) (iblk2 V c 3 t) (ix2 p q)
    = Spec.head (V c main_v40) (V c main_arg9) (fun q => V c main_v42 (ix2 0 q))
        (((cfg2.win 4).blk t).view.emb (ix2 p q))
  rw [out2_at t p q _ hr]
  exact head_block_entry V c t p q

/-- An index of the result array is in point t's block iff, axis by axis, it lies in the block's range. -/
theorem mem_blk2 (t : Fin cfg2.N) (i : S100000x64.Idx) :
    i ∈ ((cfg2.win 4).blk t).view.set
      ↔ ∀ a : Fin 2, win2_4.index t a * S10000x64.size a ≤ (i a).val ∧ (i a).val < win2_4.index t a * S10000x64.size a + S10000x64.size a := by
  show i ∈ ((View.whole main_v43_0).slice (win2_4.rect t)).set ↔ _
  rw [View.set_slice_whole, Rect.mem_set_unit]
  exact Iff.rfl

/-- The ten blocks of 10000 rows tile the 100000 rows: row r is in the block of point r / 10000, and every point
    writes its block back. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : (i 0).val / 10000 < cfg2.N := by show (i 0).val / 10000 < 10; omega
  refine ⟨⟨(i 0).val / 10000, hN⟩, flush2_4 _, ?_⟩
  rw [mem_blk2]
  obtain ⟨-, -, -, -, -, -, e0, e1⟩ := blockAt2 ⟨(i 0).val / 10000, hN⟩
  intro a
  match a with
  | ⟨0, _⟩ =>
    show win2_4.index ⟨(i 0).val / 10000, hN⟩ (0 : Fin 2) * 10000 ≤ (i 0).val
      ∧ (i 0).val < win2_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, hN⟩ (1 : Fin 2) * 64 ≤ (i 1).val
      ∧ (i 1).val < win2_4.index ⟨(i 0).val / 10000, hN⟩ (1 : Fin 2) * 64 + 64
    rw [e1]; omega

/-- The head's array after the region's ten write-backs. -/
theorem final2_4 (c : Dev nD) :
    (dat2 (F := Ideal) V c).arrAt 4 cfg2.N
      = Spec.head (V c main_v40) (V c main_arg9) (fun q => V c main_v42 (ix2 0 q)) :=
  (dat2 (F := Ideal) V c).arrAt_eq_of_cover 4
    (Spec.head (V c main_v40) (V c main_arg9) (fun q => V c main_v42 (ix2 0 q)))
    (fun t _ => flushed2_eq V c t) cover2

end Cert.KernelIdeal.Hand

end
-- ==== Proof.KIValue2Pool.lean ====
/-
  What region 2 leaves in the means' result array, at the ideal values.

  The sums' accumulator after point t holds, at (g, q), the sum over the rows n < 10000 (t + 1) whose graph id is g of
  the head's entry (n, q): each point adds its block's one-hot membership matrix, transposed, times the head's block,
  and an entry of that product is the sum over the block's rows of (1 if the row's id is g, else 0) times the head's
  entry. Likewise the counts' accumulator counts those rows. After the last point these are the sums and counts over
  all 100000 nodes, and the one write-back, at the last point, stores their quotient: Spec.lean's `pool`.
-/
import proofs.«412122_j12154757448413_2_alg».proof.Proof.KIValue2Pieces
import proofs.«412122_j12154757448413_2_alg».proof.Proof.KIValue2Head
import proofs.«412122_j12154757448413_2_alg».proof.Proof.Spec
import proofs.«412122_j12154757448413_2_alg».proof.Proof.SpecLaws
import proofs.«412122_j12154757448413_2_alg».proof.Proof.LibOneAxisContraction
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The membership matrix at an index -/

/-- Comparing two words for equality gives the one-bit word 1 if they are equal, else 0. -/
theorem pool_cmpi_eq (x y : BitVec 32) : IntOp.cmpi .eq x y = if x = y then 1#1 else 0#1 := by
  unfold IntOp.cmpi
  by_cases h : x = y
  · rw [if_pos h]; subst h; simp
  · rw [if_neg h, beq_eq_false_iff_ne.mpr h]; rfl

/-- The ids' column broadcast along the row reads, at (r, g), the column's entry r. -/
theorem pool_ids_entry (bt : IVec S10000x1 32) (r : Fin 10000) (g : Fin 64) :
    broadcastTo S10000x64 bt broadcasts_S10000x1_S10000x64 (ix2 r g) = bt (ix2 r 0) :=
  broadcastTo_apply bt broadcasts_S10000x1_S10000x64 (ix2 r g) (ix2 r 0) (fun a => match a with
    | ⟨0, _⟩ => by show r.val = if (10000 : Nat) = 1 then 0 else r.val; rw [if_neg (by decide)]
    | ⟨1, _⟩ => by show 0 = if (1 : Nat) = 1 then 0 else _; rw [if_pos rfl])

/-- The membership matrix at (r, g): one if row r's id is g, else zero. The comparison's one-bit result, widened
    unsigned to 32 bits, is the word 1 or 0, and a word read as a signed integer, exactly, is then 1 or 0. -/
theorem pool_hot_entry (bt : Vec Ideal S10000x1 .i32) (r : Fin 10000) (g : Fin 64) :
    k2_pay6 (F := Ideal) bt (ix2 r g) = Spec.hot (bt (ix2 r 0)) g := by
  unfold k2_pay6
  rw [sitofp_apply, extui_apply]
  show FloatOps.sitofp (F := Ideal) .f32 ((IntOp.cmpi .eq (broadcastTo S10000x64 (shapeCast S10000x1 bt shapeCasts_S10000x1_S10000x1) broadcasts_S10000x1_S10000x64 (ix2 r g))
      (iota .tc S10000x64 32 [1] iota_S10000x64_d1_w32 (ix2 r g))).setWidth 32) = _
  rw [shapeCast_self, pool_ids_entry, iota_single_apply, pool_cmpi_eq]
  show (((((if bt (ix2 r 0) = BitVec.ofNat 32 g.val then 1#1 else 0#1 : BitVec 1).setWidth 32).toInt : ℝ)) : EReal) = _
  unfold Spec.hot
  by_cases h : bt (ix2 r 0) = BitVec.ofNat 32 g.val
  · rw [if_pos h, if_pos h]
    norm_num
  · rw [if_neg h, if_neg h]
    norm_num

/-! ## The two products over a block's rows -/

/-- The left operand's row is the contracted coordinate, -/
theorem pool_sL_row (j : S64x64.Idx) (q : dot_S10000x64_S10000x64_S64x64_0_0_1_1_n_n.contr.Idx) :
    (dot_S10000x64_S10000x64_S64x64_0_0_1_1_n_n.lhsIdx j q 0).val = (q ⟨0, by decide⟩).val :=
  dot_S10000x64_S10000x64_S64x64_0_0_1_1_n_n.lhsIdx_val_of_single rfl j q

/-- and its column the result's row. -/
theorem pool_sL_col (j : S64x64.Idx) (q : dot_S10000x64_S10000x64_S64x64_0_0_1_1_n_n.contr.Idx) :
    (dot_S10000x64_S10000x64_S64x64_0_0_1_1_n_n.lhsIdx j q 1).val = (j 0).val := by
  unfold DotDims.lhsIdx
  rw [dif_neg (show ¬(1 : Fin S10000x64.rank) ∈ dot_S10000x64_S10000x64_S64x64_0_0_1_1_n_n.lhsBatch by decide),
    dif_pos (show (1 : Fin S10000x64.rank) ∈ dot_S10000x64_S10000x64_S64x64_0_0_1_1_n_n.lhsNonContracting by decide)]
  rfl

/-- The right operand's row is the contracted coordinate, -/
theorem pool_sR_row (j : S64x64.Idx) (q : dot_S10000x64_S10000x64_S64x64_0_0_1_1_n_n.contr.Idx) :
    (dot_S10000x64_S10000x64_S64x64_0_0_1_1_n_n.rhsIdx j q 0).val = (q ⟨0, by decide⟩).val :=
  dot_S10000x64_S10000x64_S64x64_0_0_1_1_n_n.rhsIdx_val_of_single rfl j q

/-- and its column the result's column. -/
theorem pool_sR_col (j : S64x64.Idx) (q : dot_S10000x64_S10000x64_S64x64_0_0_1_1_n_n.contr.Idx) :
    (dot_S10000x64_S10000x64_S64x64_0_0_1_1_n_n.rhsIdx j q 1).val = (j 1).val := by
  unfold DotDims.rhsIdx
  rw [dif_neg (show ¬(1 : Fin S10000x64.rank) ∈ dot_S10000x64_S10000x64_S64x64_0_0_1_1_n_n.rhsBatch by decide),
    dif_pos (show (1 : Fin S10000x64.rank) ∈ dot_S10000x64_S10000x64_S64x64_0_0_1_1_n_n.rhsNonContracting by decide)]
  rfl

/-- A block's transpose times a block, into a zero accumulator, at (g, q): the sum over the block's 10000 rows of the
    products of the left block's column-g entries with the right block's column-q entries. -/
theorem pool_sums_entry (x y : FVec Ideal S10000x64 .f32) (g q : Fin 64) :
    matmul dot_S10000x64_S10000x64_S64x64_0_0_1_1_n_n none x y (constant S64x64 .f32 0x00000000#32) (ix2 g q)
      = ∑ r : Fin 10000, x (ix2 r g) * y (ix2 r q) := by
  refine Cert.Dots.matmul_zero_apply_of dot_S10000x64_S10000x64_S64x64_0_0_1_1_n_n 10000 rfl rfl none x y (ix2 g q)
    (fun r => ix2 r g) (fun r => ix2 r q) (fun r => ?_) (fun r => ?_)
  · have hk := contrEquiv1_symm_val dot_S10000x64_S10000x64_S64x64_0_0_1_1_n_n 10000 rfl rfl r
    exact funext fun a => Fin.ext (by
      match a with
      | ⟨0, _⟩ => exact (pool_sL_row _ _).trans hk
      | ⟨1, _⟩ => exact pool_sL_col _ _)
  · have hk := contrEquiv1_symm_val dot_S10000x64_S10000x64_S64x64_0_0_1_1_n_n 10000 rfl rfl r
    exact funext fun a => Fin.ext (by
      match a with
      | ⟨0, _⟩ => exact (pool_sR_row _ _).trans hk
      | ⟨1, _⟩ => exact pool_sR_col _ _)

/-- The counts' product: the left operand's row is the contracted coordinate, -/
theorem pool_cL_row (j : S64x1.Idx) (q : dot_S10000x64_S10000x1_S64x1_0_0_1_1_n_n.contr.Idx) :
    (dot_S10000x64_S10000x1_S64x1_0_0_1_1_n_n.lhsIdx j q 0).val = (q ⟨0, by decide⟩).val :=
  dot_S10000x64_S10000x1_S64x1_0_0_1_1_n_n.lhsIdx_val_of_single rfl j q

/-- and its column the result's row. -/
theorem pool_cL_col (j : S64x1.Idx) (q : dot_S10000x64_S10000x1_S64x1_0_0_1_1_n_n.contr.Idx) :
    (dot_S10000x64_S10000x1_S64x1_0_0_1_1_n_n.lhsIdx j q 1).val = (j 0).val := by
  unfold DotDims.lhsIdx
  rw [dif_neg (show ¬(1 : Fin S10000x64.rank) ∈ dot_S10000x64_S10000x1_S64x1_0_0_1_1_n_n.lhsBatch by decide),
    dif_pos (show (1 : Fin S10000x64.rank) ∈ dot_S10000x64_S10000x1_S64x1_0_0_1_1_n_n.lhsNonContracting by decide)]
  rfl

/-- The right operand's row is the contracted coordinate, -/
theorem pool_cR_row (j : S64x1.Idx) (q : dot_S10000x64_S10000x1_S64x1_0_0_1_1_n_n.contr.Idx) :
    (dot_S10000x64_S10000x1_S64x1_0_0_1_1_n_n.rhsIdx j q 0).val = (q ⟨0, by decide⟩).val :=
  dot_S10000x64_S10000x1_S64x1_0_0_1_1_n_n.rhsIdx_val_of_single rfl j q

/-- and its one column the result's one column. -/
theorem pool_cR_col (j : S64x1.Idx) (q : dot_S10000x64_S10000x1_S64x1_0_0_1_1_n_n.contr.Idx) :
    (dot_S10000x64_S10000x1_S64x1_0_0_1_1_n_n.rhsIdx j q 1).val = (j 1).val := by
  unfold DotDims.rhsIdx
  rw [dif_neg (show ¬(1 : Fin S10000x1.rank) ∈ dot_S10000x64_S10000x1_S64x1_0_0_1_1_n_n.rhsBatch by decide),
    dif_pos (show (1 : Fin S10000x1.rank) ∈ dot_S10000x64_S10000x1_S64x1_0_0_1_1_n_n.rhsNonContracting by decide)]
  rfl

/-- A block's transpose times a column, into a zero accumulator, at (g, 0): the sum over the block's 10000 rows of the
    products of the block's column-g entries with the column's entries. -/
theorem pool_cnts_entry (x : FVec Ideal S10000x64 .f32) (y : FVec Ideal S10000x1 .f32) (g : Fin 64) :
    matmul dot_S10000x64_S10000x1_S64x1_0_0_1_1_n_n none x y (constant S64x1 .f32 0x00000000#32) (ix2 g 0)
      = ∑ r : Fin 10000, x (ix2 r g) * y (ix2 r 0) := by
  refine Cert.Dots.matmul_zero_apply_of dot_S10000x64_S10000x1_S64x1_0_0_1_1_n_n 10000 rfl rfl none x y (ix2 g 0)
    (fun r => ix2 r g) (fun r => ix2 r 0) (fun r => ?_) (fun r => ?_)
  · have hk := contrEquiv1_symm_val dot_S10000x64_S10000x1_S64x1_0_0_1_1_n_n 10000 rfl rfl r
    exact funext fun a => Fin.ext (by
      match a with
      | ⟨0, _⟩ => exact (pool_cL_row _ _).trans hk
      | ⟨1, _⟩ => exact pool_cL_col _ _)
  · have hk := contrEquiv1_symm_val dot_S10000x64_S10000x1_S64x1_0_0_1_1_n_n 10000 rfl rfl r
    exact funext fun a => Fin.ext (by
      match a with
      | ⟨0, _⟩ => exact (pool_cR_row _ _).trans hk
      | ⟨1, _⟩ => exact pool_cR_col _ _)

/-! ## What one point adds to the accumulators, and the quotient, at an index -/

/-- The pattern of the number one is the extended real one, as the body's scalar constant. -/
theorem pool_one : (Scalar.ofBits (F := Ideal) .f32 0x3F800000#32 : Ideal .f32) = (1 : EReal) := Ideal.ofBits_one_f32

/-- The pattern of zero is the extended real zero, as the body's scalar constant. -/
theorem pool_zero : (Scalar.ofBits (F := Ideal) .f32 0x00000000#32 : Ideal .f32) = (0 : EReal) := Ideal.ofBits_zero_f32

/-- The sums' accumulator a point leaves, at (g, q): what it found plus the sum over the block's rows whose id is g of
    the head block's column-q entries. -/
theorem pool_pay7_entry (xh : Vec Ideal S10000x64 .f32) (w : Vec Ideal S64x64 .f32) (b : Vec Ideal S1x64 .f32)
    (bt : Vec Ideal S10000x1 .i32) (acc : Vec Ideal S64x64 .f32) (g q : Fin 64) :
    k2_pay7 xh w b bt acc (ix2 g q)
      = acc (ix2 g q) + ∑ r : Fin 10000, Spec.hot (bt (ix2 r 0)) g * k2_pay5 xh w b (ix2 r q) := by
  unfold k2_pay7
  rw [shapeCast_self, addf_apply, pool_sums_entry]
  simp only [pool_hot_entry]

/-- The counts' accumulator a point leaves, at (g, 0): what it found plus the number of the block's rows whose id is g. -/
theorem pool_pay8_entry (bt : Vec Ideal S10000x1 .i32) (acc : Vec Ideal S64x1 .f32) (g : Fin 64) :
    k2_pay1 (k2_pay8 bt acc) (ix2 g 0) = acc (ix2 g 0) + ∑ r : Fin 10000, Spec.hot (bt (ix2 r 0)) g := by
  unfold k2_pay1 k2_pay8
  rw [shapeCast_self, addf_apply, pool_cnts_entry]
  simp only [pool_hot_entry, broadcast_apply, pool_one, mul_one]

/-- The zeroed sums' accumulator. -/
theorem pool_pay3_entry (i : S64x64.Idx) : k2_pay3 (F := Ideal) i = 0 := by
  unfold k2_pay3
  rw [shapeCast_self, broadcast_apply, pool_zero]

/-- The zeroed counts' accumulator. -/
theorem pool_pay4_entry (i : S64x1.Idx) : k2_pay4 (F := Ideal) i = 0 := by
  unfold k2_pay4
  rw [shapeCast_self, broadcast_apply, pool_zero]

/-- The counts' column broadcast along the row reads, at (g, q), the column's entry g. -/
theorem pool_cnt_bcast (n : FVec Ideal S64x1 .f32) (g q : Fin 64) :
    broadcastTo S64x64 n broadcasts_S64x1_S64x64 (ix2 g q) = n (ix2 g 0) :=
  broadcastTo_apply n broadcasts_S64x1_S64x64 (ix2 g q) (ix2 g 0) (fun a => match a with
    | ⟨0, _⟩ => by show g.val = if (64 : Nat) = 1 then 0 else g.val; rw [if_neg (by decide)]
    | ⟨1, _⟩ => by show 0 = if (1 : Nat) = 1 then 0 else _; rw [if_pos rfl])

/-- The stored means at (g, q): the sum over the larger of the count and one. -/
theorem pool_pay2_entry (s : Vec Ideal S64x64 .f32) (n : Vec Ideal S64x1 .f32) (g q : Fin 64) :
    k2_pay2 s n (ix2 g q) = Ideal.div (s (ix2 g q)) (max (n (ix2 g 0)) 1) := by
  unfold k2_pay2
  rw [divf_apply, pool_cnt_bcast, maximumf_apply, broadcast_apply, pool_one]

/-! ## The ids' blocks as rows of the ids' column, and the means' one block -/

/-- Where the ids' and the means' blocks sit: at point t the ids' rows are block (t, 0) of their column, and the means'
    block is block (0, 0), the whole array. Decided over the ten points. -/
theorem pool_blockAt : ∀ t : Fin cfg2.N,
    win2_1.index t (0 : Fin 2) = t.val ∧ win2_1.index t (1 : Fin 2) = 0
    ∧ win2_5.index t (0 : Fin 2) = 0 ∧ win2_5.index t (1 : Fin 2) = 0 :=
  (by decide +kernel : ∀ t : Fin grid2.N, _)

/-- The ids' block at point t, entry (p, 0): the id of row 10000 t + p. -/
theorem pool_ids_block (c : Dev nD) (t : Fin cfg2.N) (p : Fin 10000) (r : Fin 100000) (hr : r.val = 10000 * t.val + p.val) :
    iblk2 V c 1 t (ix2 p 0) = V c main_v41 (ix2 r 0) := by
  show V c main_v41 (((cfg2.win 1).blk t).view.emb (ix2 p 0)) = V c main_v41 (ix2 r 0)
  refine congrArg (V c main_v41) (funext fun a => Fin.ext ?_)
  obtain ⟨e0, e1, -⟩ := pool_blockAt t
  match a with
  | ⟨0, _⟩ => show win2_1.index t (0 : Fin 2) * 10000 + 1 * p.val = r.val; omega
  | ⟨1, _⟩ => show win2_1.index t (1 : Fin 2) * 1 + 1 * 0 = 0; omega

/-- The means' block's entry (g, q) sits at (g, q) of the means' array. -/
theorem pool_out_at (t : Fin cfg2.N) (g q : Fin 64) : ((cfg2.win 5).blk t).view.emb (ix2 g q) = ix2 g q := by
  refine funext fun a => Fin.ext ?_
  obtain ⟨-, -, e0, e1⟩ := pool_blockAt t
  match a with
  | ⟨0, _⟩ => show win2_5.index t (0 : Fin 2) * 64 + 1 * g.val = g.val; omega
  | ⟨1, _⟩ => show win2_5.index t (1 : Fin 2) * 64 + 1 * q.val = q.val; omega

/-! ## The accumulators after each point -/

/-- Block t's part of graph g's sum of feature q: the sum over rows [10000 t, 10000 t + 10000) of the head's entries
    in the rows whose id is g (nothing past the ten blocks). -/
def pool_blockSum (c : Dev nD) (g q : Fin 64) (t : ℕ) : EReal :=
  if ht : t < 10 then
    ∑ r : Fin 10000, Spec.hot (V c main_v41 (ix2 (⟨10000 * t + r.val, by omega⟩ : Fin 100000) 0)) g
      * Spec.head (V c main_v40) (V c main_arg9) (fun q => V c main_v42 (ix2 0 q)) (ix2 (⟨10000 * t + r.val, by omega⟩ : Fin 100000) q)
  else 0

/-- Block t's part of graph g's node count. -/
def pool_blockCnt (c : Dev nD) (g : Fin 64) (t : ℕ) : EReal :=
  if ht : t < 10 then ∑ r : Fin 10000, Spec.hot (V c main_v41 (ix2 (⟨10000 * t + r.val, by omega⟩ : Fin 100000) 0)) g else 0

/-- Block t's part of the sum, read off the point's blocks. -/
theorem pool_blockSum_eq (c : Dev nD) (g q : Fin 64) (t : Fin cfg2.N) :
    ∑ r : Fin 10000, Spec.hot (iblk2 V c 1 t (ix2 r 0)) g
        * (k2_pay5 (iblk2 V c 0 t) (iblk2 V c 2 t) (iblk2 V c 3 t) : Vec Ideal S10000x64 .f32) (ix2 r q)
      = pool_blockSum V c g q t.val := by
  have ht : t.val < 10 := lt_of_lt_of_eq t.isLt N2_eq
  unfold pool_blockSum
  rw [dif_pos ht]
  refine Finset.sum_congr rfl fun r _ => ?_
  rw [pool_ids_block V c t r ⟨10000 * t.val + r.val, by omega⟩ rfl, head_block_entry V c t r q]

/-- Block t's part of the count, read off the point's ids' block. -/
theorem pool_blockCnt_eq (c : Dev nD) (g : Fin 64) (t : Fin cfg2.N) :
    ∑ r : Fin 10000, Spec.hot (iblk2 V c 1 t (ix2 r 0)) g = pool_blockCnt V c g t.val := by
  have ht : t.val < 10 := lt_of_lt_of_eq t.isLt N2_eq
  unfold pool_blockCnt
  rw [dif_pos ht]
  refine Finset.sum_congr rfl fun r _ => ?_
  rw [pool_ids_block V c t r ⟨10000 * t.val + r.val, by omega⟩ rfl]

/-- The sums' accumulator after point n, at (g, q): the parts of blocks 0 … n. -/
theorem pool_sums_at (c : Dev nD) (g q : Fin 64) (n : ℕ) : ∀ h : n < cfg2.N,
    (outsAt2 V c n h).2.2.1 (ix2 g q) = ∑ t ∈ Finset.range (n + 1), pool_blockSum V c g q t := by
  induction n with
  | zero =>
    intro h
    rw [sums2_zero V c h, pool_pay7_entry, pool_pay3_entry, zero_add, Finset.sum_range_one]
    exact pool_blockSum_eq V c g q ⟨0, h⟩
  | succ n ih =>
    intro h
    rw [sums2_succ V c n h, pool_pay7_entry, ih (Nat.lt_of_succ_lt h), Finset.sum_range_succ _ (n + 1)]
    exact congrArg (fun x => _ + x) (pool_blockSum_eq V c g q ⟨n + 1, h⟩)

/-- The counts' accumulator after point n, at (g, 0): the parts of blocks 0 … n. -/
theorem pool_cnts_at (c : Dev nD) (g : Fin 64) (n : ℕ) : ∀ h : n < cfg2.N,
    (outsAt2 V c n h).2.2.2 (ix2 g 0) = ∑ t ∈ Finset.range (n + 1), pool_blockCnt V c g t := by
  induction n with
  | zero =>
    intro h
    rw [cnts2_zero V c h, pool_pay8_entry, pool_pay4_entry, zero_add, Finset.sum_range_one]
    exact pool_blockCnt_eq V c g ⟨0, h⟩
  | succ n ih =>
    intro h
    rw [cnts2_succ V c n h, pool_pay8_entry, ih (Nat.lt_of_succ_lt h), Finset.sum_range_succ _ (n + 1)]
    exact congrArg (fun x => _ + x) (pool_blockCnt_eq V c g ⟨n + 1, h⟩)

/-- The ten blocks' parts of the sum make the sum over all the nodes. -/
theorem pool_total_sums (c : Dev nD) (g q : Fin 64) :
    ∑ t ∈ Finset.range 10, pool_blockSum V c g q t
      = Spec.poolSum (fun n => V c main_v41 (ix2 n 0)) (Spec.head (V c main_v40) (V c main_arg9) (fun q => V c main_v42 (ix2 0 q))) g q := by
  unfold Spec.poolSum
  rw [Spec.sum_blocks, Finset.sum_range]
  refine Finset.sum_congr rfl fun t _ => ?_
  unfold pool_blockSum
  rw [dif_pos t.isLt]

/-- The ten blocks' parts of the count make the count over all the nodes. -/
theorem pool_total_cnts (c : Dev nD) (g : Fin 64) :
    ∑ t ∈ Finset.range 10, pool_blockCnt V c g t = Spec.poolCnt (fun n => V c main_v41 (ix2 n 0)) g := by
  unfold Spec.poolCnt
  rw [Spec.sum_blocks, Finset.sum_range]
  refine Finset.sum_congr rfl fun t _ => ?_
  unfold pool_blockCnt
  rw [dif_pos t.isLt]

/-! ## What the last point writes back, and the array after the region -/

/-- A 64 × 64 block that agrees entry by entry with an array is what a point's write-back of the means' window reads of
    that array: the window's one block is the whole array. -/
theorem pool_cut_eq (t : Fin cfg2.N) (X : Vec Ideal S64x64 .f32) (G : Spec.SFF.Idx → EReal)
    (h : ∀ g q : Fin 64, X (ix2 g q) = G (ix2 g q)) :
    (cfg2.win 5).cut (grid2.coords t) X = ((cfg2.win 5).blk t).view.read (Elt Ideal) G := by
  funext y
  obtain ⟨g, q, rfl⟩ : ∃ (g : Fin 64) (q : Fin 64), y = ix2 g q := ⟨y 0, y 1, eq_ix2 y⟩
  show X (ix2 g q) = G (((cfg2.win 5).blk t).view.emb (ix2 g q))
  rw [pool_out_at t g q]
  exact h g q

/-- What the last point writes back is the one block of the pooled means of the head's array. -/
theorem pool_flushed_eq (c : Dev nD) (t : Fin cfg2.N) (h9 : t.val % 10 = 9) :
    (dat2 (F := Ideal) V c).flushed 5 t
      = ((cfg2.win 5).blk t).view.read (Elt Ideal)
          (Spec.pool (fun n => V c main_v41 (ix2 n 0)) (Spec.head (V c main_v40) (V c main_arg9) (fun q => V c main_v42 (ix2 0 q)))) := by
  have ht : t.val < 10 := lt_of_lt_of_eq t.isLt N2_eq
  have e9 : t.val + 1 = 10 := by omega
  show (cfg2.win 5).cut (grid2.coords t) ((dat2 V c).after 5 t) = _
  rw [after2_5_last V c t (by omega)]
  refine pool_cut_eq t _ _ fun g q => ?_
  rw [pool_pay2_entry, pool_sums_at V c g q t.val t.isLt, pool_cnts_at V c g t.val t.isLt, e9, pool_total_sums, pool_total_cnts]
  rfl

/-- An index of the means' array is in point t's block iff, axis by axis, it lies in the block's range. -/
theorem pool_mem_blk (t : Fin cfg2.N) (i : S64x64.Idx) :
    i ∈ ((cfg2.win 5).blk t).view.set
      ↔ ∀ a : Fin 2, win2_5.index t a * S64x64.size a ≤ (i a).val ∧ (i a).val < win2_5.index t a * S64x64.size a + S64x64.size a := by
  show i ∈ ((View.whole main_v43_1).slice (win2_5.rect t)).set ↔ _
  rw [View.set_slice_whole, Rect.mem_set_unit]
  exact Iff.rfl

/-- The last point's block is the whole 64 × 64 array, and the last point writes it back. -/
theorem pool_cover (i : S64x64.Idx) :
    ∃ t : Fin cfg2.N, (cfg2.win 5).flush t = true ∧ i ∈ ((cfg2.win 5).blk t).view.set := by
  have hi0 : (i 0).val < 64 := (i 0).isLt
  have hi1 : (i 1).val < 64 := (i 1).isLt
  have hN : 9 < cfg2.N := by show 9 < 10; omega
  refine ⟨⟨9, hN⟩, (flush2_5 ⟨9, hN⟩).mpr rfl, ?_⟩
  rw [pool_mem_blk]
  obtain ⟨-, -, e0, e1⟩ := pool_blockAt ⟨9, hN⟩
  intro a
  match a with
  | ⟨0, _⟩ =>
    show win2_5.index ⟨9, hN⟩ (0 : Fin 2) * 64 ≤ (i 0).val ∧ (i 0).val < win2_5.index ⟨9, hN⟩ (0 : Fin 2) * 64 + 64
    rw [e0]; omega
  | ⟨1, _⟩ =>
    show win2_5.index ⟨9, hN⟩ (1 : Fin 2) * 64 ≤ (i 1).val ∧ (i 1).val < win2_5.index ⟨9, hN⟩ (1 : Fin 2) * 64 + 64
    rw [e1]; omega

/-- The means' array after the region: the pooled means of the head's array. -/
theorem final2_5 (c : Dev nD) :
    (dat2 (F := Ideal) V c).arrAt 5 cfg2.N
      = Spec.pool (fun n => V c main_v41 (ix2 n 0)) (Spec.head (V c main_v40) (V c main_arg9) (fun q => V c main_v42 (ix2 0 q))) :=
  (dat2 (F := Ideal) V c).arrAt_eq_of_cover 5
    (Spec.pool (fun n => V c main_v41 (ix2 n 0)) (Spec.head (V c main_v40) (V c main_arg9) (fun q => V c main_v42 (ix2 0 q))))
    (fun t hf => pool_flushed_eq V c t ((flush2_5 t).mp hf)) pool_cover

end Cert.KernelIdeal.Hand

end
-- ==== Proof.RefSpec.lean ====
/-
  The reference program's stages as the network's layers.

  The reference's mean aggregation of features `h` along the edge list is one function `aggRef h e` (a gather of the
  source rows, their scatter-add onto the destination rows, divided row by row by the larger of the in-degree and
  one), which it applies first to the input features and then to the first layer's output. Over it, its first and
  second layers are the combine of Spec.lean, its head the dense head, and its second result the pooled means.
-/
import proofs.«412122_j12154757448413_2_alg».proof.Proof.RefRead
import proofs.«412122_j12154757448413_2_alg».proof.Proof.Spec
import proofs.«412122_j12154757448413_2_alg».proof.Proof.SpecLaws
import Idealize.ShloMosaic.Lib.IdealHost

noncomputable section

namespace Cert.RefSpec

open Cert.ReferenceIdeal Cert.ReferenceIdeal.Read
open Idealize.ShloMosaic Idealize.ShloMosaic.ValueIdx
open scoped BigOperators

/-- The reference's mean aggregation of `h` along the edges `e`. -/
def aggRef (h : FVec Ideal S100000x64 .f32) (e : IVec S2x1600000 32) : FVec Ideal S100000x64 .f32 :=
  Host.divf
    (Host.scatterAdd scatter_S100000x64_S1600000x1_S1600000x64_1_0_0_1 (val_main_v11 (F := Ideal)) (val_main_v12 (F := Ideal) e)
      (Host.gather gather_S100000x64_S1600000x1_S1600000x64_1_0_n_n_0_1_164 h (val_main_v9 (F := Ideal) e)))
    (val_main_v21 (F := Ideal) e)

variable (x0 : FVec Ideal S100000x64 .f32) (x1 : IVec S2x1600000 32) (x2 : IVec S100000 32)
  (x3 : FVec Ideal S64x64 .f32) (x4 : FVec Ideal S64 .f32) (x5 x6 : FVec Ideal S64x64 .f32) (x7 : FVec Ideal S64 .f32)
  (x8 x9 : FVec Ideal S64x64 .f32) (x10 : FVec Ideal S64 .f32)

/-- The first aggregation is `aggRef` of the input features. -/
theorem v22_eq : val_main_v22 (F := Ideal) x0 x1 = aggRef x0 x1 := by
  unfold val_main_v22 val_main_v13 val_main_v10 aggRef
  rfl

/-- The second layer recomputes the source column of the edge list exactly as the first did. -/
theorem v35_eq : val_main_v35 (F := Ideal) x1 = val_main_v9 (F := Ideal) x1 := by
  have h30 : val_main_v30 (F := Ideal) = val_main_v4 (F := Ideal) := rfl
  have h31 : val_main_v31 (F := Ideal) x1 = val_main_v5 (F := Ideal) x1 := rfl
  have h32 : val_main_v32 (F := Ideal) = val_main_v6 (F := Ideal) := rfl
  have h33 : val_main_v33 (F := Ideal) x1 = val_main_v7 (F := Ideal) x1 := rfl
  have h34 : val_main_v34 (F := Ideal) x1 = val_main_v8 (F := Ideal) x1 := rfl
  unfold val_main_v35 val_main_v9
  rw [h34]

/-- The second layer recomputes the divisor (the larger of the in-degree and one, along each row) exactly as the first did. -/
theorem v47_eq : val_main_v47 (F := Ideal) x1 = val_main_v21 (F := Ideal) x1 := by
  have h40 : val_main_v40 (F := Ideal) = val_main_v14 (F := Ideal) := rfl
  have h41 : val_main_v41 (F := Ideal) = val_main_v15 (F := Ideal) := rfl
  have h42 : val_main_v42 (F := Ideal) x1 = val_main_v16 (F := Ideal) x1 := rfl
  have h43 : val_main_v43 (F := Ideal) x1 = val_main_v17 (F := Ideal) x1 := rfl
  have h44 : val_main_v44 (F := Ideal) = val_main_v18 (F := Ideal) := rfl
  have h45 : val_main_v45 (F := Ideal) x1 = val_main_v19 (F := Ideal) x1 := rfl
  have h46 : val_main_v46 (F := Ideal) x1 = val_main_v20 (F := Ideal) x1 := rfl
  unfold val_main_v47 val_main_v21
  rw [h46]

/-- The second aggregation is `aggRef` of the first layer's output. -/
theorem v48_eq : val_main_v48 (F := Ideal) x0 x1 x3 x4 x5 = aggRef (val_main_v29 (F := Ideal) x0 x1 x3 x4 x5) x1 := by
  have h37 : val_main_v37 (F := Ideal) = val_main_v11 (F := Ideal) := rfl
  have h38 : val_main_v38 (F := Ideal) x1 = val_main_v12 (F := Ideal) x1 := rfl
  unfold val_main_v48 val_main_v39 val_main_v36 aggRef
  rw [h37, h38, v35_eq, v47_eq]

/-- The first layer. -/
theorem v29_eq : val_main_v29 (F := Ideal) x0 x1 x3 x4 x5
    = Spec.combine (val_main_v22 (F := Ideal) x0 x1) x0 x3 x5 (fun q => x4 (ix1 q)) := by
  funext i
  obtain ⟨r, q, rfl⟩ : ∃ (r : Fin 100000) (q : Fin 64), i = ix2 r q := ⟨i 0, i 1, eq_ix2 i⟩
  have el : ∀ k : Fin 64, lidx_main_v23 (ix2 r q) k = ix2 r k := fun k =>
    funext fun a => Fin.ext (by match a with | ⟨0, _⟩ => rfl | ⟨1, _⟩ => rfl)
  have er : ∀ k : Fin 64, ridx_main_v23 (ix2 r q) k = ix2 k q := fun k =>
    funext fun a => Fin.ext (by match a with | ⟨0, _⟩ => rfl | ⟨1, _⟩ => rfl)
  have el' : ∀ k : Fin 64, lidx_main_v27 (ix2 r q) k = ix2 r k := fun k =>
    funext fun a => Fin.ext (by match a with | ⟨0, _⟩ => rfl | ⟨1, _⟩ => rfl)
  have er' : ∀ k : Fin 64, ridx_main_v27 (ix2 r q) k = ix2 k q := fun k =>
    funext fun a => Fin.ext (by match a with | ⟨0, _⟩ => rfl | ⟨1, _⟩ => rfl)
  have eb : idx_main_v24 (idx_main_v25 (ix2 r q)) = ix1 q :=
    funext fun a => Fin.ext (by match a with | ⟨0, _⟩ => rfl)
  rw [val_main_v29_apply, val_main_v28_apply, val_main_v26_apply, val_main_v23_apply, val_main_v25_apply,
    val_main_v24_apply, val_main_v27_apply, val_main_call0_v0_apply, val_main_call0_cst_apply]
  simp only [el, er, el', er', eb, Ideal.addf_def, Ideal.maximumf_def, Ideal.ofBits_def, Ideal.ofBits_zero_f32]
  rfl

/-- The second layer. -/
theorem v55_eq : val_main_v55 (F := Ideal) x0 x1 x3 x4 x5 x6 x7 x8
    = Spec.combine (val_main_v48 (F := Ideal) x0 x1 x3 x4 x5) (val_main_v29 (F := Ideal) x0 x1 x3 x4 x5) x6 x8 (fun q => x7 (ix1 q)) := by
  funext i
  obtain ⟨r, q, rfl⟩ : ∃ (r : Fin 100000) (q : Fin 64), i = ix2 r q := ⟨i 0, i 1, eq_ix2 i⟩
  have el : ∀ k : Fin 64, lidx_main_v49 (ix2 r q) k = ix2 r k := fun k =>
    funext fun a => Fin.ext (by match a with | ⟨0, _⟩ => rfl | ⟨1, _⟩ => rfl)
  have er : ∀ k : Fin 64, ridx_main_v49 (ix2 r q) k = ix2 k q := fun k =>
    funext fun a => Fin.ext (by match a with | ⟨0, _⟩ => rfl | ⟨1, _⟩ => rfl)
  have el' : ∀ k : Fin 64, lidx_main_v53 (ix2 r q) k = ix2 r k := fun k =>
    funext fun a => Fin.ext (by match a with | ⟨0, _⟩ => rfl | ⟨1, _⟩ => rfl)
  have er' : ∀ k : Fin 64, ridx_main_v53 (ix2 r q) k = ix2 k q := fun k =>
    funext fun a => Fin.ext (by match a with | ⟨0, _⟩ => rfl | ⟨1, _⟩ => rfl)
  have eb : idx_main_v50 (idx_main_v51 (ix2 r q)) = ix1 q :=
    funext fun a => Fin.ext (by match a with | ⟨0, _⟩ => rfl)
  rw [val_main_v55_apply, val_main_v54_apply, val_main_v52_apply, val_main_v49_apply, val_main_v51_apply,
    val_main_v50_apply, val_main_v53_apply, val_main_call1_v0_apply, val_main_call1_cst_apply]
  simp only [el, er, el', er', eb, Ideal.addf_def, Ideal.maximumf_def, Ideal.ofBits_def, Ideal.ofBits_zero_f32]
  rfl

/-- The dense head: the program's first result. -/
theorem v60_eq : val_main_v60 (F := Ideal) x0 x1 x3 x4 x5 x6 x7 x8 x9 x10
    = Spec.head (val_main_v55 (F := Ideal) x0 x1 x3 x4 x5 x6 x7 x8) x9 (fun q => x10 (ix1 q)) := by
  funext i
  obtain ⟨r, q, rfl⟩ : ∃ (r : Fin 100000) (q : Fin 64), i = ix2 r q := ⟨i 0, i 1, eq_ix2 i⟩
  have el : ∀ k : Fin 64, lidx_main_v56 (ix2 r q) k = ix2 r k := fun k =>
    funext fun a => Fin.ext (by match a with | ⟨0, _⟩ => rfl | ⟨1, _⟩ => rfl)
  have er : ∀ k : Fin 64, ridx_main_v56 (ix2 r q) k = ix2 k q := fun k =>
    funext fun a => Fin.ext (by match a with | ⟨0, _⟩ => rfl | ⟨1, _⟩ => rfl)
  have eb : idx_main_v57 (idx_main_v58 (ix2 r q)) = ix1 q :=
    funext fun a => Fin.ext (by match a with | ⟨0, _⟩ => rfl)
  rw [val_main_v60_apply, val_main_v59_apply, val_main_v56_apply, val_main_v58_apply,
    val_main_v57_apply, val_main_call2_v0_apply, val_main_call2_cst_apply]
  simp only [el, er, eb, Ideal.addf_def, Ideal.maximumf_def, Ideal.ofBits_def, Ideal.ofBits_zero_f32]
  rfl

/-- The array the per-graph sums start from is zero everywhere. -/
theorem v61_zero : val_main_v61 (F := Ideal) = fun _ => (0 : EReal) := by
  funext i
  rw [val_main_v61_apply, val_main_cst_10_apply, Ideal.ofBits_def, Ideal.ofBits_zero_f32]

/-- The array the per-graph counts start from is zero everywhere. -/
theorem v65_zero : val_main_v65 (F := Ideal) = fun _ => (0 : EReal) := by
  funext i
  rw [val_main_v65_apply, val_main_cst_12_apply, Ideal.ofBits_def, Ideal.ofBits_zero_f32]

/-- The array of ones that is counted. -/
theorem v64_one : val_main_v64 (F := Ideal) = fun _ => (1 : EReal) := by
  funext i
  rw [val_main_v64_apply, val_main_cst_11_apply, Ideal.ofBits_def, Ideal.ofBits_one_f32]

/-- The pooled means: the program's second result. -/
theorem v72_eq : val_main_v72 (F := Ideal) x0 x1 x2 x3 x4 x5 x6 x7 x8 x9 x10
    = Spec.pool (fun n => x2 (ix1 n)) (val_main_v60 (F := Ideal) x0 x1 x3 x4 x5 x6 x7 x8 x9 x10) := by
  funext i
  obtain ⟨g, q, rfl⟩ : ∃ (g : Fin 64) (q : Fin 64), i = ix2 g q := ⟨i 0, i 1, eq_ix2 i⟩
  have e62 : (fun n : Fin 100000 => val_main_v62 (F := Ideal) x2 (ix2 n 0)) = fun n => x2 (ix1 n) := by
    funext n
    rw [val_main_v62_apply]
    exact congrArg x2 (funext fun a => Fin.ext (by match a with | ⟨0, _⟩ => rfl))
  have e66 : (fun n : Fin 100000 => val_main_v66 (F := Ideal) x2 (ix2 n 0)) = fun n => x2 (ix1 n) := by
    funext n
    rw [val_main_v66_apply]
    exact congrArg x2 (funext fun a => Fin.ext (by match a with | ⟨0, _⟩ => rfl))
  have ed : idx_main_v70 (idx_main_v71 (ix2 g q)) = ix1 g :=
    funext fun a => Fin.ext (by match a with | ⟨0, _⟩ => rfl)
  have hsum : val_main_v63 (F := Ideal) x0 x1 x2 x3 x4 x5 x6 x7 x8 x9 x10 (ix2 g q)
      = Spec.poolSum (fun n => x2 (ix1 n)) (val_main_v60 (F := Ideal) x0 x1 x3 x4 x5 x6 x7 x8 x9 x10) g q := by
    unfold val_main_v63 Host.scatterAdd
    rw [Ideal.hostScatterAdd_def, v61_zero, Spec.scatterRows_apply, e62]
  have hcnt : val_main_v67 (F := Ideal) x2 (ix1 g) = Spec.poolCnt (fun n => x2 (ix1 n)) g := by
    unfold val_main_v67 Host.scatterAdd
    rw [Ideal.hostScatterAdd_def, v65_zero, v64_one, Spec.scatterCount_apply, e66]
  rw [val_main_v72_apply, val_main_v71_apply, val_main_v70_apply, ed, val_main_v69_apply, val_main_v68_apply,
    val_main_cst_13_apply, hsum, hcnt]
  simp only [Ideal.hostDivf_def, Ideal.maximumf_def, Ideal.ofBits_def, Ideal.ofBits_one_f32]
  rfl

end Cert.RefSpec

end
-- ==== Proof.AggBridge.lean ====
/-
  The kernel program's mean aggregation is the reference's.

  Both gather the same source rows and scatter-add them onto the same destination rows; the reference then divides row
  r by d_r, the larger of r's in-degree and one, where the kernel program multiplies by 1 / d_r. Since d_r ≥ 1 it is
  not zero, and over the extended reals x · (1 / d) = x / d for every x. A bias vector viewed as a 1 × 64 row, and the
  graph ids viewed as a column, read back entry by entry.
-/
import proofs.«412122_j12154757448413_2_alg».proof.Proof.KIHostDefs
import proofs.«412122_j12154757448413_2_alg».proof.Proof.RefSpec
import Idealize.ShloMosaic.Lib.Pipeline.Value
import Idealize.ShloMosaic.Lib.ValueIdx
import Idealize.ShloMosaic.Lib.ValueLayout
import Idealize.ShloMosaic.Lib.IdealHost

noncomputable section

namespace Cert.Bridge

open Idealize.ShloMosaic Idealize.ShloMosaic.ValueIdx
open Cert.KernelIdeal.Hand
open Cert.ReferenceIdeal.Read

/-- An n-vector viewed as an n × 1 column reads, at (r, 0), the vector at r: both have row-major position r. -/
theorem column_apply {α : Type} {n : ℕ} (x : (⟨1, ![n]⟩ : Shape).Idx → α)
    (hc : (⟨1, ![n]⟩ : Shape).ShapeCasts ⟨2, ![n, 1]⟩) (r : Fin n) (u : Fin 1) :
    shapeCast ⟨2, ![n, 1]⟩ x hc (ix2 r u) = x (ix1 r) :=
  shapeCast_apply x hc _ _ (by
    have hu : u.val = 0 := by omega
    rw [Shape.rowMajor_val_two, Shape.rowMajor_val_one]
    show r.val = r.val * 1 + u.val
    rw [hu, Nat.mul_one, Nat.add_zero])

/-- An n × 1 column spread along n × m rows reads, at (r, q), the column at (r, 0). -/
theorem spread_apply {α : Type} {n m : ℕ} (hn : n ≠ 1) (x : (⟨2, ![n, 1]⟩ : Shape).Idx → α)
    (hb : (⟨2, ![n, 1]⟩ : Shape).BroadcastsInDim ⟨2, ![n, m]⟩ ![0, 1]) (r : Fin n) (q : Fin m) :
    broadcastInDim ⟨2, ![n, m]⟩ ![0, 1] hb x (ix2 r q) = x (ix2 r (0 : Fin 1)) :=
  broadcastInDim_apply _ hb x _ _ (fun a => match a with
    | ⟨0, _⟩ => by show r.val = if n = 1 then 0 else r.val; rw [if_neg hn]
    | ⟨1, _⟩ => by show 0 = if (1 : Nat) = 1 then 0 else q.val; rw [if_pos rfl])

/-- The kernel program's gathered source rows scatter-added onto the destination rows are the reference's: the two
    programs spell the same array, the ids read off the same two rows of the edge list. -/
theorem scatterK_eq (h : FVec Ideal Cert.KernelIdeal.S100000x64 .f32) (e : IVec Cert.KernelIdeal.S2x1600000 32) :
    Host.scatterAdd Cert.KernelIdeal.scatter_S100000x64_S1600000x1_S1600000x64_1_0_0_1
      (broadcastInDim Cert.KernelIdeal.S100000x64 ![] Cert.KernelIdeal.Facts₀.bcast_S_S100000x64
        (constant (F := Ideal) Cert.KernelIdeal.S_ .f32 0x00000000#32))
      (broadcastInDim Cert.KernelIdeal.S1600000x1 ![0] Cert.KernelIdeal.Facts₀.bcast_S1600000_S1600000x1_0 (edgeDst e))
      (Host.gather Cert.KernelIdeal.gather_S100000x64_S1600000x1_S1600000x64_1_0_n_n_0_1_164 h
        (broadcastInDim Cert.KernelIdeal.S1600000x1 ![0] Cert.KernelIdeal.Facts₀.bcast_S1600000_S1600000x1_0
          (select (cmpi .slt (edgeSrc e) (broadcastInDim Cert.KernelIdeal.S1600000 ![] Cert.KernelIdeal.Facts₀.bcast_S_S1600000 (constantI Cert.KernelIdeal.S_ 32 0#32)))
            (addi (edgeSrc e) (broadcastInDim Cert.KernelIdeal.S1600000 ![] Cert.KernelIdeal.Facts₀.bcast_S_S1600000 (constantI Cert.KernelIdeal.S_ 32 100000#32))) (edgeSrc e))))
    = Cert.ReferenceIdeal.Read.val_main_v13 (F := Ideal) h e := rfl

/-- The kernel program's divisor vector, the larger of the in-degree and one, is the reference's. -/
theorem degK_eq (e : IVec Cert.KernelIdeal.S2x1600000 32) :
    maximumf
        (Host.scatterAdd Cert.KernelIdeal.scatter_S100000_S1600000x1_S1600000_n_0_0_1
          (broadcastInDim Cert.KernelIdeal.S100000 ![] Cert.KernelIdeal.Facts₀.bcast_S_S100000 (constant (F := Ideal) Cert.KernelIdeal.S_ .f32 0x00000000#32))
          (broadcastInDim Cert.KernelIdeal.S1600000x1 ![0] Cert.KernelIdeal.Facts₀.bcast_S1600000_S1600000x1_0 (edgeDst e))
          (broadcastInDim Cert.KernelIdeal.S1600000 ![] Cert.KernelIdeal.Facts₀.bcast_S_S1600000 (constant (F := Ideal) Cert.KernelIdeal.S_ .f32 0x3F800000#32)))
        (broadcastInDim Cert.KernelIdeal.S100000 ![] Cert.KernelIdeal.Facts₀.bcast_S_S100000 (constant (F := Ideal) Cert.KernelIdeal.S_ .f32 0x3F800000#32))
    = Cert.ReferenceIdeal.Read.val_main_v19 (F := Ideal) e := rfl

/-- The two aggregations agree, for any features and any edge list. -/
theorem aggK_eq_aggRef (h : FVec Ideal Cert.KernelIdeal.S100000x64 .f32) (e : IVec Cert.KernelIdeal.S2x1600000 32) :
    aggOfK (F := Ideal) h (edgeSrc e) (edgeDst e) (degInvK (F := Ideal) (edgeDst e)) = Cert.RefSpec.aggRef h e := by
  funext i
  obtain ⟨r, q, rfl⟩ : ∃ (r : Fin 100000) (q : Fin 64), i = ix2 r q := ⟨i 0, i 1, eq_ix2 i⟩
  -- the reference's divisor at (r, q) is its divisor vector at r
  have hR : val_main_v21 (F := Ideal) e (ix2 r q) = val_main_v19 (F := Ideal) e (ix1 r) := by
    rw [val_main_v21_apply, val_main_v20_apply]
    exact congrArg _ (funext fun a => match a with | ⟨0, _⟩ => rfl)
  -- the kernel program's reciprocal at (r, 0) is one over that divisor
  have hK : degInvK (F := Ideal) (edgeDst e) (ix2 r (0 : Fin 1)) = Ideal.div 1 (val_main_v19 (F := Ideal) e (ix1 r)) := by
    unfold degInvK
    rw [column_apply, degK_eq, hostDivf_apply, broadcastInDim_scalar_apply]
    show Ideal.div (Ideal.ofBits .f32 0x3F800000#32) _ = _
    rw [Ideal.ofBits_one_f32]
  -- the divisor is at least one
  have h1 : (1 : EReal) ≤ val_main_v19 (F := Ideal) e (ix1 r) := by
    rw [val_main_v19_apply, val_main_v18_apply, val_main_cst_3_apply]
    show 1 ≤ max _ (Ideal.ofBits .f32 0x3F800000#32)
    rw [Ideal.ofBits_one_f32]
    exact le_max_right _ _
  unfold aggOfK Cert.RefSpec.aggRef
  rw [mulf_apply, hostDivf_apply, spread_apply (by decide), hK, hR, scatterK_eq]
  exact Cert.Spec.mul_one_div _ _ h1

/-- A bias vector as a 1 × 64 row, entry by entry. -/
theorem biasRow_apply (b : FVec Ideal Cert.KernelIdeal.S64 .f32) (q : Fin 64) : biasRow (F := Ideal) b (ix2 0 q) = b (ix1 q) := by
  unfold biasRow
  exact shapeCast_a_1a_apply b _ 0 q

/-- The graph ids as a column, entry by entry. -/
theorem idsCol_apply (b : IVec Cert.KernelIdeal.S100000 32) (n : Fin 100000) : idsCol b (ix2 n 0) = b (ix1 n) := by
  unfold idsCol
  exact column_apply b _ n 0

end Cert.Bridge

end
-- ==== Proof.Bridge.lean ====
/-
  The kernel program's results are the reference's, layer by layer.

  Region 0's result array is the combine of the aggregated input features, the input features, and the first layer's
  weights and bias; the aggregation is the reference's; so the array is the reference's first layer. Region 1's result
  is the same combine of the aggregation of the first layer's output and that output, with the second layer's weights:
  the reference's second layer. Region 2's first result is the dense head of the second layer, and its second result
  the per-graph means of the head's rows: the reference's two results.
-/
import proofs.«412122_j12154757448413_2_alg».proof.Proof.KIHost
import proofs.«412122_j12154757448413_2_alg».proof.Proof.KIValue01
import proofs.«412122_j12154757448413_2_alg».proof.Proof.KIValue2Head
import proofs.«412122_j12154757448413_2_alg».proof.Proof.KIValue2Pool
import proofs.«412122_j12154757448413_2_alg».proof.Proof.RefSpec
import proofs.«412122_j12154757448413_2_alg».proof.Proof.AggBridge

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open Cert.ReferenceIdeal.Read (val_main_v22 val_main_v29 val_main_v48 val_main_v55 val_main_v60 val_main_v72)

variable (m : (ℓ : Loc Cert.KernelIdeal.nD Cert.KernelIdeal.τ Cert.KernelIdeal.sig) → Buf (Elt Ideal) ℓ) (c : Dev Cert.KernelIdeal.nD)

/-- Region 0's result array is the reference's first layer. -/
theorem layer1 :
    o2 (F := Ideal) m c = val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  unfold o2
  rw [final0 (R1 m) c]
  dsimp only [R1]
  rw [W1_v24 m c, W1_v25 m c, W1_of m c main_arg0 (by decide), W1_of m c main_arg3 (by decide), W1_of m c main_arg5 (by decide)]
  simp only [biasRow_apply]
  rw [aggK_eq_aggRef, Cert.RefSpec.v29_eq, Cert.RefSpec.v22_eq]

/-- Region 1's result array is the reference's second layer. -/
theorem layer2 :
    o4 (F := Ideal) m c = val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  unfold o4
  rw [final1 (R3 m) c]
  dsimp only [R3]
  rw [W3_v38 m c, W3_v39 m c, W3_v26 m c, W3_of m c main_arg6 (by decide) (by decide) (by decide), W3_of m c main_arg8 (by decide) (by decide) (by decide)]
  simp only [biasRow_apply]
  rw [layer1, aggK_eq_aggRef, Cert.RefSpec.v55_eq, Cert.RefSpec.v48_eq]

/-- Region 2's first result is the reference's head. -/
theorem out_head :
    o6a (F := Ideal) m c = val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  unfold o6a
  rw [final2_4 (R5 m) c]
  dsimp only [R5]
  rw [W5_v40 m c, W5_v42 m c, W5_of m c main_arg9 (by decide) (by decide) (by decide) (by decide) (by decide)]
  simp only [biasRow_apply]
  rw [layer2, Cert.RefSpec.v60_eq]

/-- Region 2's second result is the reference's pooled means. -/
theorem out_pool :
    o6b (F := Ideal) m c = val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  unfold o6b
  rw [final2_5 (R5 m) c]
  dsimp only [R5]
  rw [W5_v40 m c, W5_v41 m c, W5_v42 m c, W5_of m c main_arg9 (by decide) (by decide) (by decide) (by decide) (by decide)]
  simp only [biasRow_apply, idsCol_apply]
  rw [layer2, Cert.RefSpec.v72_eq, Cert.RefSpec.v60_eq]

end Cert.Bridge

end
-- ==== Proof.lean ====
/-
  The certificate: the kernel program (three kernel regions among host operations) and its idealization each run to the
  end, faulting nowhere and leaving the argument arrays as launched; the reference runs likewise; the idealization
  rewrote nothing; and at the ideal values the kernel program and the reference, from memories agreeing on the
  arguments, end with equal results.

  The kernel program computes two SAGE layers relu((mean-aggregated features · W_l + b) + features · W_r), a dense head
  relu(h · W + b), and per-graph means of the head's rows. It differs from the reference in three arrangements, none of
  which changes a value over the extended reals: the mean's division by max(in-degree, 1) is a multiplication by the
  reciprocal, equal because the divisor is at least one; each dense layer is computed in ten blocks of 10000 rows, equal
  entry by entry because a matrix product's entry is a sum over the contracted coordinate; and the per-graph sums and
  counts are accumulated block by block as products with a one-hot membership matrix, equal to the reference's
  scatter-add because 0 · x = 0 and 1 · x = x for every extended real and addition is commutative and associative.
  No step uses that the inputs are finite.
-/
import proofs.«412122_j12154757448413_2_alg».proof.Defs
import proofs.«412122_j12154757448413_2_alg».proof.Proof.Gen.Kernel
import proofs.«412122_j12154757448413_2_alg».proof.Proof.Gen.KernelIdeal
import proofs.«412122_j12154757448413_2_alg».proof.Proof.Gen.ReferenceIdeal
import proofs.«412122_j12154757448413_2_alg».proof.Proof.Gen.Pre_finite_inputs
import proofs.«412122_j12154757448413_2_alg».proof.Proof.KRun
import proofs.«412122_j12154757448413_2_alg».proof.Proof.KIRun
import proofs.«412122_j12154757448413_2_alg».proof.Proof.RefRead
import proofs.«412122_j12154757448413_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal values both programs end with equal results: the kernel program's run names its two result arrays,
    which are the reference's two result terms of the same arguments. -/
theorem algebraic : Cert.algebraic_KernelIdeal_ReferenceIdeal := by
  intro m ρ m' ρ' _ hagree
  refine ⟨fun c => Cert.KernelIdeal.Hand.o6a (F := Ideal) m c, fun c => Cert.KernelIdeal.Hand.o6b (F := Ideal) m c,
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v60_eq, h0, h1, h3, h4, h5, h6, h7, h8, h9, h10]
    exact (Cert.Bridge.out_head m c).symm
  · obtain ⟨h0, h1, h2, h3, h4, h5, h6, h7, h8, h9, h10⟩ := hagree c
    rw [Cert.ReferenceIdeal.Read.val_main_v72_eq, h0, h1, h2, h3, h4, h5, h6, h7, h8, h9, h10]
    exact (Cert.Bridge.out_pool m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
